-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x50000 : Shape := ⟨2, ![1, 50000]⟩
abbrev S64 : Shape := ⟨1, ![64]⟩
abbrev S64x1 : Shape := ⟨2, ![64, 1]⟩
abbrev S64x50000 : Shape := ⟨2, ![64, 50000]⟩
abbrev S64x51200 : Shape := ⟨2, ![64, 51200]⟩
abbrev S51200x128 : Shape := ⟨2, ![51200, 128]⟩
abbrev S64x10 : Shape := ⟨2, ![64, 10]⟩
abbrev S64x2560 : Shape := ⟨2, ![64, 2560]⟩
abbrev S2560x128 : Shape := ⟨2, ![2560, 128]⟩
abbrev S64x128 : Shape := ⟨2, ![64, 128]⟩
abbrev S1x10 : Shape := ⟨2, ![1, 10]⟩

abbrev nBuf : Space → Nat
  | .hbm => 102
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x128, .f32⟩
  | .hbm, ⟨71, _⟩ => ⟨S850000x1, .f32⟩
  | .hbm, ⟨72, _⟩ => ⟨S850000x128, .f32⟩
  | .hbm, ⟨73, _⟩ => ⟨S850000x128, .f32⟩
  | .hbm, ⟨74, _⟩ => ⟨S_, .f32⟩
  | .hbm, ⟨75, _⟩ => ⟨S50000x128, .f32⟩
  | .hbm, ⟨76, _⟩ => ⟨S850000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S1x50000, .i32⟩
  | .hbm, ⟨81, _⟩ => ⟨S64, .i32⟩
  | .hbm, ⟨82, _⟩ => ⟨S64x1, .i32⟩
  | .hbm, ⟨83, _⟩ => ⟨S64x50000, .i32⟩
  | .hbm, ⟨84, _⟩ => ⟨S64x50000, .i32⟩
  | .hbm, ⟨85, _⟩ => ⟨S64x50000, .i1⟩
  | .hbm, ⟨86, _⟩ => ⟨S64x50000, .f32⟩
  | .hbm, ⟨87, _⟩ => ⟨S_, .f32⟩
  | .hbm, ⟨88, _⟩ => ⟨S64, .f32⟩
  | .hbm, ⟨89, _⟩ => ⟨S64x1, .f32⟩
  | .hbm, ⟨90, _⟩ => ⟨S_, .f32⟩
  | .hbm, ⟨91, _⟩ => ⟨S64x1, .f32⟩
  | .hbm, ⟨92, _⟩ => ⟨S64x1, .f32⟩
  | .hbm, ⟨93, _⟩ => ⟨S64x50000, .f32⟩
  | .hbm, ⟨94, _⟩ => ⟨S64x50000, .f32⟩
  | .hbm, ⟨95, _⟩ => ⟨S_, .i32⟩
  | .hbm, ⟨96, _⟩ => ⟨S_, .f32⟩
  | .hbm, ⟨97, _⟩ => ⟨S64x51200, .f32⟩
  | .hbm, ⟨98, _⟩ => ⟨S_, .i32⟩
  | .hbm, ⟨99, _⟩ => ⟨S_, .f32⟩
  | .hbm, ⟨100, _⟩ => ⟨S51200x128, .f32⟩
  | .hbm, ⟨101, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S64x2560, .f32⟩
  | .local _ .vmem, ⟨21, _⟩ => ⟨S64x2560, .f32⟩
  | .local _ .vmem, ⟨22, _⟩ => ⟨S2560x128, .f32⟩
  | .local _ .vmem, ⟨23, _⟩ => ⟨S2560x128, .f32⟩
  | .local _ .vmem, ⟨24, _⟩ => ⟨S128x10, .f32⟩
  | .local _ .vmem, ⟨25, _⟩ => ⟨S10, .f32⟩
  | .local _ .vmem, ⟨26, _⟩ => ⟨S64x10, .f32⟩
  | .local _ .vmem, ⟨27, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_call0_v0 : Ref sig .tc := ⟨.hbm, 96, rfl⟩
abbrev main_v72 : Ref sig .tc := ⟨.hbm, 97, rfl⟩
abbrev main_c_13 : Ref sig .tc := ⟨.hbm, 98, rfl⟩
abbrev main_call1_v0 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v15 : BitVec 1 := Scalar.cmpi .eq arg0 c19_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S64x2560 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2560x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000_S1x50000_1 : S50000.BroadcastsInDim S1x50000 (![1] : Fin 1 → Fin S1x50000.rank)
  bcast_S64_S64x1_0 : S64.BroadcastsInDim S64x1 (![0] : Fin 1 → Fin S64x1.rank)
  bcast_S1x50000_S64x50000_0_1 : S1x50000.BroadcastsInDim S64x50000 (![0, 1] : Fin 2 → Fin S64x50000.rank)
  bcast_S64x1_S64x50000_0_1 : S64x1.BroadcastsInDim S64x50000 (![0, 1] : Fin 2 → Fin S64x50000.rank)
  reducesTo_S64x50000_S64_d1 : S64x50000.ReducesTo [1] S64
  h_S_ : 0 < S_.numel
  bcast_S_S64x1 : S_.BroadcastsInDim S64x1 (![] : Fin 0 → Fin S64x1.rank)
  pads_S64x50000_S64x51200_000_012000 : S64x50000.Pads (![0, 0] : Fin 2 → Nat) ![0, 1200] ![0, 0] S64x51200
  pads_S50000x128_S51200x128_012000_000 : S50000x128.Pads (![0, 0] : Fin 2 → Nat) ![1200, 0] ![0, 0] S51200x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x2560_S2560x128_S64x128_1_0_0_1_n_n_wf : DotDims.WF S64x2560 S2560x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x2560.size a ≤ S64x51200.size a
  hwx4_0 : ∀ i : grid4.Coords, EltTy.bits .f32 = 32 ∨ (Rect.block (s := S64x51200) S64x2560.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2560x128.size a ≤ S51200x128.size a
  hwx4_1 : ∀ i : grid4.Coords, EltTy.bits .f32 = 32 ∨ (Rect.block (s := S51200x128) S2560x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10.size a ≤ S10.size a
  hwx4_3 : ∀ i : grid4.Coords, EltTy.bits .f32 = 32 ∨ (Rect.block (s := S10) S10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x2560_S2560x128_S64x128_1_0_0_1_n_n : DotDims S64x2560 S2560x128 S64x128 where
  lhsContracting := [1]
  rhsContracting := [0]
  lhsNonContracting := [0]
  rhsNonContracting := [1]
  lhsBatch := []
  rhsBatch := []
  wf := dot_S64x2560_S2560x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S64x2560.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S2560x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S64x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S50000x128, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x1, .f32⟩
  | 53 => ⟨S850000x128, .f32⟩
  | 54 => ⟨S850000x128, .f32⟩
  | 55 => ⟨S_, .f32⟩
  | 56 => ⟨S50000x128, .f32⟩
  | 57 => ⟨S850000x1, .i32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000, .i32⟩
  | 66 => ⟨S1x800000, .i32⟩
  | 67 => ⟨S800000, .i32⟩
  | 68 => ⟨S850000, .i32⟩
  | 69 => ⟨S1x800000, .i32⟩
  | 70 => ⟨S800000, .i32⟩
  | 71 => ⟨S850000, .i32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S50000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S50000x128, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x1, .f32⟩
  | 109 => ⟨S850000x128, .f32⟩
  | 110 => ⟨S850000x128, .f32⟩
  | 111 => ⟨S_, .f32⟩
  | 112 => ⟨S50000x128, .f32⟩
  | 113 => ⟨S850000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S64x128, .f32⟩
  | 123 => ⟨S50000x1, .i32⟩
  | 124 => ⟨S64x128, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S64, .f32⟩
  | 1 => ⟨S50000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x128, .f32⟩
  | 8 => ⟨S64x128, .f32⟩
  | 9 => ⟨S64x10, .f32⟩
  | 10 => ⟨S1x10, .f32⟩
  | 11 => ⟨S64x10, .f32⟩
  | 12 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Reg0.lean ====
/-
  The first pallas_call (the feature product of layer 1): a grid of ten points, point t taking rows
  5000·t … 5000·t + 4999 of the node features (window 0), the whole 128 × 128 weight (window 1, fetched
  once) and writing rows 5000·t … of the product (window 2). The body loads both input blocks whole,
  multiplies them on the matrix unit onto a zero accumulator and stores the product over the whole output
  block; nothing is kept between points. Stated for any float instance.
-/
import proofs.«427735_j54941221650950_1_alg».proof.Proof.Gen.KernelIdeal.Launch
import proofs.«427735_j54941221650950_1_alg».proof.Proof.Gen.KernelIdeal.Skeleton
import proofs.«427735_j54941221650950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point, though it is fetched only at the first:
    its block index never moves and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

abbrev r0_rows : Rect S5000x128 := Rect.unit (s := S5000x128) ![0, 0] S5000x128.size inb_S5000x128_S5000x128_0_0
abbrev r0_wt : Rect S128x128 := Rect.unit (s := S128x128) ![0, 0] S128x128.size inb_S128x128_S128x128_0_0

/-- The output block after the body: the product of the two input blocks, stored over the whole block. -/
def out0_2 (x0 : Vec F S5000x128 .f32) (x1 : Vec F S128x128 .f32) : Vec F S5000x128 .f32 :=
  View.canon [⟨r0_rows, k0_pay1 (View.ld x0 r0_rows) (View.ld x1 r0_wt)⟩]

theorem cover0_2 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging buffers: the inputs end as they were, the output holds the product. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_matmul_kernel i arg1 harg1 arg2 harg2 arg3 harg3) K := by
  simp only [cc0__feature_matmul_kernel_eq_skeleton]; unfold cc0__feature_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Region 0's proof data on core `c`: the arrays as the region finds them; after the body each input buffer at
    its block and the output buffer at the product of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.Reg1.lean ====
/-
  The second pallas_call (bias and rectifier of layer 1): a grid of ten points, point t taking rows 5000·t … 5000·t + 4999 of the aggregated messages (window 0) and the 1 × 128 bias row (window 1, fetched once), and writing max(row + bias, 0) over rows 5000·t … of the output (window 2). The body loads both input blocks whole, adds the bias row to every row, takes the maximum with zero and stores over the whole output block; nothing is kept between points. Stated for any float instance.
-/
import proofs.«427735_j54941221650950_1_alg».proof.Proof.Gen.KernelIdeal.Launch
import proofs.«427735_j54941221650950_1_alg».proof.Proof.Gen.KernelIdeal.Skeleton
import proofs.«427735_j54941221650950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, though it is fetched only at the first:
    its block index never moves and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

abbrev r1_rows : Rect S5000x128 := Rect.unit (s := S5000x128) ![0, 0] S5000x128.size inb_S5000x128_S5000x128_0_0
abbrev r1_bias : Rect S1x128 := Rect.unit (s := S1x128) ![0, 0] S1x128.size inb_S1x128_S1x128_0_0

/-- The output block after the body: the rows plus the bias row, cut off below at zero, stored over the whole block. -/
def out1_2 (x0 : Vec F S5000x128 .f32) (x1 : Vec F S1x128 .f32) : Vec F S5000x128 .f32 :=
  View.canon [⟨r1_rows, k1_pay1 (View.ld x0 r1_rows) (View.ld x1 r1_bias)⟩]

theorem cover1_2 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in
/-- The body on whole staging buffers: the inputs end as they were, the output holds the rectified sum. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Region 1's proof data on core `c`: the arrays as the region finds them; after the body each input buffer at
    its block and the output buffer at the rectified sum of the blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.Reg2.lean ====
/-
  The third pallas_call (the feature product of layer 2): the same grid and body as the first, on the first layer's output rows (window 0: rows 5000·t … of the 50000 × 128 activations) and the second 128 × 128 weight (window 1, fetched once), writing rows 5000·t … of their product (window 2). Stated for any float instance.
-/
import proofs.«427735_j54941221650950_1_alg».proof.Proof.Gen.KernelIdeal.Launch
import proofs.«427735_j54941221650950_1_alg».proof.Proof.Gen.KernelIdeal.Skeleton
import proofs.«427735_j54941221650950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point, though it is fetched only at the first:
    its block index never moves and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body -/

abbrev r2_rows : Rect S5000x128 := Rect.unit (s := S5000x128) ![0, 0] S5000x128.size inb_S5000x128_S5000x128_0_0
abbrev r2_wt : Rect S128x128 := Rect.unit (s := S128x128) ![0, 0] S128x128.size inb_S128x128_S128x128_0_0

/-- The output block after the body: the product of the two input blocks, stored over the whole block. -/
def out2_2 (x0 : Vec F S5000x128 .f32) (x1 : Vec F S128x128 .f32) : Vec F S5000x128 .f32 :=
  View.canon [⟨r2_rows, k2_pay1 (View.ld x0 r2_rows) (View.ld x1 r2_wt)⟩]

theorem cover2_2 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 1000000 in
/-- The body on whole staging buffers: the inputs end as they were, the output holds the product. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__feature_matmul_kernel i arg1 harg1 arg2 harg2 arg3 harg3) K := by
  simp only [cc2__feature_matmul_kernel_eq_skeleton]; unfold cc2__feature_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- Region 2's proof data on core `c`: the arrays as the region finds them; after the body each input buffer at
    its block and the output buffer at the product of the blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.Reg3.lean ====
/-
  The fourth pallas_call (bias and rectifier of layer 2): a grid of ten points, point t taking rows 5000·t … 5000·t + 4999 of the second layer's aggregated messages (window 0) and the second 1 × 128 bias row (window 1, fetched once), and writing max(row + bias, 0) over rows 5000·t … of the output (window 2). The body loads both input blocks whole, adds the bias row to every row, takes the maximum with zero and stores over the whole output block; nothing is kept between points. Stated for any float instance.
-/
import proofs.«427735_j54941221650950_1_alg».proof.Proof.Gen.KernelIdeal.Launch
import proofs.«427735_j54941221650950_1_alg».proof.Proof.Gen.KernelIdeal.Skeleton
import proofs.«427735_j54941221650950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The message window's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the bias row at every point, though it is fetched only at the first:
    its block index never moves and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body -/

abbrev r3_rows : Rect S5000x128 := Rect.unit (s := S5000x128) ![0, 0] S5000x128.size inb_S5000x128_S5000x128_0_0
abbrev r3_bias : Rect S1x128 := Rect.unit (s := S1x128) ![0, 0] S1x128.size inb_S1x128_S1x128_0_0

/-- The output block after the body: the rows plus the bias row, cut off below at zero, stored over the whole block. -/
def out3_2 (x0 : Vec F S5000x128 .f32) (x1 : Vec F S1x128 .f32) : Vec F S5000x128 .f32 :=
  View.canon [⟨r3_rows, k3_pay1 (View.ld x0 r3_rows) (View.ld x1 r3_bias)⟩]

theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in
/-- The body on whole staging buffers: the inputs end as they were, the output holds the rectified sum. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Region 3's proof data on core `c`: the arrays as the region finds them; after the body each input buffer at
    its block and the output buffer at the rectified sum of the blocks; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.Reg4.lean ====
/-
  The fifth pallas_call (mean pooling and the classifier): a grid of twenty points, point t taking columns
  2560·t … 2560·t + 2559 of the 64 × 51200 pooling matrix (window 0) and rows 2560·t … of the node features
  (window 1), with the 128 × 10 classifier weight (window 2) and the bias (window 3) fetched once, and a
  64 × 10 output block (window 4) written back after the last point only. A 64 × 128 scratch is carried from
  point to point: zeroed at the first point, increased at every point by the product of the two blocks; at the
  last point the classifier is applied to it and the result stored into the output block, which is idle
  elsewhere. Stated for any float instance.
-/
import proofs.«427735_j54941221650950_1_alg».proof.Proof.Gen.KernelIdeal.Launch
import proofs.«427735_j54941221650950_1_alg».proof.Proof.Gen.KernelIdeal.Skeleton
import proofs.«427735_j54941221650950_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The pooling-matrix window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The feature window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The classifier weight's staging buffer holds the weight at every point, though it is fetched only at the first:
    its block index never moves and the body leaves the buffer as it found it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same for the bias. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions of the body -/

/-- The first branch is taken where the grid coordinate is 0 (the accumulator is reset there); -/
abbrev cond4_0 (i : grid4.Coords) : Prop := (Scalar.cmpi .ne (Scalar.extui (Scalar.cmpi .eq (BitVec.ofNat 32 (i 0).val) 0#32)) 0#32) = 1#1
/-- the last where it is 19 (the classifier is applied there). -/
abbrev cond4_1 (i : grid4.Coords) : Prop := k4_cond2 i = 1#1

/-! ## Loads of whole blocks -/

theorem z4_two : (![0, 0] : Fin 2 → Nat) = fun _ => 0 := by decide
theorem z4_one : (![0] : Fin 1 → Nat) = fun _ => 0 := by decide

/-- A load of a whole block reads the block: for each of the five shapes the body loads. -/
theorem rd4_acc {κ : Kind} {sp : Space} (v : View sig κ sp S64x128 .f32) (f : v.ty.Contents (Elt F)) :
    View.readAt (Elt F) v (Rect.unit (s := S64x128) ![0, 0] S64x128.size inb_S64x128_S64x128_0_0).toLoadRect f = View.read (Elt F) v f :=
  View.ld_unit_zero z4_two _ _
theorem rd4_pool {κ : Kind} {sp : Space} (v : View sig κ sp S64x2560 .f32) (f : v.ty.Contents (Elt F)) :
    View.readAt (Elt F) v (Rect.unit (s := S64x2560) ![0, 0] S64x2560.size inb_S64x2560_S64x2560_0_0).toLoadRect f = View.read (Elt F) v f :=
  View.ld_unit_zero z4_two _ _
theorem rd4_feat {κ : Kind} {sp : Space} (v : View sig κ sp S2560x128 .f32) (f : v.ty.Contents (Elt F)) :
    View.readAt (Elt F) v (Rect.unit (s := S2560x128) ![0, 0] S2560x128.size inb_S2560x128_S2560x128_0_0).toLoadRect f = View.read (Elt F) v f :=
  View.ld_unit_zero z4_two _ _
theorem rd4_wt {κ : Kind} {sp : Space} (v : View sig κ sp S128x10 .f32) (f : v.ty.Contents (Elt F)) :
    View.readAt (Elt F) v (Rect.unit (s := S128x10) ![0, 0] S128x10.size inb_S128x10_S128x10_0_0).toLoadRect f = View.read (Elt F) v f :=
  View.ld_unit_zero z4_two _ _
theorem rd4_bias {κ : Kind} {sp : Space} (v : View sig κ sp S10 .f32) (f : v.ty.Contents (Elt F)) :
    View.readAt (Elt F) v (Rect.unit (s := S10) ![0] S10.size inb_S10_S10_0).toLoadRect f = View.read (Elt F) v f :=
  View.ld_unit_zero z4_one _ _

/-- A store over the whole block covers it, whatever was stored before. -/
theorem cover4_acc (p : Vec F S64x128 .f32) (L : List (View.Piece (Elt F) S64x128 .f32)) (y : S64x128.Idx) :
    ∃ pc ∈ ((⟨Rect.unit (s := S64x128) ![0, 0] S64x128.size inb_S64x128_S64x128_0_0, p⟩ :: L : List (View.Piece (Elt F) S64x128 .f32))), y ∈ pc.1.set :=
  ⟨_, List.mem_cons_self .., View.mem_set_unit_zero z4_two inb_S64x128_S64x128_0_0 y⟩
theorem cover4_out (p : Vec F S64x10 .f32) (L : List (View.Piece (Elt F) S64x10 .f32)) (y : S64x10.Idx) :
    ∃ pc ∈ ((⟨Rect.unit (s := S64x10) ![0, 0] S64x10.size inb_S64x10_S64x10_0_0, p⟩ :: L : List (View.Piece (Elt F) S64x10 .f32))), y ∈ pc.1.set :=
  ⟨_, List.mem_cons_self .., View.mem_set_unit_zero z4_two inb_S64x10_S64x10_0_0 y⟩

/-! ## The body, case by case -/

set_option maxHeartbeats 1000000 in
/-- The first point: the scratch, whatever it held, is zeroed and then gains the product of the two blocks. -/
theorem sound_kernel4_A (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : cond4_0 i) (hc1 : ¬cond4_1 i)
    (x0 : Vec F S64x2560 .f32) (x1 : Vec F S2560x128 .f32) (x2 : Vec F S128x10 .f32) (x3 : Vec F S10 .f32) (x4 : Vec F S64x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k4_pay2 (k4_pay1 (F := F)) x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (cover4_acc _ _),
    View.canon_cons_unit_zero z4_two, View.readCov_unit_zero _ z4_two, rd4_pool, rd4_feat]

set_option maxHeartbeats 1000000 in
/-- A point that is neither first nor last: the scratch gains the product of the two blocks; nothing else moves. -/
theorem sound_kernel4_B (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : ¬cond4_0 i) (hc1 : ¬cond4_1 i)
    (x0 : Vec F S64x2560 .f32) (x1 : Vec F S2560x128 .f32) (x2 : Vec F S128x10 .f32) (x3 : Vec F S10 .f32) (x4 : Vec F S64x10 .f32)
    (s : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k4_pay2 s x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover4_acc _ _),
    View.canon_unit_zero z4_two]
  rw [rd4_acc, rd4_pool, rd4_feat]

set_option maxHeartbeats 1000000 in
/-- The last point: the scratch gains the product of the two blocks, and the output block, whatever it held,
    receives the classifier applied to the scratch so updated. -/
theorem sound_kernel4_C (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : ¬cond4_0 i) (hc1 : cond4_1 i)
    (x0 : Vec F S64x2560 .f32) (x1 : Vec F S2560x128 .f32) (x2 : Vec F S128x10 .f32) (x3 : Vec F S10 .f32)
    (s : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 (k4_pay2 s x0 x1) x2 x3) ∗ owns (c : Thread nD τ) arg6 fullShare (k4_pay2 s x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover4_out _ _),
      View.canon_unit_zero z4_two, View.readCov_unit_zero _ z4_two, rd4_acc, rd4_pool, rd4_feat, rd4_wt, rd4_bias]
  iexists _; isplitr
  swap; · iexact H5
  ipureintro
  sl_unfold_run_names
  rw [View.read_writes_eq_canon _ _ _ (cover4_acc _ _),
    View.canon_unit_zero z4_two, rd4_acc, rd4_pool, rd4_feat]

/-! ## Where the conditions hold, and where the output window is idle -/

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

/-- The four inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- The output is idle, and not written back, at every point but the last; at the last it is stored. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## The accumulator point by point, and the output -/

/-- The scratch after the body at point `n`: zero plus the first product at the first point, then what the point
    before left plus this point's product. -/
def acc4 (c : Dev nD) : (n : ℕ) → n < cfg4.N → Vec F S64x128 .f32
  | 0, h => k4_pay2 (k4_pay1 (F := F)) (iblk4 V c 0 ⟨0, h⟩) (iblk4 V c 1 ⟨0, h⟩)
  | n + 1, h => k4_pay2 (acc4 c n (Nat.lt_of_succ_lt h)) (iblk4 V c 0 ⟨n + 1, h⟩) (iblk4 V c 1 ⟨n + 1, h⟩)

theorem acc4_zero (c : Dev nD) (h0 : 0 < cfg4.N) :
    acc4 V c 0 h0 = k4_pay2 (k4_pay1 (F := F)) (iblk4 V c 0 ⟨0, h0⟩) (iblk4 V c 1 ⟨0, h0⟩) := rfl

theorem acc4_succ (c : Dev nD) (n : ℕ) (hn : n + 1 < cfg4.N) :
    acc4 V c (n + 1) hn = k4_pay2 (acc4 V c n (Nat.lt_of_succ_lt hn)) (iblk4 V c 0 ⟨n + 1, hn⟩) (iblk4 V c 1 ⟨n + 1, hn⟩) := rfl

/-- At the first point, stated at the point. -/
theorem acc4_first (c : Dev nD) (t : Fin cfg4.N) (ht : t.val = 0) :
    acc4 V c t.val t.isLt = k4_pay2 (k4_pay1 (F := F)) (iblk4 V c 0 t) (iblk4 V c 1 t) := by
  obtain ⟨n, hn⟩ := t
  cases n with
  | zero => rfl
  | succ n => exact absurd ht (Nat.succ_ne_zero n)

/-- At a later point, stated at the point. -/
theorem acc4_later (c : Dev nD) (t : Fin cfg4.N) (ht : t.val ≠ 0) :
    acc4 V c t.val t.isLt
      = k4_pay2 (acc4 V c (t.val - 1) (Nat.lt_of_le_of_lt (Nat.sub_le _ _) t.isLt)) (iblk4 V c 0 t) (iblk4 V c 1 t) := by
  obtain ⟨n, hn⟩ := t
  cases n with
  | zero => exact absurd rfl ht
  | succ n => rfl

theorem lt19_4 : 19 < cfg4.N := by decide

/-- The 64×10 output block the last point stores: the classifier applied to the finished accumulator. -/
def out4 (c : Dev nD) : Vec F S64x10 .f32 :=
  k4_pay3 (acc4 V c 19 lt19_4) (iblk4 V c 2 ⟨19, lt19_4⟩) (iblk4 V c 3 ⟨19, lt19_4⟩)

theorem out4_eq (c : Dev nD) (h19 : 19 < cfg4.N) :
    out4 V c = k4_pay3 (acc4 V c 19 h19) (iblk4 V c 2 ⟨19, h19⟩) (iblk4 V c 3 ⟨19, h19⟩) := rfl

/-- The same stated at the last point. -/
theorem out4_at (c : Dev nD) (t : Fin cfg4.N) (ht : t.val = 19) :
    out4 V c = k4_pay3 (acc4 V c t.val t.isLt) (iblk4 V c 2 t) (iblk4 V c 3 t) := by
  obtain ⟨n, hn⟩ := t
  dsimp only at ht
  subst ht
  rfl

/-! ## The scratch and the rest of the region's invariant -/

/-- The scratch accumulator, a whole buffer of the kernel's own. -/
abbrev scM4 : Memref sig .tc .vmem S64x128 .f32 := Memref.whole cc4_scratch0

/-- The scoped buffers other than the staging buffers and the scratch, at anything. -/
abbrev rest4 (c : Dev nD) : sProp 𝕄 :=
  Pipeline.scopedRestBut (Ix := Unit) (Name := ℕ) (U := UR sig nD τ) (Lvl := ℕ) (Val := Elt F) spec4 c [cc4_scratch0]

/-- What the launch hands the region: the scratch at anything, the other scoped buffers, the generator register. -/
theorem PhiA4_eq (c : Dev nD) :
    (Pipeline.ΦA spec4 c : sProp 𝕄)
      = iprop(iprop((∃ d, owns (c : Thread nD τ) scM4 fullShare d) ∗ rest4 (F := F) c) ∗ (∃ r, prngReg c r)) := by
  unfold Pipeline.ΦA
  rw [Pipeline.scopedRest_split_of_list spec4 c [cc4_scratch0] (by decide) (by decide)]
  simp only [bigSepL_singleton, scM4, owns_whole]; try rfl

/-- The region's invariant before position `n`: before the first point what the launch hands over; afterwards the
    scratch at what the point before left in it, beside the other scoped buffers and the generator register. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ rest4 (F := F) c) ∗ (∃ r, prngReg c r)) := by
  cases n with
  | zero => exact absurd rfl hz
  | succ n => rfl

/-! ## The proof data -/

/-- Region 4's proof data on core `c`: the arrays as the region finds them; after the body each input buffer at its
    block and the output buffer at the classifier's result (stored at the last point only; elsewhere the window is
    idle and not written back, and nothing reads this); the invariant carries the scratch from point to point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 V c := by dsimp only [dat4]
theorem after4_4_last (c : Dev nD) (t : Fin cfg4.N) (ht : t.val = 19) : (dat4 V c).after 4 t = out4 V c := after4_4 V c t

theorem owed4 (c : Dev nD) (t) : (dat4 V c).owed t = 0 := rfl
theorem q4 (c : Dev nD) : (dat4 V c).q = fun _ => fullShare := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- The body at any point. The inputs' buffers hold their blocks; the position says which of the three cases runs.
    The invariant hands over the scratch — at anything at the first point, at what the point before left later —
    and takes it back at this point's accumulator; the output buffer comes back untouched except at the last
    point, where it holds the classifier's result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 20 := lt_of_lt_of_eq t.isLt (show cfg4.N = 20 from N_4)
  by_cases h1 : t.val = 19
  · have hz : t.val ≠ 0 := by omega
    rw [show (dat4 V c).leavesExact 4 t = owns (c : Thread nD τ) (st4_4 t) fullShare ((dat4 V c).after 4 t) from by
      unfold Dat.leavesExact; rw [liveAt4_4 t ((hcond4_1 t).mpr h1)], after4_4]
    rw [out4_at V c t h1, acc4_later V c t hz]
    rw [PhiS4_castSucc V c t, PhiS4_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel4_C c Set.univ _ _ _ _ _ _ _ _ _ _ _ _ _ (fun h => hz ((hcond4_0 t).mp h)) ((hcond4_1 t).mpr h1)
      (iblk4 V c 0 t) (iblk4 V c 1 t) (iblk4 V c 2 t) (iblk4 V c 3 t) (acc4 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat4 V c) 4 t (idleAt4_4 t (fun h => h1 ((hcond4_1 t).mp h))) (noFlush4_4 t (fun h => h1 ((hcond4_1 t).mp h)))]
    by_cases hz : t.val = 0
    · rw [acc4_first V c t hz, PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ _ _ _ _ _ _ _ _ _ _ _ _ _ ((hcond4_0 t).mpr hz) (fun h => h1 ((hcond4_1 t).mp h))
        (iblk4 V c 0 t) (iblk4 V c 1 t) (iblk4 V c 2 t) (iblk4 V c 3 t) ((dat4 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc4_later V c t hz, PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel4_B c Set.univ _ _ _ _ _ _ _ _ _ _ _ _ _ (fun h => hz ((hcond4_0 t).mp h)) (fun h => h1 ((hcond4_1 t).mp h))
        (iblk4 V c 0 t) (iblk4 V c 1 t) (iblk4 V c 2 t) (iblk4 V c 3 t) ((dat4 V c).before 4 t d4)
        (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]; · iexists _; iexact HS
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Reg

end
-- ==== Proof.SegsDefs.lean ====
/-
  The contents of the core's unscoped buffers between the items of the kernel program's @main: the launch memory,
  then each host stretch folded over it, then, after a pallas_call, its output array at what the grid's write-backs
  leave and every other buffer unchanged; and every pipeline's proof data at its region's entry contents. Stated for
  any float instance.
-/
import proofs.«427735_j54941221650950_1_alg».proof.Proof.Reg0
import proofs.«427735_j54941221650950_1_alg».proof.Proof.Reg1
import proofs.«427735_j54941221650950_1_alg».proof.Proof.Reg2
import proofs.«427735_j54941221650950_1_alg».proof.Proof.Reg3
import proofs.«427735_j54941221650950_1_alg».proof.Proof.Reg4
import proofs.«427735_j54941221650950_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
open Cert.KernelIdeal.Reg
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A core's buffer contents read at the TensorCore's references. -/
abbrev asV (W : Dev nD → Valuation τ sig (Elt F)) : (c : Dev nD) → (b : Ref sig .tc) → Buf (Elt F) ((c : Thread nD τ).loc b) :=
  fun c b => W c b

/-- Before the first pallas_call: the launch memory after the first host stretch. -/
abbrev W1 : Dev nD → Valuation τ sig (Elt F) := fun c => V1 m c
/-- The first pallas_call's result array. -/
def o27 (c : Dev nD) : Buf (Elt F) ((c : Thread nD τ).loc main_v27) := (dat0 (asV (W1 m)) c).arrAt 2 cfg0.N
def W2 (c : Dev nD) : Valuation τ sig (Elt F) := Function.update (W1 m c) main_v27 (o27 m c)
abbrev W3 : Dev nD → Valuation τ sig (Elt F) := fun c => StableHlo.after hostOps1 (W2 m c)
/-- The second pallas_call's result array. -/
def o42 (c : Dev nD) : Buf (Elt F) ((c : Thread nD τ).loc main_v42) := (dat1 (asV (W3 m)) c).arrAt 2 cfg1.N
def W4 (c : Dev nD) : Valuation τ sig (Elt F) := Function.update (W3 m c) main_v42 (o42 m c)
/-- The third pallas_call's result array. -/
def o43 (c : Dev nD) : Buf (Elt F) ((c : Thread nD τ).loc main_v43) := (dat2 (asV (W4 m)) c).arrAt 2 cfg2.N
def W5 (c : Dev nD) : Valuation τ sig (Elt F) := Function.update (W4 m c) main_v43 (o43 m c)
abbrev W6 : Dev nD → Valuation τ sig (Elt F) := fun c => StableHlo.after hostOps3 (W5 m c)
/-- The fourth pallas_call's result array. -/
def o58 (c : Dev nD) : Buf (Elt F) ((c : Thread nD τ).loc main_v58) := (dat3 (asV (W6 m)) c).arrAt 2 cfg3.N
def W7 (c : Dev nD) : Valuation τ sig (Elt F) := Function.update (W6 m c) main_v58 (o58 m c)
abbrev W8 : Dev nD → Valuation τ sig (Elt F) := fun c => StableHlo.after hostOps4 (W7 m c)
abbrev W9 : Dev nD → Valuation τ sig (Elt F) := fun c => StableHlo.after hostOps4_1 (W8 m c)
abbrev W10 : Dev nD → Valuation τ sig (Elt F) := fun c => StableHlo.after hostOps4_2 (W9 m c)
abbrev W11 : Dev nD → Valuation τ sig (Elt F) := fun c => StableHlo.after hostOps4_3 (W10 m c)
/-- The fifth pallas_call's result array: the program's result. -/
def o74 (c : Dev nD) : Buf (Elt F) ((c : Thread nD τ).loc main_v74) := (dat4 (asV (W11 m)) c).arrAt 4 cfg4.N
def W12 (c : Dev nD) : Valuation τ sig (Elt F) := Function.update (W11 m c) main_v74 (o74 m c)

/-- What the pallas_calls leave, as the family the generated buffer contents are written over: after item J − 1 the
    contents named above. -/
def outs : Outs (F := F) := fun J r c =>
  if J = 2 then W2 m c r else if J = 4 then W4 m c r else if J = 5 then W5 m c r else if J = 7 then W7 m c r else W12 m c r

theorem outs_2 (r : Ref sig .tc) (c : Dev nD) : outs m 2 r c = W2 m c r := by unfold outs; rw [if_pos rfl]
theorem outs_4 (r : Ref sig .tc) (c : Dev nD) : outs m 4 r c = W4 m c r := by
  unfold outs; rw [if_neg (by decide : ¬ (4 : ℕ) = 2), if_pos rfl]
theorem outs_5 (r : Ref sig .tc) (c : Dev nD) : outs m 5 r c = W5 m c r := by
  unfold outs; rw [if_neg (by decide : ¬ (5 : ℕ) = 2), if_neg (by decide : ¬ (5 : ℕ) = 4), if_pos rfl]
theorem outs_7 (r : Ref sig .tc) (c : Dev nD) : outs m 7 r c = W7 m c r := by
  unfold outs; rw [if_neg (by decide : ¬ (7 : ℕ) = 2), if_neg (by decide : ¬ (7 : ℕ) = 4), if_neg (by decide : ¬ (7 : ℕ) = 5), if_pos rfl]
theorem outs_12 (r : Ref sig .tc) (c : Dev nD) : outs m 12 r c = W12 m c r := by
  unfold outs; rw [if_neg (by decide : ¬ (12 : ℕ) = 2), if_neg (by decide : ¬ (12 : ℕ) = 4), if_neg (by decide : ¬ (12 : ℕ) = 5), if_neg (by decide : ¬ (12 : ℕ) = 7)]

/-- The result arrays read back off the contents after their pallas_call. -/
theorem W2_v27 (c : Dev nD) : W2 m c main_v27 = o27 m c := by unfold W2; exact Function.update_self _ _ _
theorem W4_v42 (c : Dev nD) : W4 m c main_v42 = o42 m c := by unfold W4; exact Function.update_self _ _ _
theorem W5_v43 (c : Dev nD) : W5 m c main_v43 = o43 m c := by unfold W5; exact Function.update_self _ _ _
theorem W7_v58 (c : Dev nD) : W7 m c main_v58 = o58 m c := by unfold W7; exact Function.update_self _ _ _
theorem W12_v74 (c : Dev nD) : W12 m c main_v74 = o74 m c := by unfold W12; exact Function.update_self _ _ _

theorem V2_eq (c : Dev nD) : V2 m (outs m) c = W2 m c := by
  show Function.update (V1 m c) main_v27 (outs m 2 main_v27 c) = Function.update (W1 m c) main_v27 (o27 m c)
  rw [outs_2, W2_v27]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v42 (outs m 4 main_v42 c) = Function.update (W3 m c) main_v42 (o42 m c)
  rw [V3_eq, outs_4, W4_v42]
theorem V5_eq (c : Dev nD) : V5 m (outs m) c = W5 m c := by
  show Function.update (V4 m (outs m) c) main_v43 (outs m 5 main_v43 c) = Function.update (W4 m c) main_v43 (o43 m c)
  rw [V4_eq, outs_5, W5_v43]
theorem V6_eq (c : Dev nD) : V6 m (outs m) c = W6 m c := by
  show StableHlo.after hostOps3 (V5 m (outs m) c) = _; rw [V5_eq]
theorem V7_eq (c : Dev nD) : V7 m (outs m) c = W7 m c := by
  show Function.update (V6 m (outs m) c) main_v58 (outs m 7 main_v58 c) = Function.update (W6 m c) main_v58 (o58 m c)
  rw [V6_eq, outs_7, W7_v58]
theorem V11_eq (c : Dev nD) : V11 m (outs m) c = W11 m c := by
  show StableHlo.after hostOps4_3 (StableHlo.after hostOps4_2 (StableHlo.after hostOps4_1 (StableHlo.after hostOps4 (V7 m (outs m) c)))) = _
  rw [V7_eq]
theorem V12_eq (c : Dev nD) : V12 m (outs m) c = W12 m c := by
  show Function.update (V11 m (outs m) c) main_v74 (outs m 12 main_v74 c) = Function.update (W11 m c) main_v74 (o74 m c)
  rw [V11_eq, outs_12, W12_v74]

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (asV (W1 m)) c
  | ⟨1, _⟩ => fun c => dat1 (asV (W3 m)) c
  | ⟨2, _⟩ => fun c => dat2 (asV (W4 m)) c
  | ⟨3, _⟩ => fun c => dat3 (asV (W6 m)) c
  | ⟨4, _⟩ => fun c => dat4 (asV (W11 m)) c
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.KernelIdeal.Run

end
-- ==== Proof.Seg0.lean ====
/-
  The first pallas_call as a segment of @main: entered with every unscoped buffer of the core at the contents before
  it, left with its output array at what the grid's write-backs leave and every other buffer unchanged; its input
  arrays split out of the unscoped buffers at entry and put back at exit. Stated for any float instance.
-/
import proofs.«427735_j54941221650950_1_alg».proof.Proof.SegsDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-- Region 0's arrays at its exit: the inputs as entered, the output at what the write-backs leave. -/
theorem hF0 (c : Dev nD) : ∀ w : Fin cfg0.W, (dat0 (asV (W1 m)) c).arrAt w cfg0.N = asV (W2 m) c (Pipeline.arrRef spec0 w) := fun w => match w with
    | ⟨0, _⟩ => by show (dat0 (asV (W1 m)) c).arrAt 0 cfg0.N = W2 m c (Pipeline.arrRef spec0 0); unfold W2; rw [Function.update_of_ne (StableHlo.devRef_ne_of_ne (by decide))]; exact ((dat0 (asV (W1 m)) c).arrAt_in 0 rfl _).trans (A_eq0 (asV (W1 m)) c 0)
    | ⟨1, _⟩ => by show (dat0 (asV (W1 m)) c).arrAt 1 cfg0.N = W2 m c (Pipeline.arrRef spec0 1); unfold W2; rw [Function.update_of_ne (StableHlo.devRef_ne_of_ne (by decide))]; exact ((dat0 (asV (W1 m)) c).arrAt_in 1 rfl _).trans (A_eq0 (asV (W1 m)) c 1)
    | ⟨2, _⟩ => by show (dat0 (asV (W1 m)) c).arrAt 2 cfg0.N = W2 m c main_v27; unfold W2; rw [Function.update_self]; rfl
/-- Every other buffer is as the region found it. -/
theorem hrest0 (c : Dev nD) : ∀ b, b ∉ Finset.univ.image (Pipeline.arrRef spec0) → asV (W2 m) c b = asV (W1 m) c b := fun b hb => by
  show W2 m c b = W1 m c b
  unfold W2
  exact Function.update_of_ne (StableHlo.devRef_ne_of_ne fun e => hb (Finset.mem_image.mpr ⟨2, Finset.mem_univ _, e.symm⟩)) _ _

set_option backward.isDefEq.respectTransparency.types false in
/-- The first pallas_call as a segment of @main: entered with every unscoped buffer at the contents before it, left with the
    output array at what its write-backs leave and every other buffer unchanged; the generator register and the core's
    empty debt ride along. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (asV (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (asV (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (W1 m) c) (asV (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg1.lean ====
/-
  The second pallas_call as a segment of @main: entered with every unscoped buffer of the core at the contents before it, left with its output array at what the grid's write-backs leave and every other buffer unchanged; its input arrays split out of the unscoped buffers at entry and put back at exit. Stated for any float instance.
-/
import proofs.«427735_j54941221650950_1_alg».proof.Proof.SegsDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-- Region 1's arrays at its exit: the inputs as entered, the output at what the write-backs leave. -/
theorem hF1 (c : Dev nD) : ∀ w : Fin cfg1.W, (dat1 (asV (W3 m)) c).arrAt w cfg1.N = asV (W4 m) c (Pipeline.arrRef spec1 w) := fun w => match w with
    | ⟨0, _⟩ => by show (dat1 (asV (W3 m)) c).arrAt 0 cfg1.N = W4 m c (Pipeline.arrRef spec1 0); unfold W4; rw [Function.update_of_ne (StableHlo.devRef_ne_of_ne (by decide))]; exact ((dat1 (asV (W3 m)) c).arrAt_in 0 rfl _).trans (A_eq1 (asV (W3 m)) c 0)
    | ⟨1, _⟩ => by show (dat1 (asV (W3 m)) c).arrAt 1 cfg1.N = W4 m c (Pipeline.arrRef spec1 1); unfold W4; rw [Function.update_of_ne (StableHlo.devRef_ne_of_ne (by decide))]; exact ((dat1 (asV (W3 m)) c).arrAt_in 1 rfl _).trans (A_eq1 (asV (W3 m)) c 1)
    | ⟨2, _⟩ => by show (dat1 (asV (W3 m)) c).arrAt 2 cfg1.N = W4 m c main_v42; unfold W4; rw [Function.update_self]; rfl
/-- Every other buffer is as the region found it. -/
theorem hrest1 (c : Dev nD) : ∀ b, b ∉ Finset.univ.image (Pipeline.arrRef spec1) → asV (W4 m) c b = asV (W3 m) c b := fun b hb => by
  show W4 m c b = W3 m c b
  unfold W4
  exact Function.update_of_ne (StableHlo.devRef_ne_of_ne fun e => hb (Finset.mem_image.mpr ⟨2, Finset.mem_univ _, e.symm⟩)) _ _

set_option backward.isDefEq.respectTransparency.types false in
/-- The second pallas_call as a segment of @main: entered with every unscoped buffer at the contents before it, left with the
    output array at what its write-backs leave and every other buffer unchanged; the generator register and the core's
    empty debt ride along. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (asV (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (asV (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (W3 m) c) (asV (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg2.lean ====
/-
  The third pallas_call as a segment of @main: entered with every unscoped buffer of the core at the contents before it, left with its output array at what the grid's write-backs leave and every other buffer unchanged; its input arrays split out of the unscoped buffers at entry and put back at exit. Stated for any float instance.
-/
import proofs.«427735_j54941221650950_1_alg».proof.Proof.SegsDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-- Region 2's arrays at its exit: the inputs as entered, the output at what the write-backs leave. -/
theorem hF2 (c : Dev nD) : ∀ w : Fin cfg2.W, (dat2 (asV (W4 m)) c).arrAt w cfg2.N = asV (W5 m) c (Pipeline.arrRef spec2 w) := fun w => match w with
    | ⟨0, _⟩ => by show (dat2 (asV (W4 m)) c).arrAt 0 cfg2.N = W5 m c (Pipeline.arrRef spec2 0); unfold W5; rw [Function.update_of_ne (StableHlo.devRef_ne_of_ne (by decide))]; exact ((dat2 (asV (W4 m)) c).arrAt_in 0 rfl _).trans (A_eq2 (asV (W4 m)) c 0)
    | ⟨1, _⟩ => by show (dat2 (asV (W4 m)) c).arrAt 1 cfg2.N = W5 m c (Pipeline.arrRef spec2 1); unfold W5; rw [Function.update_of_ne (StableHlo.devRef_ne_of_ne (by decide))]; exact ((dat2 (asV (W4 m)) c).arrAt_in 1 rfl _).trans (A_eq2 (asV (W4 m)) c 1)
    | ⟨2, _⟩ => by show (dat2 (asV (W4 m)) c).arrAt 2 cfg2.N = W5 m c main_v43; unfold W5; rw [Function.update_self]; rfl
/-- Every other buffer is as the region found it. -/
theorem hrest2 (c : Dev nD) : ∀ b, b ∉ Finset.univ.image (Pipeline.arrRef spec2) → asV (W5 m) c b = asV (W4 m) c b := fun b hb => by
  show W5 m c b = W4 m c b
  unfold W5
  exact Function.update_of_ne (StableHlo.devRef_ne_of_ne fun e => hb (Finset.mem_image.mpr ⟨2, Finset.mem_univ _, e.symm⟩)) _ _

set_option backward.isDefEq.respectTransparency.types false in
/-- The third pallas_call as a segment of @main: entered with every unscoped buffer at the contents before it, left with the
    output array at what its write-backs leave and every other buffer unchanged; the generator register and the core's
    empty debt ride along. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (asV (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (asV (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (W4 m) c) (asV (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg3.lean ====
/-
  The fourth pallas_call as a segment of @main: entered with every unscoped buffer of the core at the contents before it, left with its output array at what the grid's write-backs leave and every other buffer unchanged; its input arrays split out of the unscoped buffers at entry and put back at exit. Stated for any float instance.
-/
import proofs.«427735_j54941221650950_1_alg».proof.Proof.SegsDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-- Region 3's arrays at its exit: the inputs as entered, the output at what the write-backs leave. -/
theorem hF3 (c : Dev nD) : ∀ w : Fin cfg3.W, (dat3 (asV (W6 m)) c).arrAt w cfg3.N = asV (W7 m) c (Pipeline.arrRef spec3 w) := fun w => match w with
    | ⟨0, _⟩ => by show (dat3 (asV (W6 m)) c).arrAt 0 cfg3.N = W7 m c (Pipeline.arrRef spec3 0); unfold W7; rw [Function.update_of_ne (StableHlo.devRef_ne_of_ne (by decide))]; exact ((dat3 (asV (W6 m)) c).arrAt_in 0 rfl _).trans (A_eq3 (asV (W6 m)) c 0)
    | ⟨1, _⟩ => by show (dat3 (asV (W6 m)) c).arrAt 1 cfg3.N = W7 m c (Pipeline.arrRef spec3 1); unfold W7; rw [Function.update_of_ne (StableHlo.devRef_ne_of_ne (by decide))]; exact ((dat3 (asV (W6 m)) c).arrAt_in 1 rfl _).trans (A_eq3 (asV (W6 m)) c 1)
    | ⟨2, _⟩ => by show (dat3 (asV (W6 m)) c).arrAt 2 cfg3.N = W7 m c main_v58; unfold W7; rw [Function.update_self]; rfl
/-- Every other buffer is as the region found it. -/
theorem hrest3 (c : Dev nD) : ∀ b, b ∉ Finset.univ.image (Pipeline.arrRef spec3) → asV (W7 m) c b = asV (W6 m) c b := fun b hb => by
  show W7 m c b = W6 m c b
  unfold W7
  exact Function.update_of_ne (StableHlo.devRef_ne_of_ne fun e => hb (Finset.mem_image.mpr ⟨2, Finset.mem_univ _, e.symm⟩)) _ _

set_option backward.isDefEq.respectTransparency.types false in
/-- The fourth pallas_call as a segment of @main: entered with every unscoped buffer at the contents before it, left with the
    output array at what its write-backs leave and every other buffer unchanged; the generator register and the core's
    empty debt ride along. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (asV (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (asV (W6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (W6 m) c) (asV (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Seg4.lean ====
/-
  The fifth pallas_call as a segment of @main: entered with every unscoped buffer of the core at the contents before
  it, left with its output array at what the grid's write-backs leave and every other buffer unchanged; its input
  arrays split out of the unscoped buffers at entry and put back at exit. Stated for any float instance.
-/
import proofs.«427735_j54941221650950_1_alg».proof.Proof.SegsDefs

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-- Region 4's arrays at its exit: the inputs as entered, the output at what the write-backs leave. -/
theorem hF4 (c : Dev nD) : ∀ w : Fin cfg4.W, (dat4 (asV (W11 m)) c).arrAt w cfg4.N = asV (W12 m) c (Pipeline.arrRef spec4 w) := fun w => match w with
    | ⟨0, _⟩ => by show (dat4 (asV (W11 m)) c).arrAt 0 cfg4.N = W12 m c (Pipeline.arrRef spec4 0); unfold W12; rw [Function.update_of_ne (StableHlo.devRef_ne_of_ne (by decide))]; exact ((dat4 (asV (W11 m)) c).arrAt_in 0 rfl _).trans (A_eq4 (asV (W11 m)) c 0)
    | ⟨1, _⟩ => by show (dat4 (asV (W11 m)) c).arrAt 1 cfg4.N = W12 m c (Pipeline.arrRef spec4 1); unfold W12; rw [Function.update_of_ne (StableHlo.devRef_ne_of_ne (by decide))]; exact ((dat4 (asV (W11 m)) c).arrAt_in 1 rfl _).trans (A_eq4 (asV (W11 m)) c 1)
    | ⟨2, _⟩ => by show (dat4 (asV (W11 m)) c).arrAt 2 cfg4.N = W12 m c (Pipeline.arrRef spec4 2); unfold W12; rw [Function.update_of_ne (StableHlo.devRef_ne_of_ne (by decide))]; exact ((dat4 (asV (W11 m)) c).arrAt_in 2 rfl _).trans (A_eq4 (asV (W11 m)) c 2)
    | ⟨3, _⟩ => by show (dat4 (asV (W11 m)) c).arrAt 3 cfg4.N = W12 m c (Pipeline.arrRef spec4 3); unfold W12; rw [Function.update_of_ne (StableHlo.devRef_ne_of_ne (by decide))]; exact ((dat4 (asV (W11 m)) c).arrAt_in 3 rfl _).trans (A_eq4 (asV (W11 m)) c 3)
    | ⟨4, _⟩ => by show (dat4 (asV (W11 m)) c).arrAt 4 cfg4.N = W12 m c main_v74; unfold W12; rw [Function.update_self]; rfl
/-- Every other buffer is as the region found it. -/
theorem hrest4 (c : Dev nD) : ∀ b, b ∉ Finset.univ.image (Pipeline.arrRef spec4) → asV (W12 m) c b = asV (W11 m) c b := fun b hb => by
  show W12 m c b = W11 m c b
  unfold W12
  exact Function.update_of_ne (StableHlo.devRef_ne_of_ne fun e => hb (Finset.mem_image.mpr ⟨4, Finset.mem_univ _, e.symm⟩)) _ _

set_option backward.isDefEq.respectTransparency.types false in
/-- The fifth pallas_call as a segment of @main: entered with every unscoped buffer at the contents before it, left with the
    output array at what its write-backs leave and every other buffer unchanged; the generator register and the core's
    empty debt ride along. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (asV (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (asV (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (asV (W11 m)) c).Φ 0 from rfl]
    iintro ⟨Hp, -, Hr⟩
    iapply (hin4 (asV (W11 m)) c)
    unfold Pipeline.ΦA
    isplitl [Hr]; · iexact Hr
    iexact Hp
  hout c := by
    rw [Pipeline.ownSems0_none, show (pdats m 4 c).Φ (Fin.last _) = (dat4 (asV (W11 m)) c).Φ (Fin.last cfg4.N) from rfl]
    iintro HΦ
    ihave HA := (hout4 (asV (W11 m)) c) $$ HΦ
    unfold Pipeline.ΦA
    icases HA with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (W11 m) c) (asV (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.RunMain.lean ====
/-
  The launch of the kernel program over its segments: from any memory with zero counters every weakly fair execution
  terminates without a fault, and every final memory holds each unscoped buffer of the core at the contents named
  after the last item — in particular the result array at what the fifth pallas_call's write-back leaves, and each
  argument array at its launch contents (no item writes an argument). Stated for any float instance.
-/
import proofs.«427735_j54941221650950_1_alg».proof.Proof.Seg0
import proofs.«427735_j54941221650950_1_alg».proof.Proof.Seg1
import proofs.«427735_j54941221650950_1_alg».proof.Proof.Seg2
import proofs.«427735_j54941221650950_1_alg».proof.Proof.Seg3
import proofs.«427735_j54941221650950_1_alg».proof.Proof.Seg4

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest that rides beside the buffers, the same between any two items. -/
abbrev E : Fin 6 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every final memory holds every unscoped buffer at the last named contents. -/
theorem run_vals : θ_run defs (onTc (τ := τ) (main (F := F))) ⟨m, fun _ => 0, ρ⟩
    (fun r => ∀ c : Dev nD, ∀ b ∈ Pipeline.ucRefs τ sig, r.2.mem (((c : Thread nD τ)).1, b) = W12 m c b) := by
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m) (reg4 m))
    (fun c Q => by
      rewrite [main_chain c, Seg.run_eq_chain,
        show (segs m (outs m) Variants.none L lv (E (F := F)) () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W12 m c) ∗ ∃ r, prngReg c r))
    (hch := fun c => ⟨.rfl, .rfl,
      (by show iprop(StableHlo.held (c : Thread nD τ) (Pipeline.ucRefs τ sig) (W2 m c) ∗ R c) ⊢ iprop(StableHlo.held (c : Thread nD τ) (Pipeline.ucRefs τ sig) (V2 m (outs m) c) ∗ R c)
          rw [V2_eq m c]),
      (by show iprop(StableHlo.held (c : Thread nD τ) (Pipeline.ucRefs τ sig) (StableHlo.after hostOps1 (V2 m (outs m) c)) ∗ R c) ⊢ iprop(StableHlo.held (c : Thread nD τ) (Pipeline.ucRefs τ sig) (W3 m c) ∗ R c)
          rw [V2_eq m c]),
      .rfl,
      (by show iprop(StableHlo.held (c : Thread nD τ) (Pipeline.ucRefs τ sig) (W5 m c) ∗ R c) ⊢ iprop(StableHlo.held (c : Thread nD τ) (Pipeline.ucRefs τ sig) (V5 m (outs m) c) ∗ R c)
          rw [V5_eq m c]),
      (by show iprop(StableHlo.held (c : Thread nD τ) (Pipeline.ucRefs τ sig) (StableHlo.after hostOps3 (V5 m (outs m) c)) ∗ R c) ⊢ iprop(StableHlo.held (c : Thread nD τ) (Pipeline.ucRefs τ sig) (W6 m c) ∗ R c)
          rw [V5_eq m c]),
      (by show iprop(StableHlo.held (c : Thread nD τ) (Pipeline.ucRefs τ sig) (W7 m c) ∗ R c) ⊢ iprop(StableHlo.held (c : Thread nD τ) (Pipeline.ucRefs τ sig) (V7 m (outs m) c) ∗ R c)
          rw [V7_eq m c]),
      .rfl, .rfl, .rfl,
      (by show iprop(StableHlo.held (c : Thread nD τ) (Pipeline.ucRefs τ sig) (V11 m (outs m) c) ∗ R c) ⊢ iprop(StableHlo.held (c : Thread nD τ) (Pipeline.ucRefs τ sig) (W11 m c) ∗ R c)
          rw [V11_eq m c]),
      (by
        show iprop(StableHlo.held (c : Thread nD τ) (Pipeline.ucRefs τ sig) (W12 m c) ∗ R c)
          ⊢ iprop((StableHlo.held (c : Thread nD τ) (Pipeline.ucRefs τ sig) (W12 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- An argument array ends as launched: no item writes it. -/
theorem W12_arg (c : Dev nD) (r : Ref sig .tc) (h : V12 m (outs m) c r = m ((c : Thread nD τ).loc r)) : W12 m c r = m ((c : Thread nD τ).loc r) := by
  rw [← V12_eq m c]; exact h

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W12_arg m c main_arg0 (V12_main_arg0 m (outs m) c)),
      (h c _ (mem_uc main_arg1 (by decide))).trans (W12_arg m c main_arg1 (V12_main_arg1 m (outs m) c)),
      (h c _ (mem_uc main_arg2 (by decide))).trans (W12_arg m c main_arg2 (V12_main_arg2 m (outs m) c)),
      (h c _ (mem_uc main_arg3 (by decide))).trans (W12_arg m c main_arg3 (V12_main_arg3 m (outs m) c)),
      (h c _ (mem_uc main_arg4 (by decide))).trans (W12_arg m c main_arg4 (V12_main_arg4 m (outs m) c)),
      (h c _ (mem_uc main_arg5 (by decide))).trans (W12_arg m c main_arg5 (V12_main_arg5 m (outs m) c)),
      (h c _ (mem_uc main_arg6 (by decide))).trans (W12_arg m c main_arg6 (V12_main_arg6 m (outs m) c)),
      (h c _ (mem_uc main_arg7 (by decide))).trans (W12_arg m c main_arg7 (V12_main_arg7 m (outs m) c)),
      (h c _ (mem_uc main_arg8 (by decide))).trans (W12_arg m c main_arg8 (V12_main_arg8 m (outs m) c))⟩)
    (run_vals m ρ)

/-- THE RESULT beside the frame: the result array ends at the fifth pallas_call's output. -/
theorem run_result : θ_run defs (onTc (τ := τ) (main (F := F))) ⟨m, fun _ => 0, ρ⟩ (fun r => ∀ c : Dev nD,
      r.2.mem ((c.tc : Thread nD τ).loc main_v74) = o74 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_v74 (by decide))).trans (by show W12 m c main_v74 = o74 m c; unfold W12; rw [Function.update_self]),
      (h c _ (mem_uc main_arg0 (by decide))).trans (W12_arg m c main_arg0 (V12_main_arg0 m (outs m) c)),
      (h c _ (mem_uc main_arg1 (by decide))).trans (W12_arg m c main_arg1 (V12_main_arg1 m (outs m) c)),
      (h c _ (mem_uc main_arg2 (by decide))).trans (W12_arg m c main_arg2 (V12_main_arg2 m (outs m) c)),
      (h c _ (mem_uc main_arg3 (by decide))).trans (W12_arg m c main_arg3 (V12_main_arg3 m (outs m) c)),
      (h c _ (mem_uc main_arg4 (by decide))).trans (W12_arg m c main_arg4 (V12_main_arg4 m (outs m) c)),
      (h c _ (mem_uc main_arg5 (by decide))).trans (W12_arg m c main_arg5 (V12_main_arg5 m (outs m) c)),
      (h c _ (mem_uc main_arg6 (by decide))).trans (W12_arg m c main_arg6 (V12_main_arg6 m (outs m) c)),
      (h c _ (mem_uc main_arg7 (by decide))).trans (W12_arg m c main_arg7 (V12_main_arg7 m (outs m) c)),
      (h c _ (mem_uc main_arg8 (by decide))).trans (W12_arg m c main_arg8 (V12_main_arg8 m (outs m) c))⟩)
    (run_vals m ρ)

end Cert.KernelIdeal.Run

end
-- ==== Proof.BReg0.lean ====
/-
  The first pallas_call (the feature product of layer 1): a grid of ten points, point t taking rows 5000·t … 5000·t + 4999 of the node features (window 0), the whole 128 × 128 weight (window 1, fetched once) and writing rows 5000·t … of the product (window 2). The body loads both input blocks whole, multiplies them on the matrix unit onto a zero accumulator and stores the product over the whole output block; nothing is kept between points. The same text in the word-level program's namespace. Stated for any float instance.
-/
import proofs.«427735_j54941221650950_1_alg».proof.Proof.Gen.Kernel.Launch
import proofs.«427735_j54941221650950_1_alg».proof.Proof.Gen.Kernel.Skeleton
import proofs.«427735_j54941221650950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point, though it is fetched only at the first:
    its block index never moves and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

abbrev r0_rows : Rect S5000x128 := Rect.unit (s := S5000x128) ![0, 0] S5000x128.size inb_S5000x128_S5000x128_0_0
abbrev r0_wt : Rect S128x128 := Rect.unit (s := S128x128) ![0, 0] S128x128.size inb_S128x128_S128x128_0_0

/-- The output block after the body: the product of the two input blocks, stored over the whole block. -/
def out0_2 (x0 : Vec F S5000x128 .f32) (x1 : Vec F S128x128 .f32) : Vec F S5000x128 .f32 :=
  View.canon [⟨r0_rows, k0_pay1 (View.ld x0 r0_rows) (View.ld x1 r0_wt)⟩]

theorem cover0_2 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging buffers: the inputs end as they were, the output holds the product. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_matmul_kernel i arg1 harg1 arg2 harg2 arg3 harg3) K := by
  simp only [cc0__feature_matmul_kernel_eq_skeleton]; unfold cc0__feature_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Region 0's proof data on core `c`: the arrays as the region finds them; after the body each input buffer at
    its block and the output buffer at the product of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.BReg1.lean ====
/-
  The second pallas_call (bias and rectifier of layer 1): a grid of ten points, point t taking rows 5000·t … 5000·t + 4999 of the aggregated messages (window 0) and the 1 × 128 bias row (window 1, fetched once), and writing max(row + bias, 0) over rows 5000·t … of the output (window 2). The body loads both input blocks whole, adds the bias row to every row, takes the maximum with zero and stores over the whole output block; nothing is kept between points. The same text in the word-level program's namespace. Stated for any float instance.
-/
import proofs.«427735_j54941221650950_1_alg».proof.Proof.Gen.Kernel.Launch
import proofs.«427735_j54941221650950_1_alg».proof.Proof.Gen.Kernel.Skeleton
import proofs.«427735_j54941221650950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's staging buffer holds the bias row at every point, though it is fetched only at the first:
    its block index never moves and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

abbrev r1_rows : Rect S5000x128 := Rect.unit (s := S5000x128) ![0, 0] S5000x128.size inb_S5000x128_S5000x128_0_0
abbrev r1_bias : Rect S1x128 := Rect.unit (s := S1x128) ![0, 0] S1x128.size inb_S1x128_S1x128_0_0

/-- The output block after the body: the rows plus the bias row, cut off below at zero, stored over the whole block. -/
def out1_2 (x0 : Vec F S5000x128 .f32) (x1 : Vec F S1x128 .f32) : Vec F S5000x128 .f32 :=
  View.canon [⟨r1_rows, k1_pay1 (View.ld x0 r1_rows) (View.ld x1 r1_bias)⟩]

theorem cover1_2 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

set_option maxHeartbeats 1000000 in
/-- The body on whole staging buffers: the inputs end as they were, the output holds the rectified sum. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Region 1's proof data on core `c`: the arrays as the region finds them; after the body each input buffer at
    its block and the output buffer at the rectified sum of the blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.BReg2.lean ====
/-
  The third pallas_call (the feature product of layer 2): the same grid and body as the first, on the first layer's output rows (window 0: rows 5000·t … of the 50000 × 128 activations) and the second 128 × 128 weight (window 1, fetched once), writing rows 5000·t … of their product (window 2). The same text in the word-level program's namespace. Stated for any float instance.
-/
import proofs.«427735_j54941221650950_1_alg».proof.Proof.Gen.Kernel.Launch
import proofs.«427735_j54941221650950_1_alg».proof.Proof.Gen.Kernel.Skeleton
import proofs.«427735_j54941221650950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point, though it is fetched only at the first:
    its block index never moves and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body -/

abbrev r2_rows : Rect S5000x128 := Rect.unit (s := S5000x128) ![0, 0] S5000x128.size inb_S5000x128_S5000x128_0_0
abbrev r2_wt : Rect S128x128 := Rect.unit (s := S128x128) ![0, 0] S128x128.size inb_S128x128_S128x128_0_0

/-- The output block after the body: the product of the two input blocks, stored over the whole block. -/
def out2_2 (x0 : Vec F S5000x128 .f32) (x1 : Vec F S128x128 .f32) : Vec F S5000x128 .f32 :=
  View.canon [⟨r2_rows, k2_pay1 (View.ld x0 r2_rows) (View.ld x1 r2_wt)⟩]

theorem cover2_2 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 1000000 in
/-- The body on whole staging buffers: the inputs end as they were, the output holds the product. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__feature_matmul_kernel i arg1 harg1 arg2 harg2 arg3 harg3) K := by
  simp only [cc2__feature_matmul_kernel_eq_skeleton]; unfold cc2__feature_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- Region 2's proof data on core `c`: the arrays as the region finds them; after the body each input buffer at
    its block and the output buffer at the product of the blocks; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.BReg3.lean ====
/-
  The fourth pallas_call (bias and rectifier of layer 2): a grid of ten points, point t taking rows 5000·t … 5000·t + 4999 of the second layer's aggregated messages (window 0) and the second 1 × 128 bias row (window 1, fetched once), and writing max(row + bias, 0) over rows 5000·t … of the output (window 2). The body loads both input blocks whole, adds the bias row to every row, takes the maximum with zero and stores over the whole output block; nothing is kept between points. The same text in the word-level program's namespace. Stated for any float instance.
-/
import proofs.«427735_j54941221650950_1_alg».proof.Proof.Gen.Kernel.Launch
import proofs.«427735_j54941221650950_1_alg».proof.Proof.Gen.Kernel.Skeleton
import proofs.«427735_j54941221650950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered: the parameter the region's data are stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The message window's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias window's staging buffer holds the bias row at every point, though it is fetched only at the first:
    its block index never moves and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body -/

abbrev r3_rows : Rect S5000x128 := Rect.unit (s := S5000x128) ![0, 0] S5000x128.size inb_S5000x128_S5000x128_0_0
abbrev r3_bias : Rect S1x128 := Rect.unit (s := S1x128) ![0, 0] S1x128.size inb_S1x128_S1x128_0_0

/-- The output block after the body: the rows plus the bias row, cut off below at zero, stored over the whole block. -/
def out3_2 (x0 : Vec F S5000x128 .f32) (x1 : Vec F S1x128 .f32) : Vec F S5000x128 .f32 :=
  View.canon [⟨r3_rows, k3_pay1 (View.ld x0 r3_rows) (View.ld x1 r3_bias)⟩]

theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in
/-- The body on whole staging buffers: the inputs end as they were, the output holds the rectified sum. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Region 3's proof data on core `c`: the arrays as the region finds them; after the body each input buffer at
    its block and the output buffer at the rectified sum of the blocks; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.BReg4.lean ====
/-
  The fifth pallas_call (mean pooling and the classifier): a grid of twenty points, point t taking columns 2560·t … 2560·t + 2559 of the 64 × 51200 pooling matrix (window 0) and rows 2560·t … of the node features (window 1), with the 128 × 10 classifier weight (window 2) and the bias (window 3) fetched once, and a 64 × 10 output block (window 4) written back after the last point only. A 64 × 128 scratch is carried from point to point: zeroed at the first point, increased at every point by the product of the two blocks; at the last point the classifier is applied to it and the result stored into the output block, which is idle elsewhere. The same text in the word-level program's namespace. Stated for any float instance.
-/
import proofs.«427735_j54941221650950_1_alg».proof.Proof.Gen.Kernel.Launch
import proofs.«427735_j54941221650950_1_alg».proof.Proof.Gen.Kernel.Skeleton
import proofs.«427735_j54941221650950_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The pooling-matrix window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The feature window's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The classifier weight's staging buffer holds the weight at every point, though it is fetched only at the first:
    its block index never moves and the body leaves the buffer as it found it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same for the bias. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions of the body -/

/-- The first branch is taken where the grid coordinate is 0 (the accumulator is reset there); -/
abbrev cond4_0 (i : grid4.Coords) : Prop := (Scalar.cmpi .ne (Scalar.extui (Scalar.cmpi .eq (BitVec.ofNat 32 (i 0).val) 0#32)) 0#32) = 1#1
/-- the last where it is 19 (the classifier is applied there). -/
abbrev cond4_1 (i : grid4.Coords) : Prop := k4_cond2 i = 1#1

/-! ## Loads of whole blocks -/

theorem z4_two : (![0, 0] : Fin 2 → Nat) = fun _ => 0 := by decide
theorem z4_one : (![0] : Fin 1 → Nat) = fun _ => 0 := by decide

/-- A load of a whole block reads the block: for each of the five shapes the body loads. -/
theorem rd4_acc {κ : Kind} {sp : Space} (v : View sig κ sp S64x128 .f32) (f : v.ty.Contents (Elt F)) :
    View.readAt (Elt F) v (Rect.unit (s := S64x128) ![0, 0] S64x128.size inb_S64x128_S64x128_0_0).toLoadRect f = View.read (Elt F) v f :=
  View.ld_unit_zero z4_two _ _
theorem rd4_pool {κ : Kind} {sp : Space} (v : View sig κ sp S64x2560 .f32) (f : v.ty.Contents (Elt F)) :
    View.readAt (Elt F) v (Rect.unit (s := S64x2560) ![0, 0] S64x2560.size inb_S64x2560_S64x2560_0_0).toLoadRect f = View.read (Elt F) v f :=
  View.ld_unit_zero z4_two _ _
theorem rd4_feat {κ : Kind} {sp : Space} (v : View sig κ sp S2560x128 .f32) (f : v.ty.Contents (Elt F)) :
    View.readAt (Elt F) v (Rect.unit (s := S2560x128) ![0, 0] S2560x128.size inb_S2560x128_S2560x128_0_0).toLoadRect f = View.read (Elt F) v f :=
  View.ld_unit_zero z4_two _ _
theorem rd4_wt {κ : Kind} {sp : Space} (v : View sig κ sp S128x10 .f32) (f : v.ty.Contents (Elt F)) :
    View.readAt (Elt F) v (Rect.unit (s := S128x10) ![0, 0] S128x10.size inb_S128x10_S128x10_0_0).toLoadRect f = View.read (Elt F) v f :=
  View.ld_unit_zero z4_two _ _
theorem rd4_bias {κ : Kind} {sp : Space} (v : View sig κ sp S10 .f32) (f : v.ty.Contents (Elt F)) :
    View.readAt (Elt F) v (Rect.unit (s := S10) ![0] S10.size inb_S10_S10_0).toLoadRect f = View.read (Elt F) v f :=
  View.ld_unit_zero z4_one _ _

/-- A store over the whole block covers it, whatever was stored before. -/
theorem cover4_acc (p : Vec F S64x128 .f32) (L : List (View.Piece (Elt F) S64x128 .f32)) (y : S64x128.Idx) :
    ∃ pc ∈ ((⟨Rect.unit (s := S64x128) ![0, 0] S64x128.size inb_S64x128_S64x128_0_0, p⟩ :: L : List (View.Piece (Elt F) S64x128 .f32))), y ∈ pc.1.set :=
  ⟨_, List.mem_cons_self .., View.mem_set_unit_zero z4_two inb_S64x128_S64x128_0_0 y⟩
theorem cover4_out (p : Vec F S64x10 .f32) (L : List (View.Piece (Elt F) S64x10 .f32)) (y : S64x10.Idx) :
    ∃ pc ∈ ((⟨Rect.unit (s := S64x10) ![0, 0] S64x10.size inb_S64x10_S64x10_0_0, p⟩ :: L : List (View.Piece (Elt F) S64x10 .f32))), y ∈ pc.1.set :=
  ⟨_, List.mem_cons_self .., View.mem_set_unit_zero z4_two inb_S64x10_S64x10_0_0 y⟩

/-! ## The body, case by case -/

set_option maxHeartbeats 1000000 in
/-- The first point: the scratch, whatever it held, is zeroed and then gains the product of the two blocks. -/
theorem sound_kernel4_A (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : cond4_0 i) (hc1 : ¬cond4_1 i)
    (x0 : Vec F S64x2560 .f32) (x1 : Vec F S2560x128 .f32) (x2 : Vec F S128x10 .f32) (x3 : Vec F S10 .f32) (x4 : Vec F S64x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k4_pay2 (k4_pay1 (F := F)) x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (cover4_acc _ _),
    View.canon_cons_unit_zero z4_two, View.readCov_unit_zero _ z4_two, rd4_pool, rd4_feat]

set_option maxHeartbeats 1000000 in
/-- A point that is neither first nor last: the scratch gains the product of the two blocks; nothing else moves. -/
theorem sound_kernel4_B (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : ¬cond4_0 i) (hc1 : ¬cond4_1 i)
    (x0 : Vec F S64x2560 .f32) (x1 : Vec F S2560x128 .f32) (x2 : Vec F S128x10 .f32) (x3 : Vec F S10 .f32) (x4 : Vec F S64x10 .f32)
    (s : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k4_pay2 s x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover4_acc _ _),
    View.canon_unit_zero z4_two]
  rw [rd4_acc, rd4_pool, rd4_feat]

set_option maxHeartbeats 1000000 in
/-- The last point: the scratch gains the product of the two blocks, and the output block, whatever it held,
    receives the classifier applied to the scratch so updated. -/
theorem sound_kernel4_C (c : Dev nD) (E : Set ℕ) (i : grid4.Coords)
    (arg1 : Memref sig .tc .vmem S64x2560 .f32) (harg1 : arg1.IsWhole) (arg2 : Memref sig .tc .vmem S2560x128 .f32) (harg2 : arg2.IsWhole)
    (arg3 : Memref sig .tc .vmem S128x10 .f32) (harg3 : arg3.IsWhole) (arg4 : Memref sig .tc .vmem S10 .f32) (harg4 : arg4.IsWhole)
    (arg5 : Memref sig .tc .vmem S64x10 .f32) (harg5 : arg5.IsWhole) (arg6 : Memref sig .tc .vmem S64x128 .f32) (harg6 : arg6.IsWhole)
    (hc0 : ¬cond4_0 i) (hc1 : cond4_1 i)
    (x0 : Vec F S64x2560 .f32) (x1 : Vec F S2560x128 .f32) (x2 : Vec F S128x10 .f32) (x3 : Vec F S10 .f32)
    (s : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay3 (k4_pay2 s x0 x1) x2 x3) ∗ owns (c : Thread nD τ) arg6 fullShare (k4_pay2 s x0 x1)) -∗ K ⟨⟩))
      ⊢ wp frame (wpE (defs₀ (F := F)) Variants.none c none) E (cc4__pool_classify_kernel i arg1 harg1 arg2 harg2 arg3 harg3 arg4 harg4 arg5 harg5 arg6 harg6) K := by
  simp only [cc4__pool_classify_kernel_eq_skeleton]; unfold cc4__pool_classify_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (cover4_out _ _),
      View.canon_unit_zero z4_two, View.readCov_unit_zero _ z4_two, rd4_acc, rd4_pool, rd4_feat, rd4_wt, rd4_bias]
  iexists _; isplitr
  swap; · iexact H5
  ipureintro
  sl_unfold_run_names
  rw [View.read_writes_eq_canon _ _ _ (cover4_acc _ _),
    View.canon_unit_zero z4_two, rd4_acc, rd4_pool, rd4_feat]

/-! ## Where the conditions hold, and where the output window is idle -/

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 19 :=
  (by decide +kernel : ∀ t : Fin grid4.N, cond4_1 (grid4.coords t) ↔ t.val = 19)

/-- The four inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- The output is idle, and not written back, at every point but the last; at the last it is stored. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4 : ∀ t : Fin cfg4.N, cond4_1 (grid4.coords t) → cfg4.idle 4 (grid4.coords t) = false := by decide +kernel

/-! ## The accumulator point by point, and the output -/

/-- The scratch after the body at point `n`: zero plus the first product at the first point, then what the point
    before left plus this point's product. -/
def acc4 (c : Dev nD) : (n : ℕ) → n < cfg4.N → Vec F S64x128 .f32
  | 0, h => k4_pay2 (k4_pay1 (F := F)) (iblk4 V c 0 ⟨0, h⟩) (iblk4 V c 1 ⟨0, h⟩)
  | n + 1, h => k4_pay2 (acc4 c n (Nat.lt_of_succ_lt h)) (iblk4 V c 0 ⟨n + 1, h⟩) (iblk4 V c 1 ⟨n + 1, h⟩)

theorem acc4_zero (c : Dev nD) (h0 : 0 < cfg4.N) :
    acc4 V c 0 h0 = k4_pay2 (k4_pay1 (F := F)) (iblk4 V c 0 ⟨0, h0⟩) (iblk4 V c 1 ⟨0, h0⟩) := rfl

theorem acc4_succ (c : Dev nD) (n : ℕ) (hn : n + 1 < cfg4.N) :
    acc4 V c (n + 1) hn = k4_pay2 (acc4 V c n (Nat.lt_of_succ_lt hn)) (iblk4 V c 0 ⟨n + 1, hn⟩) (iblk4 V c 1 ⟨n + 1, hn⟩) := rfl

/-- At the first point, stated at the point. -/
theorem acc4_first (c : Dev nD) (t : Fin cfg4.N) (ht : t.val = 0) :
    acc4 V c t.val t.isLt = k4_pay2 (k4_pay1 (F := F)) (iblk4 V c 0 t) (iblk4 V c 1 t) := by
  obtain ⟨n, hn⟩ := t
  cases n with
  | zero => rfl
  | succ n => exact absurd ht (Nat.succ_ne_zero n)

/-- At a later point, stated at the point. -/
theorem acc4_later (c : Dev nD) (t : Fin cfg4.N) (ht : t.val ≠ 0) :
    acc4 V c t.val t.isLt
      = k4_pay2 (acc4 V c (t.val - 1) (Nat.lt_of_le_of_lt (Nat.sub_le _ _) t.isLt)) (iblk4 V c 0 t) (iblk4 V c 1 t) := by
  obtain ⟨n, hn⟩ := t
  cases n with
  | zero => exact absurd rfl ht
  | succ n => rfl

theorem lt19_4 : 19 < cfg4.N := by decide

/-- The 64×10 output block the last point stores: the classifier applied to the finished accumulator. -/
def out4 (c : Dev nD) : Vec F S64x10 .f32 :=
  k4_pay3 (acc4 V c 19 lt19_4) (iblk4 V c 2 ⟨19, lt19_4⟩) (iblk4 V c 3 ⟨19, lt19_4⟩)

theorem out4_eq (c : Dev nD) (h19 : 19 < cfg4.N) :
    out4 V c = k4_pay3 (acc4 V c 19 h19) (iblk4 V c 2 ⟨19, h19⟩) (iblk4 V c 3 ⟨19, h19⟩) := rfl

/-- The same stated at the last point. -/
theorem out4_at (c : Dev nD) (t : Fin cfg4.N) (ht : t.val = 19) :
    out4 V c = k4_pay3 (acc4 V c t.val t.isLt) (iblk4 V c 2 t) (iblk4 V c 3 t) := by
  obtain ⟨n, hn⟩ := t
  dsimp only at ht
  subst ht
  rfl

/-! ## The scratch and the rest of the region's invariant -/

/-- The scratch accumulator, a whole buffer of the kernel's own. -/
abbrev scM4 : Memref sig .tc .vmem S64x128 .f32 := Memref.whole cc4_scratch0

/-- The scoped buffers other than the staging buffers and the scratch, at anything. -/
abbrev rest4 (c : Dev nD) : sProp 𝕄 :=
  Pipeline.scopedRestBut (Ix := Unit) (Name := ℕ) (U := UR sig nD τ) (Lvl := ℕ) (Val := Elt F) spec4 c [cc4_scratch0]

/-- What the launch hands the region: the scratch at anything, the other scoped buffers, the generator register. -/
theorem PhiA4_eq (c : Dev nD) :
    (Pipeline.ΦA spec4 c : sProp 𝕄)
      = iprop(iprop((∃ d, owns (c : Thread nD τ) scM4 fullShare d) ∗ rest4 (F := F) c) ∗ (∃ r, prngReg c r)) := by
  unfold Pipeline.ΦA
  rw [Pipeline.scopedRest_split_of_list spec4 c [cc4_scratch0] (by decide) (by decide)]
  simp only [bigSepL_singleton, scM4, owns_whole]; try rfl

/-- The region's invariant before position `n`: before the first point what the launch hands over; afterwards the
    scratch at what the point before left in it, beside the other scoped buffers and the generator register. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ rest4 (F := F) c) ∗ (∃ r, prngReg c r)) := by
  cases n with
  | zero => exact absurd rfl hz
  | succ n => rfl

/-! ## The proof data -/

/-- Region 4's proof data on core `c`: the arrays as the region finds them; after the body each input buffer at its
    block and the output buffer at the classifier's result (stored at the last point only; elsewhere the window is
    idle and not written back, and nothing reads this); the invariant carries the scratch from point to point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 V c
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 V c := by dsimp only [dat4]
theorem after4_4_last (c : Dev nD) (t : Fin cfg4.N) (ht : t.val = 19) : (dat4 V c).after 4 t = out4 V c := after4_4 V c t

theorem owed4 (c : Dev nD) (t) : (dat4 V c).owed t = 0 := rfl
theorem q4 (c : Dev nD) : (dat4 V c).q = fun _ => fullShare := rfl

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

/-- The body at any point. The inputs' buffers hold their blocks; the position says which of the three cases runs.
    The invariant hands over the scratch — at anything at the first point, at what the point before left later —
    and takes it back at this point's accumulator; the output buffer comes back untouched except at the last
    point, where it holds the classifier's result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  have hN : t.val < 20 := lt_of_lt_of_eq t.isLt (show cfg4.N = 20 from N_4)
  by_cases h1 : t.val = 19
  · have hz : t.val ≠ 0 := by omega
    rw [show (dat4 V c).leavesExact 4 t = owns (c : Thread nD τ) (st4_4 t) fullShare ((dat4 V c).after 4 t) from by
      unfold Dat.leavesExact; rw [liveAt4_4 t ((hcond4_1 t).mpr h1)], after4_4]
    rw [out4_at V c t h1, acc4_later V c t hz]
    rw [PhiS4_castSucc V c t, PhiS4_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel4_C c Set.univ _ _ _ _ _ _ _ _ _ _ _ _ _ (fun h => hz ((hcond4_0 t).mp h)) ((hcond4_1 t).mpr h1)
      (iblk4 V c 0 t) (iblk4 V c 1 t) (iblk4 V c 2 t) (iblk4 V c 3 t) (acc4 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat4 V c) 4 t (idleAt4_4 t (fun h => h1 ((hcond4_1 t).mp h))) (noFlush4_4 t (fun h => h1 ((hcond4_1 t).mp h)))]
    by_cases hz : t.val = 0
    · rw [acc4_first V c t hz, PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩, ⟨%d4, H4⟩⟩
      iapply (sound_kernel4_A c Set.univ _ _ _ _ _ _ _ _ _ _ _ _ _ ((hcond4_0 t).mpr hz) (fun h => h1 ((hcond4_1 t).mp h))
        (iblk4 V c 0 t) (iblk4 V c 1 t) (iblk4 V c 2 t) (iblk4 V c 3 t) ((dat4 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [acc4_later V c t hz, PhiS4_castSucc V c t, PhiS4_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel4_B c Set.univ _ _ _ _ _ _ _ _ _ _ _ _ _ (fun h => hz ((hcond4_0 t).mp h)) (fun h => h1 ((hcond4_1 t).mp h))
        (iblk4 V c 0 t) (iblk4 V c 1 t) (iblk4 V c 2 t) (iblk4 V c 3 t) ((dat4 V c).before 4 t d4)
        (acc4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]; · iexists _; iexact HS
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.Kernel.Reg

end
-- ==== Proof.BSegsDefs.lean ====
/-
  The contents of the core's unscoped buffers between the items of the kernel program's @main: the launch memory, then each host stretch folded over it, then, after a pallas_call, its output array at what the grid's write-backs leave and every other buffer unchanged; and every pipeline's proof data at its region's entry contents. The same text in the word-level program's namespace. Stated for any float instance.
-/
import proofs.«427735_j54941221650950_1_alg».proof.Proof.BReg0
import proofs.«427735_j54941221650950_1_alg».proof.Proof.BReg1
import proofs.«427735_j54941221650950_1_alg».proof.Proof.BReg2
import proofs.«427735_j54941221650950_1_alg».proof.Proof.BReg3
import proofs.«427735_j54941221650950_1_alg».proof.Proof.BReg4
import proofs.«427735_j54941221650950_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
open Cert.Kernel.Reg
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A core's buffer contents read at the TensorCore's references. -/
abbrev asV (W : Dev nD → Valuation τ sig (Elt F)) : (c : Dev nD) → (b : Ref sig .tc) → Buf (Elt F) ((c : Thread nD τ).loc b) :=
  fun c b => W c b

/-- Before the first pallas_call: the launch memory after the first host stretch. -/
abbrev W1 : Dev nD → Valuation τ sig (Elt F) := fun c => V1 m c
/-- The first pallas_call's result array. -/
def o27 (c : Dev nD) : Buf (Elt F) ((c : Thread nD τ).loc main_v27) := (dat0 (asV (W1 m)) c).arrAt 2 cfg0.N
def W2 (c : Dev nD) : Valuation τ sig (Elt F) := Function.update (W1 m c) main_v27 (o27 m c)
abbrev W3 : Dev nD → Valuation τ sig (Elt F) := fun c => StableHlo.after hostOps1 (W2 m c)
/-- The second pallas_call's result array. -/
def o42 (c : Dev nD) : Buf (Elt F) ((c : Thread nD τ).loc main_v42) := (dat1 (asV (W3 m)) c).arrAt 2 cfg1.N
def W4 (c : Dev nD) : Valuation τ sig (Elt F) := Function.update (W3 m c) main_v42 (o42 m c)
/-- The third pallas_call's result array. -/
def o43 (c : Dev nD) : Buf (Elt F) ((c : Thread nD τ).loc main_v43) := (dat2 (asV (W4 m)) c).arrAt 2 cfg2.N
def W5 (c : Dev nD) : Valuation τ sig (Elt F) := Function.update (W4 m c) main_v43 (o43 m c)
abbrev W6 : Dev nD → Valuation τ sig (Elt F) := fun c => StableHlo.after hostOps3 (W5 m c)
/-- The fourth pallas_call's result array. -/
def o58 (c : Dev nD) : Buf (Elt F) ((c : Thread nD τ).loc main_v58) := (dat3 (asV (W6 m)) c).arrAt 2 cfg3.N
def W7 (c : Dev nD) : Valuation τ sig (Elt F) := Function.update (W6 m c) main_v58 (o58 m c)
abbrev W8 : Dev nD → Valuation τ sig (Elt F) := fun c => StableHlo.after hostOps4 (W7 m c)
abbrev W9 : Dev nD → Valuation τ sig (Elt F) := fun c => StableHlo.after hostOps4_1 (W8 m c)
abbrev W10 : Dev nD → Valuation τ sig (Elt F) := fun c => StableHlo.after hostOps4_2 (W9 m c)
abbrev W11 : Dev nD → Valuation τ sig (Elt F) := fun c => StableHlo.after hostOps4_3 (W10 m c)
/-- The fifth pallas_call's result array: the program's result. -/
def o74 (c : Dev nD) : Buf (Elt F) ((c : Thread nD τ).loc main_v74) := (dat4 (asV (W11 m)) c).arrAt 4 cfg4.N
def W12 (c : Dev nD) : Valuation τ sig (Elt F) := Function.update (W11 m c) main_v74 (o74 m c)

/-- What the pallas_calls leave, as the family the generated buffer contents are written over: after item J − 1 the
    contents named above. -/
def outs : Outs (F := F) := fun J r c =>
  if J = 2 then W2 m c r else if J = 4 then W4 m c r else if J = 5 then W5 m c r else if J = 7 then W7 m c r else W12 m c r

theorem outs_2 (r : Ref sig .tc) (c : Dev nD) : outs m 2 r c = W2 m c r := by unfold outs; rw [if_pos rfl]
theorem outs_4 (r : Ref sig .tc) (c : Dev nD) : outs m 4 r c = W4 m c r := by
  unfold outs; rw [if_neg (by decide : ¬ (4 : ℕ) = 2), if_pos rfl]
theorem outs_5 (r : Ref sig .tc) (c : Dev nD) : outs m 5 r c = W5 m c r := by
  unfold outs; rw [if_neg (by decide : ¬ (5 : ℕ) = 2), if_neg (by decide : ¬ (5 : ℕ) = 4), if_pos rfl]
theorem outs_7 (r : Ref sig .tc) (c : Dev nD) : outs m 7 r c = W7 m c r := by
  unfold outs; rw [if_neg (by decide : ¬ (7 : ℕ) = 2), if_neg (by decide : ¬ (7 : ℕ) = 4), if_neg (by decide : ¬ (7 : ℕ) = 5), if_pos rfl]
theorem outs_12 (r : Ref sig .tc) (c : Dev nD) : outs m 12 r c = W12 m c r := by
  unfold outs; rw [if_neg (by decide : ¬ (12 : ℕ) = 2), if_neg (by decide : ¬ (12 : ℕ) = 4), if_neg (by decide : ¬ (12 : ℕ) = 5), if_neg (by decide : ¬ (12 : ℕ) = 7)]

/-- The result arrays read back off the contents after their pallas_call. -/
theorem W2_v27 (c : Dev nD) : W2 m c main_v27 = o27 m c := by unfold W2; exact Function.update_self _ _ _
theorem W4_v42 (c : Dev nD) : W4 m c main_v42 = o42 m c := by unfold W4; exact Function.update_self _ _ _
theorem W5_v43 (c : Dev nD) : W5 m c main_v43 = o43 m c := by unfold W5; exact Function.update_self _ _ _
theorem W7_v58 (c : Dev nD) : W7 m c main_v58 = o58 m c := by unfold W7; exact Function.update_self _ _ _
theorem W12_v74 (c : Dev nD) : W12 m c main_v74 = o74 m c := by unfold W12; exact Function.update_self _ _ _

theorem V2_eq (c : Dev nD) : V2 m (outs m) c = W2 m c := by
  show Function.update (V1 m c) main_v27 (outs m 2 main_v27 c) = Function.update (W1 m c) main_v27 (o27 m c)
  rw [outs_2, W2_v27]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v42 (outs m 4 main_v42 c) = Function.update (W3 m c) main_v42 (o42 m c)
  rw [V3_eq, outs_4, W4_v42]
theorem V5_eq (c : Dev nD) : V5 m (outs m) c = W5 m c := by
  show Function.update (V4 m (outs m) c) main_v43 (outs m 5 main_v43 c) = Function.update (W4 m c) main_v43 (o43 m c)
  rw [V4_eq, outs_5, W5_v43]
theorem V6_eq (c : Dev nD) : V6 m (outs m) c = W6 m c := by
  show StableHlo.after hostOps3 (V5 m (outs m) c) = _; rw [V5_eq]
theorem V7_eq (c : Dev nD) : V7 m (outs m) c = W7 m c := by
  show Function.update (V6 m (outs m) c) main_v58 (outs m 7 main_v58 c) = Function.update (W6 m c) main_v58 (o58 m c)
  rw [V6_eq, outs_7, W7_v58]
theorem V11_eq (c : Dev nD) : V11 m (outs m) c = W11 m c := by
  show StableHlo.after hostOps4_3 (StableHlo.after hostOps4_2 (StableHlo.after hostOps4_1 (StableHlo.after hostOps4 (V7 m (outs m) c)))) = _
  rw [V7_eq]
theorem V12_eq (c : Dev nD) : V12 m (outs m) c = W12 m c := by
  show Function.update (V11 m (outs m) c) main_v74 (outs m 12 main_v74 c) = Function.update (W11 m c) main_v74 (o74 m c)
  rw [V11_eq, outs_12, W12_v74]

/-! ## The proof data family and the thread state -/

/-- Every pipeline's proof data, each at its region's entry contents. -/
def pdats : (p : Fin 5) → (c : Dev nD) → Dat τ (Elt F) Unit ℕ (UR sig nD τ) ℕ (cfgs p) c
  | ⟨0, _⟩ => fun c => dat0 (asV (W1 m)) c
  | ⟨1, _⟩ => fun c => dat1 (asV (W3 m)) c
  | ⟨2, _⟩ => fun c => dat2 (asV (W4 m)) c
  | ⟨3, _⟩ => fun c => dat3 (asV (W6 m)) c
  | ⟨4, _⟩ => fun c => dat4 (asV (W11 m)) c
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.Kernel.Run

end
-- ==== Proof.BSeg0.lean ====
/-
  The first pallas_call as a segment of @main: entered with every unscoped buffer of the core at the contents before it, left with its output array at what the grid's write-backs leave and every other buffer unchanged; its input arrays split out of the unscoped buffers at entry and put back at exit. The same text in the word-level program's namespace. Stated for any float instance.
-/
import proofs.«427735_j54941221650950_1_alg».proof.Proof.BSegsDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-- Region 0's arrays at its exit: the inputs as entered, the output at what the write-backs leave. -/
theorem hF0 (c : Dev nD) : ∀ w : Fin cfg0.W, (dat0 (asV (W1 m)) c).arrAt w cfg0.N = asV (W2 m) c (Pipeline.arrRef spec0 w) := fun w => match w with
    | ⟨0, _⟩ => by show (dat0 (asV (W1 m)) c).arrAt 0 cfg0.N = W2 m c (Pipeline.arrRef spec0 0); unfold W2; rw [Function.update_of_ne (StableHlo.devRef_ne_of_ne (by decide))]; exact ((dat0 (asV (W1 m)) c).arrAt_in 0 rfl _).trans (A_eq0 (asV (W1 m)) c 0)
    | ⟨1, _⟩ => by show (dat0 (asV (W1 m)) c).arrAt 1 cfg0.N = W2 m c (Pipeline.arrRef spec0 1); unfold W2; rw [Function.update_of_ne (StableHlo.devRef_ne_of_ne (by decide))]; exact ((dat0 (asV (W1 m)) c).arrAt_in 1 rfl _).trans (A_eq0 (asV (W1 m)) c 1)
    | ⟨2, _⟩ => by show (dat0 (asV (W1 m)) c).arrAt 2 cfg0.N = W2 m c main_v27; unfold W2; rw [Function.update_self]; rfl
/-- Every other buffer is as the region found it. -/
theorem hrest0 (c : Dev nD) : ∀ b, b ∉ Finset.univ.image (Pipeline.arrRef spec0) → asV (W2 m) c b = asV (W1 m) c b := fun b hb => by
  show W2 m c b = W1 m c b
  unfold W2
  exact Function.update_of_ne (StableHlo.devRef_ne_of_ne fun e => hb (Finset.mem_image.mpr ⟨2, Finset.mem_univ _, e.symm⟩)) _ _

set_option backward.isDefEq.respectTransparency.types false in
/-- The first pallas_call as a segment of @main: entered with every unscoped buffer at the contents before it, left with the
    output array at what its write-backs leave and every other buffer unchanged; the generator register and the core's
    empty debt ride along. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (asV (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (asV (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (asV (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (asV (W1 m) c) (asV (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg1.lean ====
/-
  The second pallas_call as a segment of @main: entered with every unscoped buffer of the core at the contents before it, left with its output array at what the grid's write-backs leave and every other buffer unchanged; its input arrays split out of the unscoped buffers at entry and put back at exit. The same text in the word-level program's namespace. Stated for any float instance.
-/
import proofs.«427735_j54941221650950_1_alg».proof.Proof.BSegsDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-- Region 1's arrays at its exit: the inputs as entered, the output at what the write-backs leave. -/
theorem hF1 (c : Dev nD) : ∀ w : Fin cfg1.W, (dat1 (asV (W3 m)) c).arrAt w cfg1.N = asV (W4 m) c (Pipeline.arrRef spec1 w) := fun w => match w with
    | ⟨0, _⟩ => by show (dat1 (asV (W3 m)) c).arrAt 0 cfg1.N = W4 m c (Pipeline.arrRef spec1 0); unfold W4; rw [Function.update_of_ne (StableHlo.devRef_ne_of_ne (by decide))]; exact ((dat1 (asV (W3 m)) c).arrAt_in 0 rfl _).trans (A_eq1 (asV (W3 m)) c 0)
    | ⟨1, _⟩ => by show (dat1 (asV (W3 m)) c).arrAt 1 cfg1.N = W4 m c (Pipeline.arrRef spec1 1); unfold W4; rw [Function.update_of_ne (StableHlo.devRef_ne_of_ne (by decide))]; exact ((dat1 (asV (W3 m)) c).arrAt_in 1 rfl _).trans (A_eq1 (asV (W3 m)) c 1)
    | ⟨2, _⟩ => by show (dat1 (asV (W3 m)) c).arrAt 2 cfg1.N = W4 m c main_v42; unfold W4; rw [Function.update_self]; rfl
/-- Every other buffer is as the region found it. -/
theorem hrest1 (c : Dev nD) : ∀ b, b ∉ Finset.univ.image (Pipeline.arrRef spec1) → asV (W4 m) c b = asV (W3 m) c b := fun b hb => by
  show W4 m c b = W3 m c b
  unfold W4
  exact Function.update_of_ne (StableHlo.devRef_ne_of_ne fun e => hb (Finset.mem_image.mpr ⟨2, Finset.mem_univ _, e.symm⟩)) _ _

set_option backward.isDefEq.respectTransparency.types false in
/-- The second pallas_call as a segment of @main: entered with every unscoped buffer at the contents before it, left with the
    output array at what its write-backs leave and every other buffer unchanged; the generator register and the core's
    empty debt ride along. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (asV (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (asV (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (asV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (asV (W3 m) c) (asV (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg2.lean ====
/-
  The third pallas_call as a segment of @main: entered with every unscoped buffer of the core at the contents before it, left with its output array at what the grid's write-backs leave and every other buffer unchanged; its input arrays split out of the unscoped buffers at entry and put back at exit. The same text in the word-level program's namespace. Stated for any float instance.
-/
import proofs.«427735_j54941221650950_1_alg».proof.Proof.BSegsDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-- Region 2's arrays at its exit: the inputs as entered, the output at what the write-backs leave. -/
theorem hF2 (c : Dev nD) : ∀ w : Fin cfg2.W, (dat2 (asV (W4 m)) c).arrAt w cfg2.N = asV (W5 m) c (Pipeline.arrRef spec2 w) := fun w => match w with
    | ⟨0, _⟩ => by show (dat2 (asV (W4 m)) c).arrAt 0 cfg2.N = W5 m c (Pipeline.arrRef spec2 0); unfold W5; rw [Function.update_of_ne (StableHlo.devRef_ne_of_ne (by decide))]; exact ((dat2 (asV (W4 m)) c).arrAt_in 0 rfl _).trans (A_eq2 (asV (W4 m)) c 0)
    | ⟨1, _⟩ => by show (dat2 (asV (W4 m)) c).arrAt 1 cfg2.N = W5 m c (Pipeline.arrRef spec2 1); unfold W5; rw [Function.update_of_ne (StableHlo.devRef_ne_of_ne (by decide))]; exact ((dat2 (asV (W4 m)) c).arrAt_in 1 rfl _).trans (A_eq2 (asV (W4 m)) c 1)
    | ⟨2, _⟩ => by show (dat2 (asV (W4 m)) c).arrAt 2 cfg2.N = W5 m c main_v43; unfold W5; rw [Function.update_self]; rfl
/-- Every other buffer is as the region found it. -/
theorem hrest2 (c : Dev nD) : ∀ b, b ∉ Finset.univ.image (Pipeline.arrRef spec2) → asV (W5 m) c b = asV (W4 m) c b := fun b hb => by
  show W5 m c b = W4 m c b
  unfold W5
  exact Function.update_of_ne (StableHlo.devRef_ne_of_ne fun e => hb (Finset.mem_image.mpr ⟨2, Finset.mem_univ _, e.symm⟩)) _ _

set_option backward.isDefEq.respectTransparency.types false in
/-- The third pallas_call as a segment of @main: entered with every unscoped buffer at the contents before it, left with the
    output array at what its write-backs leave and every other buffer unchanged; the generator register and the core's
    empty debt ride along. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (asV (W4 m)) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (asV (W4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (asV (W4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (asV (W4 m) c) (asV (W5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg3.lean ====
/-
  The fourth pallas_call as a segment of @main: entered with every unscoped buffer of the core at the contents before it, left with its output array at what the grid's write-backs leave and every other buffer unchanged; its input arrays split out of the unscoped buffers at entry and put back at exit. The same text in the word-level program's namespace. Stated for any float instance.
-/
import proofs.«427735_j54941221650950_1_alg».proof.Proof.BSegsDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-- Region 3's arrays at its exit: the inputs as entered, the output at what the write-backs leave. -/
theorem hF3 (c : Dev nD) : ∀ w : Fin cfg3.W, (dat3 (asV (W6 m)) c).arrAt w cfg3.N = asV (W7 m) c (Pipeline.arrRef spec3 w) := fun w => match w with
    | ⟨0, _⟩ => by show (dat3 (asV (W6 m)) c).arrAt 0 cfg3.N = W7 m c (Pipeline.arrRef spec3 0); unfold W7; rw [Function.update_of_ne (StableHlo.devRef_ne_of_ne (by decide))]; exact ((dat3 (asV (W6 m)) c).arrAt_in 0 rfl _).trans (A_eq3 (asV (W6 m)) c 0)
    | ⟨1, _⟩ => by show (dat3 (asV (W6 m)) c).arrAt 1 cfg3.N = W7 m c (Pipeline.arrRef spec3 1); unfold W7; rw [Function.update_of_ne (StableHlo.devRef_ne_of_ne (by decide))]; exact ((dat3 (asV (W6 m)) c).arrAt_in 1 rfl _).trans (A_eq3 (asV (W6 m)) c 1)
    | ⟨2, _⟩ => by show (dat3 (asV (W6 m)) c).arrAt 2 cfg3.N = W7 m c main_v58; unfold W7; rw [Function.update_self]; rfl
/-- Every other buffer is as the region found it. -/
theorem hrest3 (c : Dev nD) : ∀ b, b ∉ Finset.univ.image (Pipeline.arrRef spec3) → asV (W7 m) c b = asV (W6 m) c b := fun b hb => by
  show W7 m c b = W6 m c b
  unfold W7
  exact Function.update_of_ne (StableHlo.devRef_ne_of_ne fun e => hb (Finset.mem_image.mpr ⟨2, Finset.mem_univ _, e.symm⟩)) _ _

set_option backward.isDefEq.respectTransparency.types false in
/-- The fourth pallas_call as a segment of @main: entered with every unscoped buffer at the contents before it, left with the
    output array at what its write-backs leave and every other buffer unchanged; the generator register and the core's
    empty debt ride along. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (asV (W6 m)) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (asV (W6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (asV (W6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (asV (W6 m) c) (asV (W7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BSeg4.lean ====
/-
  The fifth pallas_call as a segment of @main: entered with every unscoped buffer of the core at the contents before it, left with its output array at what the grid's write-backs leave and every other buffer unchanged; its input arrays split out of the unscoped buffers at entry and put back at exit. The same text in the word-level program's namespace. Stated for any float instance.
-/
import proofs.«427735_j54941221650950_1_alg».proof.Proof.BSegsDefs

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ)

/-- Region 4's arrays at its exit: the inputs as entered, the output at what the write-backs leave. -/
theorem hF4 (c : Dev nD) : ∀ w : Fin cfg4.W, (dat4 (asV (W11 m)) c).arrAt w cfg4.N = asV (W12 m) c (Pipeline.arrRef spec4 w) := fun w => match w with
    | ⟨0, _⟩ => by show (dat4 (asV (W11 m)) c).arrAt 0 cfg4.N = W12 m c (Pipeline.arrRef spec4 0); unfold W12; rw [Function.update_of_ne (StableHlo.devRef_ne_of_ne (by decide))]; exact ((dat4 (asV (W11 m)) c).arrAt_in 0 rfl _).trans (A_eq4 (asV (W11 m)) c 0)
    | ⟨1, _⟩ => by show (dat4 (asV (W11 m)) c).arrAt 1 cfg4.N = W12 m c (Pipeline.arrRef spec4 1); unfold W12; rw [Function.update_of_ne (StableHlo.devRef_ne_of_ne (by decide))]; exact ((dat4 (asV (W11 m)) c).arrAt_in 1 rfl _).trans (A_eq4 (asV (W11 m)) c 1)
    | ⟨2, _⟩ => by show (dat4 (asV (W11 m)) c).arrAt 2 cfg4.N = W12 m c (Pipeline.arrRef spec4 2); unfold W12; rw [Function.update_of_ne (StableHlo.devRef_ne_of_ne (by decide))]; exact ((dat4 (asV (W11 m)) c).arrAt_in 2 rfl _).trans (A_eq4 (asV (W11 m)) c 2)
    | ⟨3, _⟩ => by show (dat4 (asV (W11 m)) c).arrAt 3 cfg4.N = W12 m c (Pipeline.arrRef spec4 3); unfold W12; rw [Function.update_of_ne (StableHlo.devRef_ne_of_ne (by decide))]; exact ((dat4 (asV (W11 m)) c).arrAt_in 3 rfl _).trans (A_eq4 (asV (W11 m)) c 3)
    | ⟨4, _⟩ => by show (dat4 (asV (W11 m)) c).arrAt 4 cfg4.N = W12 m c main_v74; unfold W12; rw [Function.update_self]; rfl
/-- Every other buffer is as the region found it. -/
theorem hrest4 (c : Dev nD) : ∀ b, b ∉ Finset.univ.image (Pipeline.arrRef spec4) → asV (W12 m) c b = asV (W11 m) c b := fun b hb => by
  show W12 m c b = W11 m c b
  unfold W12
  exact Function.update_of_ne (StableHlo.devRef_ne_of_ne fun e => hb (Finset.mem_image.mpr ⟨4, Finset.mem_univ _, e.symm⟩)) _ _

set_option backward.isDefEq.respectTransparency.types false in
/-- The fifth pallas_call as a segment of @main: entered with every unscoped buffer at the contents before it, left with the
    output array at what its write-backs leave and every other buffer unchanged; the generator register and the core's
    empty debt ride along. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (asV (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (asV (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (asV (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (asV (W11 m)) c).Φ 0 from rfl]
    iintro ⟨Hp, -, Hr⟩
    iapply (hin4 (asV (W11 m)) c)
    unfold Pipeline.ΦA
    isplitl [Hr]; · iexact Hr
    iexact Hp
  hout c := by
    rw [Pipeline.ownSems0_none, show (pdats m 4 c).Φ (Fin.last _) = (dat4 (asV (W11 m)) c).Φ (Fin.last cfg4.N) from rfl]
    iintro HΦ
    ihave HA := (hout4 (asV (W11 m)) c) $$ HΦ
    unfold Pipeline.ΦA
    icases HA with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (asV (W11 m) c) (asV (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BRunMain.lean ====
/-
  The launch of the kernel program over its segments: from any memory with zero counters every weakly fair execution terminates without a fault, and every final memory holds each unscoped buffer of the core at the contents named after the last item — in particular the result array at what the fifth pallas_call's write-back leaves, and each argument array at its launch contents (no item writes an argument). The same text in the word-level program's namespace. Stated for any float instance.
-/
import proofs.«427735_j54941221650950_1_alg».proof.Proof.BSeg0
import proofs.«427735_j54941221650950_1_alg».proof.Proof.BSeg1
import proofs.«427735_j54941221650950_1_alg».proof.Proof.BSeg2
import proofs.«427735_j54941221650950_1_alg».proof.Proof.BSeg3
import proofs.«427735_j54941221650950_1_alg».proof.Proof.BSeg4

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Reg

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest that rides beside the buffers, the same between any two items. -/
abbrev E : Fin 6 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every final memory holds every unscoped buffer at the last named contents. -/
theorem run_vals : θ_run defs (onTc (τ := τ) (main (F := F))) ⟨m, fun _ => 0, ρ⟩
    (fun r => ∀ c : Dev nD, ∀ b ∈ Pipeline.ucRefs τ sig, r.2.mem (((c : Thread nD τ)).1, b) = W12 m c b) := by
  refine Pipeline.θ_run_regions_kit_dev (pcfgs (F := F)) adm (pdats m) () cellOf_inj emb₁ defs₀ Variants.none L lv m ρ main
    (segs m (outs m) Variants.none L lv (E (F := F)) () (pdats m) (reg0 m) (reg1 m) (reg2 m) (reg3 m) (reg4 m))
    (fun c Q => by
      rewrite [main_chain c, Seg.run_eq_chain,
        show (segs m (outs m) Variants.none L lv (E (F := F)) () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W12 m c) ∗ ∃ r, prngReg c r))
    (hch := fun c => ⟨.rfl, .rfl,
      (by show iprop(StableHlo.held (c : Thread nD τ) (Pipeline.ucRefs τ sig) (W2 m c) ∗ R c) ⊢ iprop(StableHlo.held (c : Thread nD τ) (Pipeline.ucRefs τ sig) (V2 m (outs m) c) ∗ R c)
          rw [V2_eq m c]),
      (by show iprop(StableHlo.held (c : Thread nD τ) (Pipeline.ucRefs τ sig) (StableHlo.after hostOps1 (V2 m (outs m) c)) ∗ R c) ⊢ iprop(StableHlo.held (c : Thread nD τ) (Pipeline.ucRefs τ sig) (W3 m c) ∗ R c)
          rw [V2_eq m c]),
      .rfl,
      (by show iprop(StableHlo.held (c : Thread nD τ) (Pipeline.ucRefs τ sig) (W5 m c) ∗ R c) ⊢ iprop(StableHlo.held (c : Thread nD τ) (Pipeline.ucRefs τ sig) (V5 m (outs m) c) ∗ R c)
          rw [V5_eq m c]),
      (by show iprop(StableHlo.held (c : Thread nD τ) (Pipeline.ucRefs τ sig) (StableHlo.after hostOps3 (V5 m (outs m) c)) ∗ R c) ⊢ iprop(StableHlo.held (c : Thread nD τ) (Pipeline.ucRefs τ sig) (W6 m c) ∗ R c)
          rw [V5_eq m c]),
      (by show iprop(StableHlo.held (c : Thread nD τ) (Pipeline.ucRefs τ sig) (W7 m c) ∗ R c) ⊢ iprop(StableHlo.held (c : Thread nD τ) (Pipeline.ucRefs τ sig) (V7 m (outs m) c) ∗ R c)
          rw [V7_eq m c]),
      .rfl, .rfl, .rfl,
      (by show iprop(StableHlo.held (c : Thread nD τ) (Pipeline.ucRefs τ sig) (V11 m (outs m) c) ∗ R c) ⊢ iprop(StableHlo.held (c : Thread nD τ) (Pipeline.ucRefs τ sig) (W11 m c) ∗ R c)
          rw [V11_eq m c]),
      (by
        show iprop(StableHlo.held (c : Thread nD τ) (Pipeline.ucRefs τ sig) (W12 m c) ∗ R c)
          ⊢ iprop((StableHlo.held (c : Thread nD τ) (Pipeline.ucRefs τ sig) (W12 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- An argument array ends as launched: no item writes it. -/
theorem W12_arg (c : Dev nD) (r : Ref sig .tc) (h : V12 m (outs m) c r = m ((c : Thread nD τ).loc r)) : W12 m c r = m ((c : Thread nD τ).loc r) := by
  rw [← V12_eq m c]; exact h

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W12_arg m c main_arg0 (V12_main_arg0 m (outs m) c)),
      (h c _ (mem_uc main_arg1 (by decide))).trans (W12_arg m c main_arg1 (V12_main_arg1 m (outs m) c)),
      (h c _ (mem_uc main_arg2 (by decide))).trans (W12_arg m c main_arg2 (V12_main_arg2 m (outs m) c)),
      (h c _ (mem_uc main_arg3 (by decide))).trans (W12_arg m c main_arg3 (V12_main_arg3 m (outs m) c)),
      (h c _ (mem_uc main_arg4 (by decide))).trans (W12_arg m c main_arg4 (V12_main_arg4 m (outs m) c)),
      (h c _ (mem_uc main_arg5 (by decide))).trans (W12_arg m c main_arg5 (V12_main_arg5 m (outs m) c)),
      (h c _ (mem_uc main_arg6 (by decide))).trans (W12_arg m c main_arg6 (V12_main_arg6 m (outs m) c)),
      (h c _ (mem_uc main_arg7 (by decide))).trans (W12_arg m c main_arg7 (V12_main_arg7 m (outs m) c)),
      (h c _ (mem_uc main_arg8 (by decide))).trans (W12_arg m c main_arg8 (V12_main_arg8 m (outs m) c))⟩)
    (run_vals m ρ)

/-- THE RESULT beside the frame: the result array ends at the fifth pallas_call's output. -/
theorem run_result : θ_run defs (onTc (τ := τ) (main (F := F))) ⟨m, fun _ => 0, ρ⟩ (fun r => ∀ c : Dev nD,
      r.2.mem ((c.tc : Thread nD τ).loc main_v74) = o74 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_v74 (by decide))).trans (by show W12 m c main_v74 = o74 m c; unfold W12; rw [Function.update_self]),
      (h c _ (mem_uc main_arg0 (by decide))).trans (W12_arg m c main_arg0 (V12_main_arg0 m (outs m) c)),
      (h c _ (mem_uc main_arg1 (by decide))).trans (W12_arg m c main_arg1 (V12_main_arg1 m (outs m) c)),
      (h c _ (mem_uc main_arg2 (by decide))).trans (W12_arg m c main_arg2 (V12_main_arg2 m (outs m) c)),
      (h c _ (mem_uc main_arg3 (by decide))).trans (W12_arg m c main_arg3 (V12_main_arg3 m (outs m) c)),
      (h c _ (mem_uc main_arg4 (by decide))).trans (W12_arg m c main_arg4 (V12_main_arg4 m (outs m) c)),
      (h c _ (mem_uc main_arg5 (by decide))).trans (W12_arg m c main_arg5 (V12_main_arg5 m (outs m) c)),
      (h c _ (mem_uc main_arg6 (by decide))).trans (W12_arg m c main_arg6 (V12_main_arg6 m (outs m) c)),
      (h c _ (mem_uc main_arg7 (by decide))).trans (W12_arg m c main_arg7 (V12_main_arg7 m (outs m) c)),
      (h c _ (mem_uc main_arg8 (by decide))).trans (W12_arg m c main_arg8 (V12_main_arg8 m (outs m) c))⟩)
    (run_vals m ρ)

end Cert.Kernel.Run

end
-- ==== Proof.Spec.lean ====
/-
  Two functions on arrays of extended reals, over literal shapes: the product of a 50000 × 128 array with
  a 128 × 128 one, and a 50000 × 128 array with one bias row added to every row and the sum cut off below
  at zero.
-/
import Idealize.ShloMosaic.PureOps.Ideal
import Idealize.ShloMosaic.Lib.ValueIdx

noncomputable section

namespace Cert.Spec

open Idealize.ShloMosaic Idealize.ShloMosaic.ValueIdx
open scoped BigOperators

/-- 50000 rows of 128 entries. -/
abbrev SNxD : Shape := ⟨2, ![50000, 128]⟩
/-- A square 128 × 128 array. -/
abbrev SDxD : Shape := ⟨2, ![128, 128]⟩
/-- A single row of 128 entries. -/
abbrev S1xD : Shape := ⟨2, ![1, 128]⟩

/-- Entry (r, j) of the product of a 50000 × 128 array with a 128 × 128 one: the sum over k of x (r, k) · w (k, j). -/
def mm (x : SNxD.Idx → EReal) (w : SDxD.Idx → EReal) : SNxD.Idx → EReal :=
  fun i => ∑ k : Fin 128, x (ix2 (i 0) k) * w (ix2 k (i 1))

/-- Every row plus the one bias row, cut off below at zero: entry (r, j) is max (a (r, j) + b (0, j)) 0. -/
def br (a : SNxD.Idx → EReal) (b : S1xD.Idx → EReal) : SNxD.Idx → EReal :=
  fun i => max (a i + b (ix2 0 (i 1))) 0

theorem mm_apply (x : SNxD.Idx → EReal) (w : SDxD.Idx → EReal) (r : Fin 50000) (j : Fin 128) :
    mm x w (ix2 r j) = ∑ k : Fin 128, x (ix2 r k) * w (ix2 k j) := rfl

theorem br_apply (a : SNxD.Idx → EReal) (b : S1xD.Idx → EReal) (r : Fin 50000) (j : Fin 128) :
    br a b (ix2 r j) = max (a (ix2 r j) + b (ix2 0 j)) 0 := rfl

end Cert.Spec

end
-- ==== Proof.Val0.lean ====
/-
  The first product of the network, at the extended reals, as one function of whole arrays: after the ten
  grid points the 50000 × 128 result array holds the node features times the 128 × 128 weight. Point t
  multiplies rows 5000·t … 5000·t + 4999 of the features by the whole weight and writes the same rows of
  the result; every row lies in exactly one such band, so the bands together are the product.
-/
import proofs.«427735_j54941221650950_1_alg».proof.Proof.Reg0
import proofs.«427735_j54941221650950_1_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Reg
open scoped BigOperators

-- the array contents the region is entered with
variable (V : (c : Dev nD) → (b : Ref sig .tc) → Buf (Elt Ideal) ((c : Thread nD τ).loc b))

/-- The offsets (0, 0) are the zero offsets. -/
theorem hz0 : (![0, 0] : Fin 2 → Nat) = fun _ => 0 := funext fun a => by fin_cases a <;> rfl

/-! ## The product of two blocks, entry by entry -/

/-- The left factor's row coordinate is the output's row … -/
theorem lhs0_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … its column coordinate the summation index … -/
theorem lhs0_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- … the right factor's row coordinate the summation index … -/
theorem rhs0_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
/-- … and its column coordinate the output's column. -/
theorem rhs0_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of what the body computes from a 5000 × 128 block and a 128 × 128 block: the format changes
    are the identity on extended reals and the accumulator starts at zero, so it is Σ k, x0 (p, k) · x1 (k, q). -/
theorem mm0_pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs0_0 _ _
      | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs0_0 _ _).trans hk
      | ⟨1, _⟩ => exact rhs0_1 _ _)
  show x0 _ * x1 _ = _
  rw [el, er]

/-! ## What a point writes back -/

/-- The index maps over the ten points: the feature window and the result window are on block row t, the
    weight window stays on its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t writes back band t of the product of the two whole arrays: entry (p, q) of the block product sums
    over k the features at row 5000·t + p and the weight at (k, q), which is the whole product at row 5000·t + p. -/
theorem flushed0_eq (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Spec.mm (V c main_arg0) (V c main_arg3) (((cfg0.win 2).blk t).view.emb (ix2 p q))
  refine (mm0_pay_apply _ _ p q).trans ?_
  unfold Cert.Spec.mm
  refine Finset.sum_congr rfl fun k _ => ?_
  have h0 : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have h1 : iblk0 V c 1 t (ix2 k q)
      = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [h0, h1]

/-! ## The bands cover the array -/

/-- An index of the result array is in point t's band iff each coordinate is in the band's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row r lies in the band of point r / 5000, and every point writes back. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < 10; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-! ## The array after the ten points -/

/-- The result array ends holding the product of the feature array and the weight array. -/
theorem arr0 (c : Dev nD) :
    (dat0 (F := Ideal) V c).arrAt 2 cfg0.N = Cert.Spec.mm (V c main_arg0) (V c main_arg3) :=
  (dat0 (F := Ideal) V c).arrAt_eq_of_cover 2 (Cert.Spec.mm (V c main_arg0) (V c main_arg3))
    (fun t _ => flushed0_eq V c t) (cover0)

end Cert.KernelIdeal.Val

end
-- ==== Proof.Val1.lean ====
/-
  The bias and the cut-off at zero that close a layer, at the extended reals, as one function of whole
  arrays: after the ten grid points the 50000 × 128 result array holds, at (r, j), the larger of
  a (r, j) + b (0, j) and zero, where a is the 50000 × 128 input and b the 1 × 128 bias row. Point t does
  this on rows 5000·t … 5000·t + 4999 and writes the same rows of the result; every row lies in exactly
  one such band.
-/
import proofs.«427735_j54941221650950_1_alg».proof.Proof.Reg1
import proofs.«427735_j54941221650950_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Reg
open scoped BigOperators

-- the array contents the region is entered with
variable (V : (c : Dev nD) → (b : Ref sig .tc) → Buf (Elt Ideal) ((c : Thread nD τ).loc b))

/-- The offsets (0, 0) are the zero offsets. -/
theorem hz1 : (![0, 0] : Fin 2 → Nat) = fun _ => 0 := funext fun a => by fin_cases a <;> rfl

/-! ## A block plus the bias row, cut off at zero, entry by entry -/

/-- Entry (p, q) of what the body computes from a 5000 × 128 block and the 1 × 128 row: the casts to the same
    shape are the identity, the row is repeated down the block, the zero word is the real zero, and the
    maximum is taken entry by entry, so it is max (x0 (p, q) + x1 (0, q)) 0. -/
theorem br1_pay_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self, broadcastTo_1b_ab_apply, Ideal.ofBits_zero_f32]

/-! ## What a point writes back -/

/-- The index maps over the ten points: the input window and the result window are on block row t, the
    bias window stays on its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t writes back band t of the whole-array function: entry (p, q) of the block result reads the input at
    row 5000·t + p and the bias at column q, which is the whole-array function at row 5000·t + p. -/
theorem flushed1_eq (c : Dev nD) (t : Fin cfg1.N) :
    (dat1 (F := Ideal) V c).flushed 2 t
      = ((cfg1.win 2).blk t).view.read (Elt Ideal) (Cert.Spec.br (V c main_v40) (V c main_v41)) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S1x128) hz1]
  obtain ⟨e0, e1, e2, e3, e4, e5⟩ := idx_facts1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Spec.br (V c main_v40) (V c main_v41) (((cfg1.win 2).blk t).view.emb (ix2 p q))
  refine (br1_pay_apply _ _ p q).trans ?_
  unfold Cert.Spec.br
  have h0 : iblk1 V c 0 t (ix2 p q)
      = V c main_v40 (((cfg1.win 2).blk t).view.emb (ix2 p q)) := by
    show V c main_v40 (((cfg1.win 0).blk t).view.emb (ix2 p q)) = _
    refine congrArg (V c main_v40) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * q.val = win1_2.index t (1 : Fin 2) * 128 + 1 * q.val
      omega
  have h1 : iblk1 V c 1 t (ix2 (0 : Fin 1) q)
      = V c main_v41 (ix2 0 ((((cfg1.win 2).blk t).view.emb (ix2 p q)) 1)) := by
    show V c main_v41 (((cfg1.win 1).blk t).view.emb (ix2 (0 : Fin 1) q)) = _
    refine congrArg (V c main_v41) (funext fun a => Fin.ext ?_)
    match a with
    | ⟨0, _⟩ =>
      show win1_1.index t (0 : Fin 2) * 1 + 1 * 0 = 0
      omega
    | ⟨1, _⟩ =>
      show win1_1.index t (1 : Fin 2) * 128 + 1 * q.val = win1_2.index t (1 : Fin 2) * 128 + 1 * q.val
      omega
  rw [h0, h1]

/-! ## The bands cover the array -/

/-- An index of the result array is in point t's band iff each coordinate is in the band's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v42).slice (win1_2.rect t)).set ↔ _
  rw [View.set_slice_whole, Rect.mem_set_unit]
  exact Iff.rfl

/-- Row r lies in the band of point r / 5000, and every point writes back. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < 10; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The array after the ten points -/

/-- The result array ends holding the input plus the bias row, cut off below at zero. -/
theorem arr1 (c : Dev nD) :
    (dat1 (F := Ideal) V c).arrAt 2 cfg1.N = Cert.Spec.br (V c main_v40) (V c main_v41) :=
  (dat1 (F := Ideal) V c).arrAt_eq_of_cover 2 (Cert.Spec.br (V c main_v40) (V c main_v41))
    (fun t _ => flushed1_eq V c t) (cover1)

end Cert.KernelIdeal.Val

end
-- ==== Proof.Val2.lean ====
/-
  The second product of the network, at the extended reals, as one function of whole arrays: after the ten grid points the 50000 × 128 result array holds the first layer's activations times the second 128 × 128 weight. Point t multiplies rows 5000·t … 5000·t + 4999 of the activations by the whole weight and writes the same rows of the result; every row lies in exactly one such band, so the bands together are the product.
-/
import proofs.«427735_j54941221650950_1_alg».proof.Proof.Reg2
import proofs.«427735_j54941221650950_1_alg».proof.Proof.Spec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Reg
open scoped BigOperators

-- the array contents the region is entered with
variable (V : (c : Dev nD) → (b : Ref sig .tc) → Buf (Elt Ideal) ((c : Thread nD τ).loc b))

/-- The offsets (0, 0) are the zero offsets. -/
theorem hz2 : (![0, 0] : Fin 2 → Nat) = fun _ => 0 := funext fun a => by fin_cases a <;> rfl

/-! ## The product of two blocks, entry by entry -/

/-- The left factor's row coordinate is the output's row … -/
theorem lhs2_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … its column coordinate the summation index … -/
theorem lhs2_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- … the right factor's row coordinate the summation index … -/
theorem rhs2_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
/-- … and its column coordinate the output's column. -/
theorem rhs2_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of what the body computes from a 5000 × 128 block and a 128 × 128 block: the format changes
    are the identity on extended reals and the accumulator starts at zero, so it is Σ k, x0 (p, k) · x1 (k, q). -/
theorem mm2_pay_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs2_0 _ _
      | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs2_0 _ _).trans hk
      | ⟨1, _⟩ => exact rhs2_1 _ _)
  show (shapeCast S5000x128 x0 shapeCasts_S5000x128_S5000x128) _ * x1 _ = _
  rw [shapeCast_self, el, er]

/-! ## What a point writes back -/

/-- The index maps over the ten points: the feature window and the result window are on block row t, the
    weight window stays on its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t writes back band t of the product of the two whole arrays: entry (p, q) of the block product sums
    over k the features at row 5000·t + p and the weight at (k, q), which is the whole product at row 5000·t + p. -/
theorem flushed2_eq (c : Dev nD) (t : Fin cfg2.N) :
    (dat2 (F := Ideal) V c).flushed 2 t
      = ((cfg2.win 2).blk t).view.read (Elt Ideal) (Cert.Spec.mm (V c main_v42) (V c main_arg5)) := by
  show (cfg2.win 2).cut (grid2.coords t) ((dat2 (F := Ideal) V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = Cert.Spec.mm (V c main_v42) (V c main_arg5) (((cfg2.win 2).blk t).view.emb (ix2 p q))
  refine (mm2_pay_apply _ _ p q).trans ?_
  unfold Cert.Spec.mm
  refine Finset.sum_congr rfl fun k _ => ?_
  have h0 : iblk2 V c 0 t (ix2 p k)
      = V c main_v42 (ix2 ((((cfg2.win 2).blk t).view.emb (ix2 p q)) 0) k) := by
    show V c main_v42 (((cfg2.win 0).blk t).view.emb (ix2 p k)) = _
    refine congrArg (V c main_v42) (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 128 + 1 * k.val = k.val
      omega
  have h1 : iblk2 V c 1 t (ix2 k q)
      = V c main_arg5 (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_2.index t (1 : Fin 2) * 128 + 1 * q.val
      omega
  rw [h0, h1]

/-! ## The bands cover the array -/

/-- An index of the result array is in point t's band iff each coordinate is in the band's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- Row r lies in the band of point r / 5000, and every point writes back. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show _ < 10; omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-! ## The array after the ten points -/

/-- The result array ends holding the product of the feature array and the weight array. -/
theorem arr2 (c : Dev nD) :
    (dat2 (F := Ideal) V c).arrAt 2 cfg2.N = Cert.Spec.mm (V c main_v42) (V c main_arg5) :=
  (dat2 (F := Ideal) V c).arrAt_eq_of_cover 2 (Cert.Spec.mm (V c main_v42) (V c main_arg5))
    (fun t _ => flushed2_eq V c t) (cover2)

end Cert.KernelIdeal.Val

end
-- ==== Proof.Val3.lean ====
/-
  The bias and the cut-off at zero that close the second layer, at the extended reals, as one function of whole arrays: after the ten grid points the 50000 × 128 result array holds, at (r, j), the larger of a (r, j) + b (0, j) and zero, where a is the second layer's 50000 × 128 aggregated messages and b its 1 × 128 bias row. Point t does this on rows 5000·t … 5000·t + 4999 and writes the same rows of the result; every row lies in exactly one such band.
-/
import proofs.«427735_j54941221650950_1_alg».proof.Proof.Reg3
import proofs.«427735_j54941221650950_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Reg
open scoped BigOperators

-- the array contents the region is entered with
variable (V : (c : Dev nD) → (b : Ref sig .tc) → Buf (Elt Ideal) ((c : Thread nD τ).loc b))

/-- The offsets (0, 0) are the zero offsets. -/
theorem hz3 : (![0, 0] : Fin 2 → Nat) = fun _ => 0 := funext fun a => by fin_cases a <;> rfl

/-! ## A block plus the bias row, cut off at zero, entry by entry -/

/-- Entry (p, q) of what the body computes from a 5000 × 128 block and the 1 × 128 row: the casts to the same
    shape are the identity, the row is repeated down the block, the zero word is the real zero, and the
    maximum is taken entry by entry, so it is max (x0 (p, q) + x1 (0, q)) 0. -/
theorem br3_pay_apply (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) 0 := by
  unfold k3_pay1
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [shapeCast_self, shapeCast_self, broadcastTo_1b_ab_apply, Ideal.ofBits_zero_f32]

/-! ## What a point writes back -/

/-- The index maps over the ten points: the input window and the result window are on block row t, the
    bias window stays on its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point t writes back band t of the whole-array function: entry (p, q) of the block result reads the input at
    row 5000·t + p and the bias at column q, which is the whole-array function at row 5000·t + p. -/
theorem flushed3_eq (c : Dev nD) (t : Fin cfg3.N) :
    (dat3 (F := Ideal) V c).flushed 2 t
      = ((cfg3.win 2).blk t).view.read (Elt Ideal) (Cert.Spec.br (V c main_v56) (V c main_v57)) := by
  show (cfg3.win 2).cut (grid3.coords t) ((dat3 (F := Ideal) V c).after 2 t) = _
  rw [after3_2]
  unfold out3_2
  rw [View.canon_unit_zero hz3]
  simp only [View.ld_unit_zero (S := S5000x128) hz3, View.ld_unit_zero (S := S1x128) hz3]
  obtain ⟨e0, e1, e2, e3, e4, e5⟩ := idx_facts3 t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = Cert.Spec.br (V c main_v56) (V c main_v57) (((cfg3.win 2).blk t).view.emb (ix2 p q))
  refine (br3_pay_apply _ _ p q).trans ?_
  unfold Cert.Spec.br
  have h0 : iblk3 V c 0 t (ix2 p q)
      = V c main_v56 (((cfg3.win 2).blk t).view.emb (ix2 p q)) := by
    show V c main_v56 (((cfg3.win 0).blk t).view.emb (ix2 p q)) = _
    refine congrArg (V c main_v56) (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 128 + 1 * q.val = win3_2.index t (1 : Fin 2) * 128 + 1 * q.val
      omega
  have h1 : iblk3 V c 1 t (ix2 (0 : Fin 1) q)
      = V c main_v57 (ix2 0 ((((cfg3.win 2).blk t).view.emb (ix2 p q)) 1)) := by
    show V c main_v57 (((cfg3.win 1).blk t).view.emb (ix2 (0 : Fin 1) q)) = _
    refine congrArg (V c main_v57) (funext fun a => Fin.ext ?_)
    match a with
    | ⟨0, _⟩ =>
      show win3_1.index t (0 : Fin 2) * 1 + 1 * 0 = 0
      omega
    | ⟨1, _⟩ =>
      show win3_1.index t (1 : Fin 2) * 128 + 1 * q.val = win3_2.index t (1 : Fin 2) * 128 + 1 * q.val
      omega
  rw [h0, h1]

/-! ## The bands cover the array -/

/-- An index of the result array is in point t's band iff each coordinate is in the band's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v58).slice (win3_2.rect t)).set ↔ _
  rw [View.set_slice_whole, Rect.mem_set_unit]
  exact Iff.rfl

/-- Row r lies in the band of point r / 5000, and every point writes back. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show _ < 10; omega⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-! ## The array after the ten points -/

/-- The result array ends holding the input plus the bias row, cut off below at zero. -/
theorem arr3 (c : Dev nD) :
    (dat3 (F := Ideal) V c).arrAt 2 cfg3.N = Cert.Spec.br (V c main_v56) (V c main_v57) :=
  (dat3 (F := Ideal) V c).arrAt_eq_of_cover 2 (Cert.Spec.br (V c main_v56) (V c main_v57))
    (fun t _ => flushed3_eq V c t) (cover3)

end Cert.KernelIdeal.Val

end
-- ==== Proof.Pay4.lean ====
/-
  The three values the pooling-and-classifying step stores, read at one index over the extended reals.

  The first is the zero the accumulator starts from. The second is the accumulator plus one block's matrix
  product: entry (g, k) gains the sum over the block's 2560 columns q of (averaging matrix)(g, q) times
  (features)(q, k). The third is the classifier: entry (g, j) is the sum over the 128 features k of
  (pooled)(g, k) times (weights)(k, j), plus the bias at j. Casting a shape to itself changes nothing,
  narrowing a format is the identity on extended reals, and a matrix product onto a zero start is just the sum.
-/
import proofs.«427735_j54941221650950_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.ValueIdx Cert.KernelIdeal Cert.KernelIdeal.Gen
open scoped BigOperators

/-! ## The pooling product's operand indices, coordinate by coordinate -/

/-- The left operand's row is the output's row. -/
theorem lhs_pool_0 (i : S64x128.Idx) (q : dot_S64x2560_S2560x128_S64x128_1_0_0_1_n_n.contr.Idx) :
    (dot_S64x2560_S2560x128_S64x128_1_0_0_1_n_n.lhsIdx i q 0).val = (i 0).val := by
  unfold DotDims.lhsIdx
  rw [dif_neg (show ¬(0 : Fin S64x2560.rank) ∈ dot_S64x2560_S2560x128_S64x128_1_0_0_1_n_n.lhsBatch by decide),
    dif_pos (show (0 : Fin S64x2560.rank) ∈ dot_S64x2560_S2560x128_S64x128_1_0_0_1_n_n.lhsNonContracting by decide)]
  rfl
/-- The left operand's column is the summation index. -/
theorem lhs_pool_1 (i : S64x128.Idx) (q : dot_S64x2560_S2560x128_S64x128_1_0_0_1_n_n.contr.Idx) :
    (dot_S64x2560_S2560x128_S64x128_1_0_0_1_n_n.lhsIdx i q 1).val = (q ⟨0, by decide⟩).val :=
  dot_S64x2560_S2560x128_S64x128_1_0_0_1_n_n.lhsIdx_val_of_single rfl i q
/-- The right operand's row is the summation index. -/
theorem rhs_pool_0 (i : S64x128.Idx) (q : dot_S64x2560_S2560x128_S64x128_1_0_0_1_n_n.contr.Idx) :
    (dot_S64x2560_S2560x128_S64x128_1_0_0_1_n_n.rhsIdx i q 0).val = (q ⟨0, by decide⟩).val :=
  dot_S64x2560_S2560x128_S64x128_1_0_0_1_n_n.rhsIdx_val_of_single rfl i q
/-- The right operand's column is the output's column. -/
theorem rhs_pool_1 (i : S64x128.Idx) (q : dot_S64x2560_S2560x128_S64x128_1_0_0_1_n_n.contr.Idx) :
    (dot_S64x2560_S2560x128_S64x128_1_0_0_1_n_n.rhsIdx i q 1).val = (i 1).val := by
  unfold DotDims.rhsIdx
  rw [dif_neg (show ¬(1 : Fin S2560x128.rank) ∈ dot_S64x2560_S2560x128_S64x128_1_0_0_1_n_n.rhsBatch by decide),
    dif_pos (show (1 : Fin S2560x128.rank) ∈ dot_S64x2560_S2560x128_S64x128_1_0_0_1_n_n.rhsNonContracting by decide)]
  rfl

/-- The pooling product onto a zero start, at (g, k): the sum over the 2560 columns q of a (g, q) * b (q, k). -/
theorem pool_matmul_apply {φ₁ φ₂ : FTy} (a : FVec Ideal S64x2560 φ₁) (b : FVec Ideal S2560x128 φ₂) (g : Fin 64) (k : Fin 128) :
    matmul dot_S64x2560_S2560x128_S64x128_1_0_0_1_n_n none a b (constant S64x128 .f32 0x00000000#32) (ix2 g k)
      = ∑ q : Fin 2560, a (ix2 g q) * b (ix2 q k) := by
  simp only [matmul]
  rw [Ideal.matmul_constant_zero_apply,
    ← Equiv.sum_comp (contrEquiv1 dot_S64x2560_S2560x128_S64x128_1_0_0_1_n_n 2560 rfl rfl).symm]
  refine Finset.sum_congr rfl fun q _ => ?_
  have hk := contrEquiv1_symm_val dot_S64x2560_S2560x128_S64x128_1_0_0_1_n_n 2560 rfl rfl q
  have el : dot_S64x2560_S2560x128_S64x128_1_0_0_1_n_n.lhsIdx (ix2 g k)
      ((contrEquiv1 dot_S64x2560_S2560x128_S64x128_1_0_0_1_n_n 2560 rfl rfl).symm q) = ix2 g q :=
    funext fun c => Fin.ext (by
      match c with
      | ⟨0, _⟩ => exact lhs_pool_0 _ _
      | ⟨1, _⟩ => exact (lhs_pool_1 _ _).trans hk)
  have er : dot_S64x2560_S2560x128_S64x128_1_0_0_1_n_n.rhsIdx (ix2 g k)
      ((contrEquiv1 dot_S64x2560_S2560x128_S64x128_1_0_0_1_n_n 2560 rfl rfl).symm q) = ix2 q k :=
    funext fun c => Fin.ext (by
      match c with
      | ⟨0, _⟩ => exact (rhs_pool_0 _ _).trans hk
      | ⟨1, _⟩ => exact rhs_pool_1 _ _)
  rw [el, er]

/-! ## The classifier product's operand indices, coordinate by coordinate -/

/-- The left operand's row is the output's row. -/
theorem lhs_cls_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide),
    dif_pos (show (0 : Fin S64x128.rank) ∈ dot_S64x128_S128x10_S64x10_1_0_0_1_n_n.lhsNonContracting by decide)]
  rfl
/-- The left operand's column is the summation index. -/
theorem lhs_cls_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
/-- The right operand's row is the summation index. -/
theorem rhs_cls_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
/-- The right operand's column is the output's column. -/
theorem rhs_cls_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide),
    dif_pos (show (1 : Fin S128x10.rank) ∈ dot_S64x128_S128x10_S64x10_1_0_0_1_n_n.rhsNonContracting by decide)]
  rfl

/-- The classifier product onto a zero start, at (g, j): the sum over the 128 features k of a (g, k) * b (k, j). -/
theorem cls_matmul_apply {φ₁ φ₂ : FTy} (a : FVec Ideal S64x128 φ₁) (b : FVec Ideal S128x10 φ₂) (g : Fin 64) (j : Fin 10) :
    matmul dot_S64x128_S128x10_S64x10_1_0_0_1_n_n none a b (constant S64x10 .f32 0x00000000#32) (ix2 g j)
      = ∑ k : Fin 128, a (ix2 g k) * b (ix2 k j) := by
  simp only [matmul]
  rw [Ideal.matmul_constant_zero_apply,
    ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 g j)
      ((contrEquiv1 dot_S64x128_S128x10_S64x10_1_0_0_1_n_n 128 rfl rfl).symm k) = ix2 g k :=
    funext fun c => Fin.ext (by
      match c with
      | ⟨0, _⟩ => exact lhs_cls_0 _ _
      | ⟨1, _⟩ => exact (lhs_cls_1 _ _).trans hk)
  have er : dot_S64x128_S128x10_S64x10_1_0_0_1_n_n.rhsIdx (ix2 g j)
      ((contrEquiv1 dot_S64x128_S128x10_S64x10_1_0_0_1_n_n 128 rfl rfl).symm k) = ix2 k j :=
    funext fun c => Fin.ext (by
      match c with
      | ⟨0, _⟩ => exact (rhs_cls_0 _ _).trans hk
      | ⟨1, _⟩ => exact rhs_cls_1 _ _)
  rw [el, er]

/-! ## The three stored values -/

/-- The accumulator's first value is zero everywhere. -/
theorem pay1_apply (g : Fin 64) (k : Fin 128) : k4_pay1 (F := Ideal) (ix2 g k) = (0 : EReal) := by
  unfold k4_pay1
  simp only [shapeCast_self]
  exact Ideal.ofBits_zero_f32

/-- One accumulation step: the old entry plus the block's product entry. -/
theorem pay2_apply (v3 : Vec Ideal S64x128 .f32) (v4 : Vec Ideal S64x2560 .f32) (v7 : Vec Ideal S2560x128 .f32)
    (g : Fin 64) (k : Fin 128) :
    k4_pay2 v3 v4 v7 (ix2 g k) = v3 (ix2 g k) + ∑ q : Fin 2560, v4 (ix2 g q) * v7 (ix2 q k) := by
  unfold k4_pay2
  simp only [shapeCast_self]
  rw [addf_apply, pool_matmul_apply]
  rfl

/-- The classifier: the product entry plus the bias of its column. -/
theorem pay3_apply (v18 : Vec Ideal S64x128 .f32) (v20 : Vec Ideal S128x10 .f32) (v23 : Vec Ideal S10 .f32)
    (g : Fin 64) (j : Fin 10) :
    k4_pay3 v18 v20 v23 (ix2 g j) = (∑ k : Fin 128, v18 (ix2 g k) * v20 (ix2 k j)) + v23 (ix1 j) := by
  unfold k4_pay3
  have hb : broadcastTo S64x10 (shapeCast S1x10 v23 shapeCasts_S10_S1x10) broadcasts_S1x10_S64x10 (ix2 g j)
      = v23 (ix1 j) := by
    rw [broadcastTo_apply _ broadcasts_S1x10_S64x10 (ix2 g j) (ix2 (0 : Fin 1) j) (fun a => match a with
      | ⟨0, _⟩ => by show (0 : ℕ) = if (1 : ℕ) = 1 then 0 else g.val; rw [if_pos rfl]
      | ⟨1, _⟩ => by show j.val = if (10 : ℕ) = 1 then 0 else j.val; rw [if_neg (by decide)])]
    exact shapeCast_a_1a_apply v23 shapeCasts_S10_S1x10 0 j
  rw [addf_apply, cls_matmul_apply, hb]
  rfl

end Cert.KernelIdeal.Val

end
-- ==== Proof.LibExtReal.lean ====
import Mathlib.Data.EReal.Operations
import Mathlib.Data.EReal.Inv
import Mathlib.Algebra.BigOperators.Fin
import Mathlib.Algebra.BigOperators.Group.Finset.Basic
import Idealize.ShloMosaic.PureOps.Ideal

/-!
General facts about sums of extended reals and about the logistic function at the exact
(extended-real) reading of floats. Nothing here mentions a program.

* a nonnegative finite scalar distributes over a finite sum of ARBITRARY extended reals;
* the logistic function takes values in `[0, 1]`, in particular it is nonnegative and never `⊤`;
* the logistic function is the expression `1 / (1 + exp (-x))`, in the kernel's spelling and in the host's;
* a sum over `Fin (a + b)` splits into the sum over the first `a` and the sum over the last `b` indices;
* a one-hot sum reads the selected term;
* `x * (1 / y) = x / y` for a divisor that is not zero.
-/

namespace LibExtReal

open Idealize.ShloMosaic
open scoped BigOperators

/-! ## A nonnegative finite scalar distributes over a finite sum -/

/-- For `0 ≤ s < ⊤`, `s * Σ a = Σ s * a` over any finite set, with no condition on the terms: the binary law is
`EReal.left_distrib_of_nonneg_of_ne_top`, and the empty sum is `s * 0 = 0`. -/
theorem mul_finset_sum_of_nonneg_ne_top {ι : Type*} (t : Finset ι) (s : EReal) (hs : 0 ≤ s) (hs' : s ≠ ⊤)
    (a : ι → EReal) : s * ∑ k ∈ t, a k = ∑ k ∈ t, s * a k := by
  classical
  induction t using Finset.induction_on with
  | empty => simp
  | insert i t hi ih =>
    rw [Finset.sum_insert hi, Finset.sum_insert hi, EReal.left_distrib_of_nonneg_of_ne_top hs hs', ih]

/-- For `0 ≤ s < ⊤`, `s * Σ_k a k = Σ_k s * a k` over a finite type, with no condition on the terms. -/
theorem mul_sum_of_nonneg_ne_top {ι : Type*} [Fintype ι] (s : EReal) (hs : 0 ≤ s) (hs' : s ≠ ⊤) (a : ι → EReal) :
    s * ∑ k, a k = ∑ k, s * a k :=
  mul_finset_sum_of_nonneg_ne_top Finset.univ s hs hs' a

/-- The same with the scalar on the right of every product. -/
theorem sum_mul_of_nonneg_ne_top {ι : Type*} [Fintype ι] (s : EReal) (hs : 0 ≤ s) (hs' : s ≠ ⊤) (a : ι → EReal) :
    (∑ k, a k) * s = ∑ k, a k * s := by
  rw [mul_comm, mul_sum_of_nonneg_ne_top s hs hs']
  exact Finset.sum_congr rfl fun k _ => mul_comm _ _

/-! ## The logistic function -/

/-- The logistic function is nonnegative: `0` at `⊥`, `1` at `⊤`, the inverse of a positive real elsewhere. -/
theorem logistic_nonneg (x : EReal) : 0 ≤ Ideal.logistic x := by
  induction x using EReal.rec with
  | bot => rw [Ideal.logistic_bot]
  | coe r =>
    rw [Ideal.logistic_coe]
    exact EReal.coe_nonneg.mpr (inv_nonneg.mpr (by positivity))
  | top => rw [Ideal.logistic_top]; exact zero_le_one

/-- The logistic function is never `⊤`. -/
theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

/-- The logistic function is never `⊥`. -/
theorem logistic_ne_bot (x : EReal) : Ideal.logistic x ≠ ⊥ :=
  ne_of_gt (lt_of_lt_of_le EReal.bot_lt_zero (logistic_nonneg x))

/-- The logistic function is at most one. -/
theorem logistic_le_one (x : EReal) : Ideal.logistic x ≤ 1 := by
  induction x using EReal.rec with
  | bot => rw [Ideal.logistic_bot]; exact zero_le_one
  | coe r =>
    rw [Ideal.logistic_coe, ← EReal.coe_one]
    refine EReal.coe_le_coe_iff.mpr (inv_le_one_of_one_le₀ ?_)
    have : 0 < Real.exp (-r) := Real.exp_pos _
    linarith
  | top => rw [Ideal.logistic_top]

/-- Both facts a scalar needs in order to distribute over a sum of arbitrary extended reals. -/
theorem logistic_nonneg_ne_top (x : EReal) : 0 ≤ Ideal.logistic x ∧ Ideal.logistic x ≠ ⊤ :=
  ⟨logistic_nonneg x, logistic_ne_top x⟩

/-- The kernel's vector logistic at an index is the logistic function of the element. -/
theorem logistic_apply {s : Shape} {φ : FTy} (v : FVec Ideal s φ) (i : s.Idx) :
    logistic v i = Ideal.logistic (v i) := rfl

/-- The kernel's vector logistic at an index is nonnegative. -/
theorem logistic_apply_nonneg {s : Shape} {φ : FTy} (v : FVec Ideal s φ) (i : s.Idx) : (0 : EReal) ≤ logistic v i :=
  logistic_nonneg (v i)

/-- The kernel's vector logistic at an index is not `⊤`. -/
theorem logistic_apply_ne_top {s : Shape} {φ : FTy} (v : FVec Ideal s φ) (i : s.Idx) : logistic v i ≠ (⊤ : EReal) :=
  logistic_ne_top (v i)

/-- The logistic function IS `1 / (1 + exp (-x))` with the division and exponential of the exact reading. -/
theorem div_one_add_exp_neg (x : EReal) : Ideal.div 1 (1 + Ideal.exp (-x)) = Ideal.logistic x := rfl

/-- The host's four operations `1 / (1 + exp (-z))` on elements, the two ones being any elements equal to one, are the
logistic function of the element. -/
theorem host_logistic_elt {φ : FTy} (c d z : Ideal φ) (hc : c = (1 : EReal)) (hd : d = (1 : EReal)) :
    FloatOps.hostDivf c (FloatOps.addf d (FloatOps.hostUnary .exp (FloatOps.hostNegf z))) = Ideal.logistic z := by
  subst hc; subst hd; rfl

/-- The host's four array operations `1 / (1 + exp (-z))` read at an index, the two arrays of ones being any arrays
that read one there, are the logistic function of the element: the kernel's one operation and the host's four meet. -/
theorem host_logistic_apply {s : Shape} {φ : FTy} (c d z : FVec Ideal s φ) (i : s.Idx) (hc : c i = (1 : EReal))
    (hd : d i = (1 : EReal)) :
    Host.divf c (addf d (Host.exp (Host.negf z))) i = Ideal.logistic (z i) :=
  host_logistic_elt (c i) (d i) (z i) hc hd

/-! ## Splitting a sum over an initial segment and the rest -/

/-- A sum over `Fin N` with `a + b = N` is the sum over the first `a` indices plus the sum over the last `b`
(`Fin.sum_univ_add` with the indices spelled as literal pairs). -/
theorem sum_fin_split {M : Type*} [AddCommMonoid M] (a b N : ℕ) (h : a + b = N) (f : Fin N → M) :
    ∑ k : Fin N, f k
      = ∑ k : Fin a, f ⟨k.val, lt_of_lt_of_le k.isLt (h ▸ Nat.le_add_right a b)⟩
        + ∑ k : Fin b, f ⟨a + k.val, h ▸ Nat.add_lt_add_left k.isLt a⟩ := by
  subst h
  rw [Fin.sum_univ_add]
  rfl

/-! ## One-hot sums -/

/-- A sum whose terms vanish off one index reads that index's term. -/
theorem sum_ite_eq_single {ι : Type*} [Fintype ι] [DecidableEq ι] (j : ι) (a : ι → EReal) :
    ∑ k, (if k = j then a k else 0) = a j := by
  rw [Finset.sum_ite_eq' Finset.univ j a, if_pos (Finset.mem_univ j)]

/-- The same with the equation written the other way round. -/
theorem sum_ite_eq_single' {ι : Type*} [Fintype ι] [DecidableEq ι] (j : ι) (a : ι → EReal) :
    ∑ k, (if j = k then a k else 0) = a j := by
  rw [Finset.sum_ite_eq Finset.univ j a, if_pos (Finset.mem_univ j)]

/-- A sum masked by a predicate that holds at exactly one index reads that index's term. -/
theorem sum_ite_of_iff {ι : Type*} [Fintype ι] [DecidableEq ι] (p : ι → Prop) [DecidablePred p] (j : ι)
    (hp : ∀ k, p k ↔ k = j) (a : ι → EReal) : ∑ k, (if p k then a k else 0) = a j := by
  rw [← sum_ite_eq_single j a]
  refine Finset.sum_congr rfl fun k _ => ?_
  by_cases hk : k = j
  · rw [if_pos ((hp k).mpr hk), if_pos hk]
  · rw [if_neg (fun h => hk ((hp k).mp h)), if_neg hk]

/-! ## A product with a reciprocal -/

/-- `x * (1 / y) = x / y` for a divisor that is not zero (at zero both sides are junk values and differ). -/
theorem mul_one_div {x y : EReal} (hy : y ≠ 0) : x * Ideal.div 1 y = Ideal.div x y := by
  unfold Ideal.div; rw [if_neg hy, if_neg hy, one_mul]

/-- The same in the operations' spelling: `mulf x (divf 1 y) = divf x y`, the one being any element equal to one. -/
theorem mulf_divf_one {φ : FTy} (x c y : Ideal φ) (hc : c = (1 : EReal)) (hy : y ≠ (0 : EReal)) :
    FloatOps.mulf x (FloatOps.divf c y) = FloatOps.divf x y := by
  subst hc; exact mul_one_div hy

end LibExtReal
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.PoolMath.lean ====
/-
  The arithmetic of mean pooling over the extended reals.

  Rows are selected by a predicate; both sides divide by the number of selected rows, but never
  by less than one. One side multiplies every row by (indicator / divisor) and adds everything up,
  the other adds the selected rows up and divides once. The rows are ARBITRARY extended reals, so
  the two meet only through: 0 * x = 0 and 1 * x = x for every x, commutativity and associativity
  of addition, and the distributivity of a nonnegative finite scalar over a finite sum.

  Also here: a sum over a zero-padded axis taken block by block, and an accumulator read as a sum.
-/
import Mathlib.Data.EReal.Operations
import Mathlib.Data.EReal.Inv
import Mathlib.Algebra.BigOperators.Fin
import Mathlib.Algebra.BigOperators.Group.Finset.Basic
import Mathlib.Tactic.Linarith
import Idealize.ShloMosaic.PureOps.Ideal
import proofs.«427735_j54941221650950_1_alg».proof.Proof.LibExtReal
import proofs.«427735_j54941221650950_1_alg».proof.Proof.LibBlockSum

noncomputable section

namespace Cert.PoolMath

open Idealize.ShloMosaic
open scoped BigOperators

/-- the selection indicator as an extended real -/
def ind (P : Prop) [Decidable P] : EReal := if P then 1 else 0

/-- the divisor both programs use: the count of selected rows (as a sum of indicators onto a zero
    start), but at least one -/
def denom {N : ℕ} (sel : Fin N → Prop) [DecidablePred sel] : EReal :=
  max (0 + ∑ n : Fin N, ind (sel n)) 1

/-- A sum of indicators over any finite set of rows is a nonnegative real: each term adds one or
    nothing. -/
theorem sum_ind_eq_coe {N : ℕ} (sel : Fin N → Prop) [DecidablePred sel] (s : Finset (Fin N)) :
    ∃ r : ℝ, 0 ≤ r ∧ ∑ n ∈ s, ind (sel n) = (r : EReal) := by
  classical
  induction s using Finset.induction_on with
  | empty => exact ⟨0, le_refl 0, by rw [Finset.sum_empty, EReal.coe_zero]⟩
  | insert i t hi ih =>
    obtain ⟨r, hr, e⟩ := ih
    rw [Finset.sum_insert hi, e]
    by_cases h : sel i
    · refine ⟨1 + r, by linarith, ?_⟩
      rw [ind, if_pos h, EReal.coe_add, EReal.coe_one]
    · refine ⟨r, hr, ?_⟩
      rw [ind, if_neg h, zero_add]

/-- The divisor is a real number, at least one: the larger of a nonnegative real and one. -/
theorem denom_eq_coe {N : ℕ} (sel : Fin N → Prop) [DecidablePred sel] :
    ∃ r : ℝ, 1 ≤ r ∧ denom sel = (r : EReal) := by
  obtain ⟨r, _, e⟩ := sum_ind_eq_coe sel Finset.univ
  rw [denom, e, zero_add]
  by_cases h : r ≤ 1
  · refine ⟨1, le_refl 1, ?_⟩
    rw [max_eq_right (by rw [← EReal.coe_one]; exact EReal.coe_le_coe_iff.mpr h), EReal.coe_one]
  · have h1 : 1 ≤ r := (not_le.mp h).le
    refine ⟨r, h1, ?_⟩
    rw [max_eq_left (by rw [← EReal.coe_one]; exact EReal.coe_le_coe_iff.mpr h1)]

/-- the averaging law: the sum over all rows of (indicator / divisor) * x is (sum of the selected x
    onto a zero start) / divisor, for ARBITRARY extended reals x. Dividing by the real divisor is
    multiplying by its reciprocal c, a nonnegative finite scalar; c goes inside the sum of the
    selected rows, that sum is the sum over all rows of "c * x if selected, else 0", and row by row
    1 * c * x = c * x and 0 * c * x = 0. -/
theorem avg_law {N : ℕ} (sel : Fin N → Prop) [DecidablePred sel] (x : Fin N → EReal) :
    ∑ n : Fin N, Ideal.div (ind (sel n)) (denom sel) * x n
      = Ideal.div (0 + ∑ n ∈ Finset.univ.filter sel, x n) (denom sel) := by
  obtain ⟨r, hr, e⟩ := denom_eq_coe sel
  have hr0 : r ≠ 0 := by intro h; rw [h] at hr; linarith
  have hc0 : (0 : EReal) ≤ ((1 / r : ℝ) : EReal) :=
    EReal.coe_nonneg.mpr (one_div_nonneg.mpr (by linarith))
  have hct : ((1 / r : ℝ) : EReal) ≠ ⊤ := EReal.coe_ne_top _
  have hR : Ideal.div (0 + ∑ n ∈ Finset.univ.filter sel, x n) (r : EReal)
      = ∑ n : Fin N, if sel n then ((1 / r : ℝ) : EReal) * x n else 0 := by
    rw [Ideal.div_coe hr0, zero_add, mul_comm,
      LibExtReal.mul_finset_sum_of_nonneg_ne_top _ _ hc0 hct, Finset.sum_filter]
  rw [e, hR]
  refine Finset.sum_congr rfl fun n _ => ?_
  rw [Ideal.div_coe hr0]
  by_cases h : sel n
  · rw [ind, if_pos h, if_pos h, one_mul]
  · rw [ind, if_neg h, if_neg h, zero_mul, zero_mul]

/-- the count as the reference computes it (ones scattered onto a zero start) is the same number:
    a sum of ones over the selected rows is the sum over all rows of "one if selected, else zero". -/
theorem count_filter {N : ℕ} (sel : Fin N → Prop) [DecidablePred sel] :
    (0 : EReal) + ∑ n ∈ Finset.univ.filter sel, (1 : EReal) = 0 + ∑ n : Fin N, ind (sel n) := by
  rw [Finset.sum_filter]
  rfl

/-- zero padding and blocks: a sum over 51200 = 20 * 2560 indices of a function that vanishes from
    50000 on, taken block by block, is the sum over the first 50000. The blocks reassemble the
    whole axis; the axis splits into the first 50000 and the last 1200, and the last 1200 terms
    are all zero. -/
theorem padded_blocks (f : Fin 51200 → EReal) (hz : ∀ n : Fin 51200, 50000 ≤ n.val → f n = 0) :
    ∑ t : Fin 20, ∑ q : Fin 2560, f ⟨2560 * t.val + q.val, by omega⟩
      = ∑ n : Fin 50000, f ⟨n.val, by omega⟩ := by
  have hb : ∑ t : Fin 20, ∑ q : Fin 2560, f ⟨2560 * t.val + q.val, by omega⟩
      = ∑ k : Fin 51200, f k := Cert.Lib.BlockSum.sum_blocks 20 2560 f
  rw [hb, LibExtReal.sum_fin_split 50000 1200 51200 rfl f]
  have hz' : ∑ k : Fin 1200, f ⟨50000 + k.val, by omega⟩ = 0 :=
    Finset.sum_eq_zero fun k _ => hz _ (Nat.le_add_right 50000 k.val)
  rw [hz', add_zero]

/-- an accumulator that starts at zero and adds one block's contribution per step holds the sum of
    the contributions so far -/
theorem acc_range (s acc : ℕ → EReal) (h0 : acc 0 = 0 + s 0)
    (hs : ∀ n, acc (n + 1) = acc n + s (n + 1)) (n : ℕ) :
    acc n = ∑ i ∈ Finset.range (n + 1), s i :=
  Cert.Lib.BlockSum.acc_eq_sum s acc h0 hs n

end Cert.PoolMath

end
-- ==== Proof.Val4.lean ====
/-
  What the pooling-and-classifying step leaves in its 64 × 10 result array, as one function of the four arrays it
  reads: the 64 × 51200 averaging matrix P, the 51200 × 128 node features X, the 128 × 10 classifier weights W and
  the bias B of length 10.

  The padded axis of 51200 is walked in 20 blocks of 2560. Point t reads columns 2560 t … 2560 t + 2559 of P and the
  same rows of X, and adds their product to an accumulator that starts at zero; so after the last point the
  accumulator's entry (g, k) is the sum over all 51200 positions n of P (g, n) * X (n, k) — the 20 partial sums
  regroup into one by associativity and commutativity of addition alone. The last point then stores, at (g, j), the
  sum over the 128 features k of that entry times W (k, j), plus B j. The result's one block is the whole array and
  only the last point writes it back, so the array ends holding exactly that.
-/
import proofs.«427735_j54941221650950_1_alg».proof.Proof.Reg4
import proofs.«427735_j54941221650950_1_alg».proof.Proof.Pay4
import proofs.«427735_j54941221650950_1_alg».proof.Proof.PoolMath
import proofs.«427735_j54941221650950_1_alg».proof.Proof.LibBlockSum
import Idealize.ShloMosaic.Lib.Pipeline.Value
import Idealize.ShloMosaic.Lib.ValueIdx

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Reg Idealize.ShloMosaic.ValueIdx
open scoped BigOperators

variable (V : (c : Dev nD) → (b : Ref sig .tc) → Buf (Elt Ideal) ((c : Thread nD τ).loc b))

/-! ## The four arrays as the region finds them, entry by entry, as extended reals -/

/-- the pooling matrix, 64 × 51200 (zero beyond column 50000) -/
abbrev P4 (c : Dev nD) (g : Fin 64) (n : Fin 51200) : EReal := V c main_v72 (ix2 g n)
/-- the node features, 51200 × 128 -/
abbrev X4 (c : Dev nD) (n : Fin 51200) (k : Fin 128) : EReal := V c main_v73 (ix2 n k)
/-- the classifier weights, 128 × 10 -/
abbrev W4 (c : Dev nD) (k : Fin 128) (j : Fin 10) : EReal := V c main_arg7 (ix2 k j)
/-- the classifier bias, 10 -/
abbrev B4 (c : Dev nD) (j : Fin 10) : EReal := V c main_arg8 (ix1 j)

/-! ## The blocks the windows read, element by element -/

/-- The pooling matrix's block index at a point: row block 0, column block the point. -/
theorem idx4_0 : ∀ t : Fin cfg4.N, win4_0.index t (0 : Fin 2) = 0 ∧ win4_0.index t (1 : Fin 2) = t.val :=
  (by decide +kernel : ∀ t : Fin grid4.N, win4_0.index t (0 : Fin 2) = 0 ∧ win4_0.index t (1 : Fin 2) = t.val)
/-- The features' block index at a point: row block the point, column block 0. -/
theorem idx4_1 : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
/-- The classifier weights are one block, at every point. -/
theorem idx4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
/-- The bias is one block, at every point. -/
theorem idx4_3 : ∀ t : Fin cfg4.N, win4_3.index t (0 : Fin 1) = 0 :=
  (by decide +kernel : ∀ t : Fin grid4.N, win4_3.index t (0 : Fin 1) = 0)
/-- The result is one block, at every point. -/
theorem idx4_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)

/-- a block of the pooling matrix read where the window says: point t holds columns 2560 t … 2560 t + 2559 -/
theorem blk4_0_apply (c : Dev nD) (t : Fin cfg4.N) (g : Fin 64) (q : Fin 2560) :
    iblk4 (F := Ideal) V c 0 t (ix2 g q)
      = V c main_v72 (ix2 g ⟨2560 * t.val + q.val, by have := t.isLt; have : cfg4.N = 20 := N_4; omega⟩) := by
  obtain ⟨e0, e1⟩ := idx4_0 t
  show V c main_v72 (((cfg4.win 0).blk t).view.emb (ix2 g q)) = _
  refine congrArg (V c main_v72) (funext fun a => Fin.ext ?_)
  match a with
  | ⟨0, _⟩ =>
    show win4_0.index t (0 : Fin 2) * 64 + 1 * g.val = g.val
    omega
  | ⟨1, _⟩ =>
    show win4_0.index t (1 : Fin 2) * 2560 + 1 * q.val = 2560 * t.val + q.val
    omega

/-- a block of the features read where the window says: point t holds rows 2560 t … 2560 t + 2559 -/
theorem blk4_1_apply (c : Dev nD) (t : Fin cfg4.N) (q : Fin 2560) (k : Fin 128) :
    iblk4 (F := Ideal) V c 1 t (ix2 q k)
      = V c main_v73 (ix2 ⟨2560 * t.val + q.val, by have := t.isLt; have : cfg4.N = 20 := N_4; omega⟩ k) := by
  obtain ⟨e0, e1⟩ := idx4_1 t
  show V c main_v73 (((cfg4.win 1).blk t).view.emb (ix2 q k)) = _
  refine congrArg (V c main_v73) (funext fun a => Fin.ext ?_)
  match a with
  | ⟨0, _⟩ =>
    show win4_1.index t (0 : Fin 2) * 2560 + 1 * q.val = 2560 * t.val + q.val
    omega
  | ⟨1, _⟩ =>
    show win4_1.index t (1 : Fin 2) * 128 + 1 * k.val = k.val
    omega

/-- the classifier weights' one block is the whole array -/
theorem blk4_2_apply (c : Dev nD) (t : Fin cfg4.N) (k : Fin 128) (j : Fin 10) :
    iblk4 (F := Ideal) V c 2 t (ix2 k j) = V c main_arg7 (ix2 k j) := by
  obtain ⟨e0, e1⟩ := idx4_2 t
  show V c main_arg7 (((cfg4.win 2).blk t).view.emb (ix2 k j)) = _
  refine congrArg (V c main_arg7) (funext fun a => Fin.ext ?_)
  match a with
  | ⟨0, _⟩ =>
    show win4_2.index t (0 : Fin 2) * 128 + 1 * k.val = k.val
    omega
  | ⟨1, _⟩ =>
    show win4_2.index t (1 : Fin 2) * 10 + 1 * j.val = j.val
    omega

/-- the bias's one block is the whole array -/
theorem blk4_3_apply (c : Dev nD) (t : Fin cfg4.N) (j : Fin 10) :
    iblk4 (F := Ideal) V c 3 t (ix1 j) = V c main_arg8 (ix1 j) := by
  have e0 := idx4_3 t
  show V c main_arg8 (((cfg4.win 3).blk t).view.emb (ix1 j)) = _
  refine congrArg (V c main_arg8) (funext fun a => Fin.ext ?_)
  match a with
  | ⟨0, _⟩ =>
    show win4_3.index t (0 : Fin 1) * 10 + 1 * j.val = j.val
    omega

/-! ## The accumulator: one block's product per point -/

/-- One block's contribution to entry (g, k): the products over the block's 2560 positions of the padded axis. -/
def term4 (c : Dev nD) (g : Fin 64) (k : Fin 128) (n : ℕ) : EReal :=
  if hn : n < 20 then
    ∑ q : Fin 2560, P4 V c g ⟨2560 * n + q.val, by omega⟩ * X4 V c ⟨2560 * n + q.val, by omega⟩ k
  else 0

/-- One step: whatever the accumulator held, entry (g, k) gains the point's contribution. -/
theorem acc4_step (c : Dev nD) (g : Fin 64) (k : Fin 128) (n : ℕ) (hn : n < cfg4.N) (x : Vec Ideal S64x128 .f32) :
    k4_pay2 x (iblk4 (F := Ideal) V c 0 ⟨n, hn⟩) (iblk4 (F := Ideal) V c 1 ⟨n, hn⟩) (ix2 g k)
      = x (ix2 g k) + term4 V c g k n := by
  have h20 : n < 20 := by have : cfg4.N = 20 := N_4; omega
  rw [pay2_apply, term4, dif_pos h20]
  refine congrArg (x (ix2 g k) + ·) (Finset.sum_congr rfl fun q _ => ?_)
  rw [blk4_0_apply, blk4_1_apply]

/-- After point n the accumulator's entry (g, k) is the sum of the contributions of points 0 … n: it starts from
    zero, and each point adds its own. -/
theorem acc4_apply (c : Dev nD) (g : Fin 64) (k : Fin 128) :
    ∀ (n : ℕ) (hn : n < cfg4.N), acc4 (F := Ideal) V c n hn (ix2 g k) = ∑ i ∈ Finset.range (n + 1), term4 V c g k i := by
  intro n
  induction n with
  | zero =>
    intro hn
    rw [acc4_zero, acc4_step, pay1_apply, zero_add, Finset.sum_range_one]
  | succ n ih =>
    intro hn
    rw [acc4_succ, acc4_step, ih, Finset.sum_range_succ _ (n + 1)]

/-- the accumulator after the last point: the whole product over the padded axis. The 20 points' contributions,
    each a sum over 2560 positions, regroup into one sum over the 51200 = 20 * 2560 positions. -/
theorem acc4_last_apply (c : Dev nD) (h19 : 19 < cfg4.N) (g : Fin 64) (k : Fin 128) :
    acc4 (F := Ideal) V c 19 h19 (ix2 g k) = ∑ n : Fin 51200, P4 V c g n * X4 V c n k := by
  rw [acc4_apply V c g k 19 h19, Finset.sum_range]
  refine Eq.trans (Finset.sum_congr rfl fun t _ => ?_)
    (Cert.Lib.BlockSum.sum_blocks 20 2560 (fun n : Fin 51200 => P4 V c g n * X4 V c n k))
  rw [term4, dif_pos t.isLt]

/-! ## The result -/

/-- The stored result at (g, j): the pooled row g against the classifier's column j, plus the bias at j. -/
theorem out4_apply (c : Dev nD) (g : Fin 64) (j : Fin 10) :
    out4 (F := Ideal) V c (ix2 g j)
      = (∑ k : Fin 128, (∑ n : Fin 51200, P4 V c g n * X4 V c n k) * W4 V c k j) + B4 V c j := by
  have h19 : 19 < cfg4.N := by have : cfg4.N = 20 := N_4; omega
  rw [out4_eq V c h19, pay3_apply, blk4_3_apply]
  refine congrArg (· + B4 V c j) (Finset.sum_congr rfl fun k _ => ?_)
  rw [acc4_last_apply, blk4_2_apply]

/-- An index of the result array lies in a point's block iff each coordinate lies in the block's range. -/
theorem mem_blk4 (t : Fin cfg4.N) (i : S64x10.Idx) :
    i ∈ ((cfg4.win 4).blk t).view.set
      ↔ ∀ a : Fin 2, win4_4.index t a * S64x10.size a ≤ (i a).val ∧ (i a).val < win4_4.index t a * S64x10.size a + S64x10.size a := by
  show i ∈ ((View.whole main_v74).slice (win4_4.rect t)).set ↔ _
  rw [View.set_slice_whole, Rect.mem_set_unit]
  exact Iff.rfl

/-- blocks to the array: the one block the last point writes back is the whole result array -/
theorem arr4 (c : Dev nD) : (dat4 (F := Ideal) V c).arrAt 4 cfg4.N = out4 V c := by
  have hN : cfg4.N = 20 := N_4
  refine (dat4 V c).arrAt_eq_of_cover 4 (out4 V c) (fun t hf => ?_) (fun i => ?_)
  · have ht : t.val = 19 := by have := (flush4_4 t).mp hf; have := t.isLt; omega
    obtain ⟨e0, e1⟩ := idx4_4 t
    show (cfg4.win 4).cut (cfg4.grid.coords t) ((dat4 V c).after 4 t) = _
    rw [after4_4_last V c t ht]
    funext y
    show out4 V c ((cfg4.win 4).xinj (cfg4.grid.coords t) y) = out4 V c (((cfg4.win 4).blk t).view.emb y)
    refine congrArg (out4 V c) (funext fun a => Fin.ext ?_)
    match a with
    | ⟨0, _⟩ =>
      show (y 0).val = win4_4.index t (0 : Fin 2) * 64 + 1 * (y 0).val
      omega
    | ⟨1, _⟩ =>
      show (y 1).val = win4_4.index t (1 : Fin 2) * 10 + 1 * (y 1).val
      omega
  · refine ⟨⟨19, by omega⟩, (flush4_4 _).mpr rfl, ?_⟩
    obtain ⟨e0, e1⟩ := idx4_4 ⟨19, by omega⟩
    rw [mem_blk4]
    intro a
    match a with
    | ⟨0, _⟩ =>
      show win4_4.index ⟨19, _⟩ (0 : Fin 2) * 64 ≤ (i 0).val ∧ (i 0).val < win4_4.index ⟨19, _⟩ (0 : Fin 2) * 64 + 64
      have hi : (i 0).val < 64 := (i 0).isLt
      omega
    | ⟨1, _⟩ =>
      show win4_4.index ⟨19, _⟩ (1 : Fin 2) * 10 ≤ (i 1).val ∧ (i 1).val < win4_4.index ⟨19, _⟩ (1 : Fin 2) * 10 + 10
      have hi : (i 1).val < 10 := (i 1).isLt
      omega

end Cert.KernelIdeal.Val

end
-- ==== Proof.HostK.lean ====
import proofs.«427735_j54941221650950_1_alg».proof.Proof.Gen.KernelIdeal.Regions
import proofs.«427735_j54941221650950_1_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

/-! What the program's host-side operations — the tensor operations that run between its five
    kernel calls — compute over the extended reals, phrased with the very functions the reference
    program is read back with. The three shared chains (degree normalisation, the gather scaled by
    the edge norm, the scatter-add at the targets) are carried as whole functions and are never
    taken apart here. -/

set_option maxRecDepth 1032

noncomputable section

namespace Cert.KernelIdeal.HostK

open Idealize.ShloMosaic Idealize.ShloMosaic.TcCoe Idealize.SL.Sem Idealize.ShloMosaic.StableHlo
open Cert.KernelIdeal Cert.KernelIdeal.Gen

/-- node features: 50000 rows of 128 reals -/
abbrev Feat : Type := (⟨Cert.ReferenceIdeal.S50000x128, .f32⟩ : BufTy).Contents (Elt Ideal)
/-- the edge list: a source row and a target row of 800000 words -/
abbrev Edges : Type := (⟨Cert.ReferenceIdeal.S2x800000, .i32⟩ : BufTy).Contents (Elt Ideal)
/-- a square weight matrix -/
abbrev Wt : Type := (⟨Cert.ReferenceIdeal.S128x128, .f32⟩ : BufTy).Contents (Elt Ideal)
/-- a bias vector -/
abbrev Bias : Type := (⟨Cert.ReferenceIdeal.S128, .f32⟩ : BufTy).Contents (Elt Ideal)

/-- One layer's aggregation as a function of the features `h` and the edge list: gather the rows
    of `h` along the (self-loop-extended, wrapped) sources, scale each gathered row by its edge's
    norm, and scatter-add the scaled rows onto zeros at the targets. -/
def agg (h : Feat) (x1 : Edges) : Feat :=
  (Host.scatterAdd (F := Ideal) (φ := .f32)
    Cert.ReferenceIdeal.scatter_S50000x128_S850000x1_S850000x128_1_0_0_1
    (Cert.ReferenceIdeal.Read.val_main_v38 (F := Ideal))
    (Cert.ReferenceIdeal.Read.val_main_v39 (F := Ideal) x1)
    (mulf (F := Ideal) (φ := .f32)
      (Host.gather Cert.ReferenceIdeal.gather_S50000x128_S850000x1_S850000x128_1_0_n_n_0_1_1128 h
        (Cert.ReferenceIdeal.Read.val_main_v33 (F := Ideal) x1) :
        (⟨Cert.ReferenceIdeal.S850000x128, .f32⟩ : BufTy).Contents (Elt Ideal))
      (Cert.ReferenceIdeal.Read.val_main_v36 (F := Ideal) x1)) :
    (⟨Cert.ReferenceIdeal.S50000x128, .f32⟩ : BufTy).Contents (Elt Ideal))

/-- The reference's first aggregation is `agg` of its first product `x0 · W1`. -/
theorem ref_v40 (x0 : Feat) (x1 : Edges) (x3 : Wt) :
    Cert.ReferenceIdeal.Read.val_main_v40 (F := Ideal) x0 x1 x3
      = agg (Cert.ReferenceIdeal.Read.val_main_v27 (F := Ideal) x0 x3) x1 := rfl

/-- The reference's second aggregation is `agg` of its second product: the second layer rebuilds
    sources, targets and norm by the same operations on the same edge list. -/
theorem ref_v85 (x0 : Feat) (x1 : Edges) (x3 : Wt) (x4 : Bias) (x5 : Wt) :
    Cert.ReferenceIdeal.Read.val_main_v85 (F := Ideal) x0 x1 x3 x4 x5
      = agg (Cert.ReferenceIdeal.Read.val_main_v72 (F := Ideal) x0 x1 x3 x4 x5) x1 := rfl

/-! ## The kernel program's host stretches -/

section Kernel

variable (m : (ℓ : Loc nD τ sig) → Buf (Elt Ideal) ℓ) (outs : Outs (F := Ideal)) (c : Dev nD)

/-- the launch contents of the program's nine arguments on core `c` -/
abbrev arg0 : Feat := m ((c : Thread nD τ).loc main_arg0)
abbrev arg1 : Edges := m ((c : Thread nD τ).loc main_arg1)
abbrev arg3 : Wt := m ((c : Thread nD τ).loc main_arg3)
abbrev arg4 : Bias := m ((c : Thread nD τ).loc main_arg4)
abbrev arg5 : Wt := m ((c : Thread nD τ).loc main_arg5)
abbrev arg6 : Bias := m ((c : Thread nD τ).loc main_arg6)
abbrev arg7 : (⟨S128x10, .f32⟩ : BufTy).Contents (Elt Ideal) := m ((c : Thread nD τ).loc main_arg7)
abbrev arg8 : (⟨S10, .f32⟩ : BufTy).Contents (Elt Ideal) := m ((c : Thread nD τ).loc main_arg8)

/-- the source vector (edge sources, then one self loop per node) is the reference's -/
theorem k_v3 : V1 m c main_v3 = Cert.ReferenceIdeal.Read.val_main_v3 (F := Ideal) (arg1 m c) := by
  show StableHlo.after hostOps0 (V0 m c) (Proc.devRef .tc main_v3) = _
  after_results
  rfl

/-- the target vector (edge targets, then one self loop per node) is the reference's -/
theorem k_v6 : V1 m c main_v6 = Cert.ReferenceIdeal.Read.val_main_v6 (F := Ideal) (arg1 m c) := by
  show StableHlo.after hostOps0 (V0 m c) (Proc.devRef .tc main_v6) = _
  after_results
  rfl

/-- the per-edge norm — the product of the inverse square roots of the two endpoints' degrees,
    the degree being the scatter-add of ones at the targets — is the reference's -/
theorem k_v26 : V1 m c main_v26 = Cert.ReferenceIdeal.Read.val_main_v26 (F := Ideal) (arg1 m c) := by
  show StableHlo.after hostOps0 (V0 m c) (Proc.devRef .tc main_v26) = _
  after_results_simp
  rfl

/-- The second stretch over ANY contents `W`: if `W` holds features `h` where the first call
    writes, and the reference's sources, targets and norm of the edge list `x1`, then afterwards the
    aggregation array holds `agg h x1`. -/
theorem hostOps1_v40 (W : Valuation τ sig (Elt Ideal)) (h : Feat) (x1 : Edges)
    (h27 : W (Proc.devRef .tc main_v27) = h)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h26 : W (Proc.devRef .tc main_v26) = Cert.ReferenceIdeal.Read.val_main_v26 (F := Ideal) x1) :
    StableHlo.after hostOps1 W (Proc.devRef .tc main_v40) = agg h x1 := by
  after_results_simp
  rw [h27, h3, h6, h26]
  rfl

/-- what the first call leaves in its result array is what the second stretch reads there -/
theorem v2_v27 : V2 m outs c main_v27 = outs 2 main_v27 c := Function.update_self _ _ _
theorem v2_v3 : V2 m outs c main_v3 = Cert.ReferenceIdeal.Read.val_main_v3 (F := Ideal) (arg1 m c) :=
  (V2_of m outs c main_v3 (by decide)).trans (k_v3 m c)
theorem v2_v6 : V2 m outs c main_v6 = Cert.ReferenceIdeal.Read.val_main_v6 (F := Ideal) (arg1 m c) :=
  (V2_of m outs c main_v6 (by decide)).trans (k_v6 m c)
theorem v2_v26 : V2 m outs c main_v26 = Cert.ReferenceIdeal.Read.val_main_v26 (F := Ideal) (arg1 m c) :=
  (V2_of m outs c main_v26 (by decide)).trans (k_v26 m c)

/-- the first layer's aggregated messages: `agg` of what the first call produced -/
theorem k_v40 : V3 m outs c main_v40 = agg (outs 2 main_v27 c) (arg1 m c) :=
  hostOps1_v40 (V2 m outs c) (outs 2 main_v27 c) (arg1 m c)
    (v2_v27 m outs c) (v2_v3 m outs c) (v2_v6 m outs c) (v2_v26 m outs c)

/-- The fourth stretch over ANY contents `W`: the same seventeen operations as the second, reading
    the third call's result in place of the first's. -/
theorem hostOps3_v56 (W : Valuation τ sig (Elt Ideal)) (h : Feat) (x1 : Edges)
    (h43 : W (Proc.devRef .tc main_v43) = h)
    (h3 : W (Proc.devRef .tc main_v3) = Cert.ReferenceIdeal.Read.val_main_v3 (F := Ideal) x1)
    (h6 : W (Proc.devRef .tc main_v6) = Cert.ReferenceIdeal.Read.val_main_v6 (F := Ideal) x1)
    (h26 : W (Proc.devRef .tc main_v26) = Cert.ReferenceIdeal.Read.val_main_v26 (F := Ideal) x1) :
    StableHlo.after hostOps3 W (Proc.devRef .tc main_v56) = agg h x1 := by
  after_results_simp
  rw [h43, h3, h6, h26]
  rfl

theorem v5_v43 : V5 m outs c main_v43 = outs 5 main_v43 c := Function.update_self _ _ _
/-- sources, targets and norm are written once, by the first stretch, and survive to the fourth -/
theorem v5_of_v2 (r : Ref sig .tc) (h1 : r ∉ ([main_v43] : List (Ref sig .tc)))
    (h2 : r ∉ ([main_v42] : List (Ref sig .tc))) (h3 : r ∉ hostOps1_W) :
    V5 m outs c r = V2 m outs c r :=
  (V5_of m outs c r h1).trans <| (V4_of m outs c r h2).trans (V3_of m outs c r h3)

/-- the second layer's aggregated messages: `agg` of what the third call produced -/
theorem k_v56 : V6 m outs c main_v56 = agg (outs 5 main_v43 c) (arg1 m c) :=
  hostOps3_v56 (V5 m outs c) (outs 5 main_v43 c) (arg1 m c) (v5_v43 m outs c)
    ((v5_of_v2 m outs c main_v3 (by decide) (by decide) (by decide)).trans (v2_v3 m outs c))
    ((v5_of_v2 m outs c main_v6 (by decide) (by decide) (by decide)).trans (v2_v6 m outs c))
    ((v5_of_v2 m outs c main_v26 (by decide) (by decide) (by decide)).trans (v2_v26 m outs c))

/-! ### What the calls find in their other windows -/

/-- the first call reads the features and the first weights as launched -/
theorem k_in0 : V1 m c main_arg0 = arg0 m c ∧ V1 m c main_arg3 = arg3 m c :=
  ⟨V1_of m c main_arg0 (by decide), V1_of m c main_arg3 (by decide)⟩

/-- the third call reads what the second left, and the second weights as launched -/
theorem k_in2 : V4 m outs c main_v42 = outs 4 main_v42 c ∧ V4 m outs c main_arg5 = arg5 m c :=
  ⟨Function.update_self _ _ _,
   (V4_of m outs c main_arg5 (by decide)).trans <| (V3_of m outs c main_arg5 (by decide)).trans <|
     (V2_of m outs c main_arg5 (by decide)).trans (V1_of m c main_arg5 (by decide))⟩

/-- an argument array no stretch writes and no call may change is, before the last call, as launched -/
theorem v11_arg (r : Ref sig .tc)
    (h11 : r ∉ hostOps4_3_W) (h10 : r ∉ hostOps4_2_W) (h9 : r ∉ hostOps4_1_W) (h8 : r ∉ hostOps4_W)
    (h7 : r ∉ ([main_v58] : List (Ref sig .tc))) (h6 : r ∉ hostOps3_W)
    (h5 : r ∉ ([main_v43] : List (Ref sig .tc))) (h4 : r ∉ ([main_v42] : List (Ref sig .tc)))
    (h3 : r ∉ hostOps1_W) (h2 : r ∉ ([main_v27] : List (Ref sig .tc))) (h1 : r ∉ hostOps0_W) :
    V11 m outs c r = V0 m c r :=
  (V11_of m outs c r h11).trans <| (V10_of m outs c r h10).trans <| (V9_of m outs c r h9).trans <|
  (V8_of m outs c r h8).trans <| (V7_of m outs c r h7).trans <| (V6_of m outs c r h6).trans <|
  (V5_of m outs c r h5).trans <| (V4_of m outs c r h4).trans <| (V3_of m outs c r h3).trans <|
  (V2_of m outs c r h2).trans (V1_of m c r h1)

/-- the last call reads the classifier's weights and bias as launched -/
theorem k_in4 : V11 m outs c main_arg7 = arg7 m c ∧ V11 m outs c main_arg8 = arg8 m c :=
  ⟨v11_arg m outs c main_arg7 (by decide) (by decide) (by decide) (by decide) (by decide) (by decide)
     (by decide) (by decide) (by decide) (by decide) (by decide),
   v11_arg m outs c main_arg8 (by decide) (by decide) (by decide) (by decide) (by decide) (by decide)
     (by decide) (by decide) (by decide) (by decide) (by decide)⟩

/-! ### The bias rows -/

/-- A vector of 128 entries recast as one row of 128: entry (0, j) of the row is entry j of the
    vector, the two having the same row-major position. -/
theorem row_of_vec_apply {α : Type} (b : S128.Idx → α) (hc : S128.ShapeCasts S1x128) (j : Fin 128) :
    shapeCast S1x128 b hc (ValueIdx.ix2 (0 : Fin 1) j) = b (ValueIdx.ix1 j) :=
  shapeCast_apply b hc (ValueIdx.ix2 (0 : Fin 1) j) (ValueIdx.ix1 j) (by
    rw [Shape.rowMajor_val_one, Shape.rowMajor_val_two]
    show j.val = 0 * 128 + j.val
    omega)

/-- the second stretch's last operation recasts the first bias as a row -/
theorem hostOps1_v41_apply (W : Valuation τ sig (Elt Ideal)) (b : Bias) (hb : W (Proc.devRef .tc main_arg4) = b)
    (j : Fin 128) :
    StableHlo.after hostOps1 W (Proc.devRef .tc main_v41) (ValueIdx.ix2 (0 : Fin 1) j) = b (ValueIdx.ix1 j) := by
  after_results
  rw [hb]
  exact row_of_vec_apply b _ j

/-- the fourth stretch's last operation recasts the second bias as a row -/
theorem hostOps3_v57_apply (W : Valuation τ sig (Elt Ideal)) (b : Bias) (hb : W (Proc.devRef .tc main_arg6) = b)
    (j : Fin 128) :
    StableHlo.after hostOps3 W (Proc.devRef .tc main_v57) (ValueIdx.ix2 (0 : Fin 1) j) = b (ValueIdx.ix1 j) := by
  after_results
  rw [hb]
  exact row_of_vec_apply b _ j

/-- the bias row handed to the second call: entry (0, j) is entry j of the first bias -/
theorem k_v41_apply (j : Fin 128) :
    V3 m outs c main_v41 (ValueIdx.ix2 (0 : Fin 1) j) = arg4 m c (ValueIdx.ix1 j) :=
  hostOps1_v41_apply (V2 m outs c) (arg4 m c)
    ((V2_of m outs c main_arg4 (by decide)).trans (V1_of m c main_arg4 (by decide))) j

/-- the bias row handed to the fourth call: entry (0, j) is entry j of the second bias -/
theorem k_v57_apply (j : Fin 128) :
    V6 m outs c main_v57 (ValueIdx.ix2 (0 : Fin 1) j) = arg6 m c (ValueIdx.ix1 j) :=
  hostOps3_v57_apply (V5 m outs c) (arg6 m c)
    ((v5_of_v2 m outs c main_arg6 (by decide) (by decide) (by decide)).trans <|
      (V2_of m outs c main_arg6 (by decide)).trans (V1_of m c main_arg6 (by decide))) j

/-! ### The last call's two padded operands -/

theorem hostOps4_3_v73_apply (W : Valuation τ sig (Elt Ideal)) (x : Feat)
    (hx : W (Proc.devRef .tc main_v58) = x)
    (hz : W (Proc.devRef .tc main_c_13) = (constantI S_ 32 0#32 : (⟨S_, .i32⟩ : BufTy).Contents (Elt Ideal)))
    (n : Fin 51200) (k : Fin 128) :
    StableHlo.after hostOps4_3 W (Proc.devRef .tc main_v73) (ValueIdx.ix2 n k)
      = if h : n.val < 50000 then x (ValueIdx.ix2 ⟨n.val, h⟩ k) else 0 := by
  after_results
  rw [hx, hz]
  show pad S51200x128 ![0, 0] ![1200, 0] ![0, 0] x
      (sitofp (F := Ideal) .f32 (constantI S_ 32 0#32 : (⟨S_, .i32⟩ : BufTy).Contents (Elt Ideal)))
      pads_S50000x128_S51200x128_012000_000 h_S_ (ValueIdx.ix2 n k) = _
  by_cases h : n.val < 50000
  · rw [dif_pos h]
    exact pad_apply_of_inside _ _ _ x _ _ _ (ValueIdx.ix2 n k) (ValueIdx.ix2 ⟨n.val, h⟩ k) (fun a => match a with
      | ⟨0, _⟩ => by show n.val = 0 + n.val * (0 + 1); omega
      | ⟨1, _⟩ => by show k.val = 0 + k.val * (0 + 1); omega)
  · rw [dif_neg h, pad_apply_of_not_inside _ _ _ x _ _ _ (ValueIdx.ix2 n k) (0 : Fin 2) (by
        show ¬(0 ≤ n.val ∧ (n.val - 0) % (0 + 1) = 0 ∧ (n.val - 0) / (0 + 1) < 50000)
        omega)]
    show (((0#32 : BitVec 32).toInt : ℝ) : EReal) = 0
    rw [BitVec.toInt_zero, Int.cast_zero, EReal.coe_zero]

/-- the one-operation stretch between the two pads writes the zero word the second pad converts -/
theorem hostOps4_2_c13 (W : Valuation τ sig (Elt Ideal)) :
    StableHlo.after hostOps4_2 W (Proc.devRef .tc main_c_13)
      = (constantI S_ 32 0#32 : (⟨S_, .i32⟩ : BufTy).Contents (Elt Ideal)) := by
  after_results

/-- the last call's second operand: the fourth call's result, with 1200 rows of zeros appended -/
theorem k_v73_apply (n : Fin 51200) (k : Fin 128) :
    V11 m outs c main_v73 (ValueIdx.ix2 n k)
      = if h : n.val < 50000 then (outs 7 main_v58 c : Feat) (ValueIdx.ix2 ⟨n.val, h⟩ k) else (0 : EReal) :=
  hostOps4_3_v73_apply (V10 m outs c) (outs 7 main_v58 c)
    ((V10_of m outs c main_v58 (by decide)).trans <| (V9_of m outs c main_v58 (by decide)).trans <|
      (V8_of m outs c main_v58 (by decide)).trans (Function.update_self _ _ _))
    (hostOps4_2_c13 (V9 m outs c)) n k

end Kernel

end Cert.KernelIdeal.HostK
-- ==== Proof.HostK2.lean ====
import proofs.«427735_j54941221650950_1_alg».proof.Proof.Gen.KernelIdeal.Regions
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.KernelVsHost
import Idealize.ShloMosaic.PureOps.Ideal.Laws

/-! The last call's first operand: the mean-pooling matrix. Row g, column n is 1 / max(count g, 1)
    when node n belongs to graph g and 0 otherwise, count g being the number of nodes of graph g;
    1200 columns of zeros are appended. Read here entry by entry over the extended reals. -/

set_option maxRecDepth 1032

noncomputable section

namespace Cert.KernelIdeal.HostK

open Idealize.ShloMosaic Idealize.ShloMosaic.TcCoe Idealize.SL.Sem Idealize.ShloMosaic.StableHlo
open Cert.KernelIdeal Cert.KernelIdeal.Gen

/-- the graph number of each of the 50000 nodes -/
abbrev Batch : Type := (⟨S50000, .i32⟩ : BufTy).Contents (Elt Ideal)
/-- a 64 × 50000 matrix of reals -/
abbrev PoolMat : Type := (⟨S64x50000, .f32⟩ : BufTy).Contents (Elt Ideal)

/-- the nodes' graph numbers repeated down 64 rows -/
def batchMat (x2 : Batch) : (⟨S64x50000, .i32⟩ : BufTy).Contents (Elt Ideal) :=
  broadcastInDim S64x50000 ![0, 1] bcast_S1x50000_S64x50000_0_1
    (broadcastInDim S1x50000 ![1] bcast_S50000_S1x50000_1 x2)

/-- the row number repeated across 50000 columns -/
def graphMat : (⟨S64x50000, .i32⟩ : BufTy).Contents (Elt Ideal) :=
  broadcastInDim S64x50000 ![0, 1] bcast_S64x1_S64x50000_0_1
    (broadcastInDim S64x1 ![0] bcast_S64_S64x1_0 (iotaInDim S64 32 0))

/-- the membership matrix: 1 where node n has graph number g -/
def onehot (x2 : Batch) : PoolMat :=
  uitofp (F := Ideal) .f32 (cmpi .eq (batchMat x2) graphMat)

/-- each graph's node count: the row sums of the membership matrix, from zero -/
def counts (x2 : Batch) : (⟨S64, .f32⟩ : BufTy).Contents (Elt Ideal) :=
  Host.reduceAdd (F := Ideal) (onehot x2) (constant (F := Ideal) S_ .f32 0x00000000#32)
    reducesTo_S64x50000_S64_d1 h_S_

/-- each row's divisor, max(count, 1), repeated across the row -/
def denom (x2 : Batch) : PoolMat :=
  broadcastInDim S64x50000 ![0, 1] bcast_S64x1_S64x50000_0_1
    (maximumf (F := Ideal) (broadcastInDim S64x1 ![0] bcast_S64_S64x1_0 (counts x2))
      (broadcastInDim S64x1 ![] bcast_S_S64x1 (constant (F := Ideal) S_ .f32 0x3F800000#32)))

/-- the pooling matrix before padding -/
def pool (x2 : Batch) : PoolMat := Host.divf (F := Ideal) (φ := .f32) (onehot x2) (denom x2)

/-- The fifth stretch over ANY contents `W` holding the graph numbers `x2`: it leaves `pool x2`. -/
theorem hostOps4_v71 (W : Valuation τ sig (Elt Ideal)) (x2 : Batch)
    (h2 : W (Proc.devRef .tc main_arg2) = x2) :
    StableHlo.after hostOps4 W (Proc.devRef .tc main_v71) = pool x2 := by
  after_results_simp
  rw [h2]
  rfl

/-! ### Entry by entry -/

/-- entry (g, p) of the repeated graph numbers is node p's graph number -/
theorem batchMat_apply (x2 : Batch) (g : Fin 64) (p : Fin 50000) :
    batchMat x2 (ValueIdx.ix2 g p) = x2 (ValueIdx.ix1 p) := by
  unfold batchMat
  rw [broadcastInDim_apply _ bcast_S1x50000_S64x50000_0_1 _ (ValueIdx.ix2 g p) (ValueIdx.ix2 (0 : Fin 1) p)
    (fun a => match a with
      | ⟨0, _⟩ => by show 0 = if (1 : Nat) = 1 then 0 else g.val; rw [if_pos rfl]
      | ⟨1, _⟩ => by show p.val = if (50000 : Nat) = 1 then 0 else p.val; rw [if_neg (by decide)])]
  exact broadcastInDim_apply _ bcast_S50000_S1x50000_1 x2 (ValueIdx.ix2 (0 : Fin 1) p) (ValueIdx.ix1 p)
    (fun a => match a with
      | ⟨0, _⟩ => by show p.val = if (50000 : Nat) = 1 then 0 else p.val; rw [if_neg (by decide)])

/-- entry (g, p) of the repeated row numbers is the word g -/
theorem graphMat_apply (g : Fin 64) (p : Fin 50000) :
    graphMat (ValueIdx.ix2 g p) = BitVec.ofNat 32 g.val := by
  unfold graphMat
  rw [broadcastInDim_apply _ bcast_S64x1_S64x50000_0_1 _ (ValueIdx.ix2 g p) (ValueIdx.ix2 g (0 : Fin 1))
    (fun a => match a with
      | ⟨0, _⟩ => by show g.val = if (64 : Nat) = 1 then 0 else g.val; rw [if_neg (by decide)]
      | ⟨1, _⟩ => by show 0 = if (1 : Nat) = 1 then 0 else p.val; rw [if_pos rfl])]
  rw [broadcastInDim_apply _ bcast_S64_S64x1_0 _ (ValueIdx.ix2 g (0 : Fin 1)) (ValueIdx.ix1 g)
    (fun a => match a with
      | ⟨0, _⟩ => by show g.val = if (64 : Nat) = 1 then 0 else g.val; rw [if_neg (by decide)])]
  rfl

/-- a one-bit word read as an unsigned real: the equality test of two words is 1 or 0 -/
theorem uitofp_cmpi_eq (a b : BitVec 32) :
    (((IntOp.cmpi .eq a b).toNat : ℝ) : EReal) = if a = b then (1 : EReal) else 0 := by
  by_cases h : a = b
  · rw [if_pos h, Predicate.cmpi_eq_iff.mpr h]
    show (((1 : ℕ) : ℝ) : EReal) = 1
    rw [Nat.cast_one, EReal.coe_one]
  · rw [if_neg h]
    have h0 : IntOp.cmpi .eq a b = 0#1 := by
      simp only [IntOp.cmpi, beq_eq_false_iff_ne.mpr h, BitVec.ofBool_false]
      rfl
    rw [h0]
    show (((0 : ℕ) : ℝ) : EReal) = 0
    rw [Nat.cast_zero, EReal.coe_zero]

/-- the membership matrix at (g, p): 1 if node p has graph number g, else 0 -/
theorem onehot_apply (x2 : Batch) (g : Fin 64) (p : Fin 50000) :
    onehot x2 (ValueIdx.ix2 g p) = if x2 (ValueIdx.ix1 p) = BitVec.ofNat 32 g.val then (1 : EReal) else 0 := by
  show (((IntOp.cmpi .eq (batchMat x2 (ValueIdx.ix2 g p)) (graphMat (ValueIdx.ix2 g p))).toNat : ℝ) : EReal) = _
  rw [batchMat_apply, graphMat_apply]
  exact uitofp_cmpi_eq _ _

/-- graph g's node count: zero plus the sum over the nodes of the membership row -/
theorem counts_apply (x2 : Batch) (g : Fin 64) :
    counts x2 (ValueIdx.ix1 g) = 0 + ∑ e : Fin 50000, onehot x2 (ValueIdx.ix2 g e) := by
  have hr : S64x50000.Reduces [1] S64 := by decide
  show Ideal.hostReduceAdd reducesTo_S64x50000_S64_d1 (onehot x2) (Ideal.ofBits .f32 0x00000000#32) (ValueIdx.ix1 g) = _
  rw [Ideal.hostReduceAdd_single reducesTo_S64x50000_S64_d1 hr, Ideal.ofBits_zero_f32]
  refine congrArg (fun t : EReal => 0 + t) ?_
  refine Finset.sum_congr rfl fun e _ => congrArg (onehot x2) ?_
  funext a
  match a with
  | ⟨0, _⟩ => rfl
  | ⟨1, _⟩ => rfl

/-- the constant 1.0 of the program is the real number one: sign bit clear, exponent field 127,
    fraction field 0, so the value is 2^23 · 2^(127 − 127 − 23) -/
theorem ofBits_one_f32 : Ideal.ofBits .f32 0x3F800000#32 = 1 := by
  show Ideal.ieee 8 23 (0x3F800000#32 : BitVec 32) = 1
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  simp only [Ideal.ieee, h1, h2, h3]
  norm_num

/-- the divisor at (g, p): graph g's count, or one if that is larger -/
theorem denom_apply (x2 : Batch) (g : Fin 64) (p : Fin 50000) :
    denom x2 (ValueIdx.ix2 g p) = max (counts x2 (ValueIdx.ix1 g)) 1 := by
  unfold denom
  rw [broadcastInDim_apply _ bcast_S64x1_S64x50000_0_1 _ (ValueIdx.ix2 g p) (ValueIdx.ix2 g (0 : Fin 1))
    (fun a => match a with
      | ⟨0, _⟩ => by show g.val = if (64 : Nat) = 1 then 0 else g.val; rw [if_neg (by decide)]
      | ⟨1, _⟩ => by show 0 = if (1 : Nat) = 1 then 0 else p.val; rw [if_pos rfl])]
  show max (broadcastInDim S64x1 ![0] bcast_S64_S64x1_0 (counts x2) (ValueIdx.ix2 g (0 : Fin 1)))
      (broadcastInDim S64x1 ![] bcast_S_S64x1 (constant (F := Ideal) S_ .f32 0x3F800000#32) (ValueIdx.ix2 g (0 : Fin 1))) = _
  rw [broadcastInDim_apply _ bcast_S64_S64x1_0 _ (ValueIdx.ix2 g (0 : Fin 1)) (ValueIdx.ix1 g)
    (fun a => match a with
      | ⟨0, _⟩ => by show g.val = if (64 : Nat) = 1 then 0 else g.val; rw [if_neg (by decide)])]
  rw [broadcastInDim_apply _ bcast_S_S64x1 _ (ValueIdx.ix2 g (0 : Fin 1)) ValueIdx.ix0 (fun a => a.elim0)]
  show max (counts x2 (ValueIdx.ix1 g)) (Ideal.ofBits .f32 0x3F800000#32) = _
  rw [ofBits_one_f32]

/-- the pooling matrix at (g, p): membership over max(count, 1) -/
theorem pool_apply (x2 : Batch) (g : Fin 64) (p : Fin 50000) :
    pool x2 (ValueIdx.ix2 g p)
      = Ideal.div (if x2 (ValueIdx.ix1 p) = BitVec.ofNat 32 g.val then (1 : EReal) else 0)
          (max (0 + ∑ e : Fin 50000, (if x2 (ValueIdx.ix1 e) = BitVec.ofNat 32 g.val then (1 : EReal) else 0)) 1) := by
  have e0 : pool x2 (ValueIdx.ix2 g p)
      = FloatOps.hostDivf (F := Ideal) (φ := .f32) (onehot x2 (ValueIdx.ix2 g p)) (denom x2 (ValueIdx.ix2 g p)) := rfl
  have es : (∑ e : Fin 50000, onehot x2 (ValueIdx.ix2 g e))
      = ∑ e : Fin 50000, (if x2 (ValueIdx.ix1 e) = BitVec.ofNat 32 g.val then (1 : EReal) else 0) :=
    Finset.sum_congr rfl fun e _ => onehot_apply x2 g e
  rw [e0, Ideal.hostDivf_def, denom_apply, counts_apply, onehot_apply, es]

/-! ### The padded matrix -/

/-- the fifth stretch's last operation writes the zero word the first pad converts -/
theorem hostOps4_c12 (W : Valuation τ sig (Elt Ideal)) :
    StableHlo.after hostOps4 W (Proc.devRef .tc main_c_12)
      = (constantI S_ 32 0#32 : (⟨S_, .i32⟩ : BufTy).Contents (Elt Ideal)) := by
  after_results

/-- The sixth stretch over ANY contents `W` holding a 64 × 50000 matrix `y` and the zero word: the
    padded matrix is `y` on the first 50000 columns and zero on the 1200 appended ones. -/
theorem hostOps4_1_v72_apply (W : Valuation τ sig (Elt Ideal)) (y : PoolMat)
    (hy : W (Proc.devRef .tc main_v71) = y)
    (hz : W (Proc.devRef .tc main_c_12) = (constantI S_ 32 0#32 : (⟨S_, .i32⟩ : BufTy).Contents (Elt Ideal)))
    (g : Fin 64) (n : Fin 51200) :
    StableHlo.after hostOps4_1 W (Proc.devRef .tc main_v72) (ValueIdx.ix2 g n)
      = if h : n.val < 50000 then y (ValueIdx.ix2 g ⟨n.val, h⟩) else (0 : EReal) := by
  after_results
  rw [hy, hz]
  show pad S64x51200 ![0, 0] ![0, 1200] ![0, 0] y
      (sitofp (F := Ideal) .f32 (constantI S_ 32 0#32 : (⟨S_, .i32⟩ : BufTy).Contents (Elt Ideal)))
      pads_S64x50000_S64x51200_000_012000 h_S_ (ValueIdx.ix2 g n) = _
  by_cases h : n.val < 50000
  · rw [dif_pos h]
    exact pad_apply_of_inside _ _ _ y _ _ _ (ValueIdx.ix2 g n) (ValueIdx.ix2 g ⟨n.val, h⟩) (fun a => match a with
      | ⟨0, _⟩ => by show g.val = 0 + g.val * (0 + 1); omega
      | ⟨1, _⟩ => by show n.val = 0 + n.val * (0 + 1); omega)
  · rw [dif_neg h, pad_apply_of_not_inside _ _ _ y _ _ _ (ValueIdx.ix2 g n) (1 : Fin 2) (by
        show ¬(0 ≤ n.val ∧ (n.val - 0) % (0 + 1) = 0 ∧ (n.val - 0) / (0 + 1) < 50000)
        omega)]
    show (((0#32 : BitVec 32).toInt : ℝ) : EReal) = 0
    rw [BitVec.toInt_zero, Int.cast_zero, EReal.coe_zero]

section Kernel

variable (m : (ℓ : Loc nD τ sig) → Buf (Elt Ideal) ℓ) (outs : Outs (F := Ideal)) (c : Dev nD)

/-- the launch contents of the graph-number argument on core `c` -/
abbrev arg2 : Batch := m ((c : Thread nD τ).loc main_arg2)

/-- the graph numbers reach the fifth stretch as launched -/
theorem v7_arg2 : V7 m outs c main_arg2 = arg2 m c :=
  (V7_of m outs c main_arg2 (by decide)).trans <| (V6_of m outs c main_arg2 (by decide)).trans <|
  (V5_of m outs c main_arg2 (by decide)).trans <| (V4_of m outs c main_arg2 (by decide)).trans <|
  (V3_of m outs c main_arg2 (by decide)).trans <| (V2_of m outs c main_arg2 (by decide)).trans
  (V1_of m c main_arg2 (by decide))

/-- The last call's first operand, entry (g, n): for a real node n, membership of n in graph g
    over max(count of g, 1); zero on the appended columns. -/
theorem k_v72_apply (g : Fin 64) (n : Fin 51200) :
    V11 m outs c main_v72 (ValueIdx.ix2 g n)
      = if h : n.val < 50000 then
          Ideal.div (if arg2 m c (ValueIdx.ix1 ⟨n.val, h⟩) = BitVec.ofNat 32 g.val then (1 : EReal) else 0)
            (max (0 + ∑ e : Fin 50000, (if arg2 m c (ValueIdx.ix1 e) = BitVec.ofNat 32 g.val then (1 : EReal) else 0)) 1)
        else (0 : EReal) := by
  have e : V11 m outs c main_v72 = V9 m outs c main_v72 :=
    (V11_of m outs c main_v72 (by decide)).trans (V10_of m outs c main_v72 (by decide))
  have e' : V11 m outs c main_v72 (ValueIdx.ix2 g n) = V9 m outs c main_v72 (ValueIdx.ix2 g n) := by rw [e]
  refine e'.trans ?_
  refine (hostOps4_1_v72_apply (V8 m outs c) (pool (arg2 m c))
    (hostOps4_v71 (V7 m outs c) (arg2 m c) (v7_arg2 m outs c)) (hostOps4_c12 (V7 m outs c)) g n).trans ?_
  by_cases h : n.val < 50000
  · rw [dif_pos h, dif_pos h]
    exact pool_apply (arg2 m c) g ⟨n.val, h⟩
  · rw [dif_neg h, dif_neg h]

end Kernel

end Cert.KernelIdeal.HostK
-- ==== Proof.LibScatterSum.lean ====
/-
  The host's accumulating scatter at the ideal values, read at one entry.

  * M scalar updates are aimed into a table of N entries, update e by one 32-bit index word. The start of an
    update's (one-element) window is its word read as a signed integer and is not clamped; an update whose word
    is no entry number lands nowhere and is dropped. So entry i of the result is entry i of the operand plus the
    sum of the updates whose word, read signed, equals i.
  * M row updates of D features are aimed into the rows of an N x D table, update e by one 32-bit index word:
    entry (i, k) of the result is entry (i, k) of the operand plus the sum, over the updates e whose word, read
    signed, equals i, of their feature k.
-/
import Idealize.ShloMosaic.PureOps.Ideal
import Idealize.ShloMosaic.PureOps.Contract
import Idealize.ShloMosaic.Lib.ValueIdx

noncomputable section

namespace Cert.Lib.ScatterSum

open Idealize.ShloMosaic Idealize.ShloMosaic.ValueIdx
open scoped BigOperators

/-! ## The accumulating scatter read at a row -/

/-- A rank-1 index set is its one coordinate range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- Scalar updates into a rank-1 table: update e's window starts at its index word read signed, and it has no window
    coordinate. -/
theorem scatter1_start_window {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (idx : IVec ⟨2, ![M, 1]⟩ 32) (e : Fin M) :
    d.start (ix1 e) idx 0 = (idx (ix2 e 0)).toInt ∧ d.window (ix1 e) 0 = 0 := by
  obtain ⟨uw, iw, sd, iv, wf⟩ := d
  dsimp only at hupd hins hsd hiv
  subst hupd hins hsd hiv
  constructor
  · unfold ScatterDims.start
    rw [dif_pos (List.mem_singleton.mpr rfl)]
    refine congrArg (fun z => (idx z).toInt) ?_
    funext b
    apply Fin.ext
    match b with
    | ⟨0, _⟩ => rfl
    | ⟨1, _⟩ => rfl
  · unfold ScatterDims.window
    rw [dif_neg (by simp [ScatterDims.sKept, Shape.kept])]

/-- Scalar updates into a rank-1 table: update e lands on entry i exactly when its index word, read signed, is i. -/
theorem resultIdx_rows1 {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (idx : IVec ⟨2, ![M, 1]⟩ 32) (e : Fin M) (i : Fin N) :
    d.resultIdx? (ix1 e) idx = some (ix1 i) ↔ (idx (ix2 e 0)).toInt = (i.val : ℤ) := by
  obtain ⟨hs, hw⟩ := scatter1_start_window d hupd hins hsd hiv idx e
  unfold ScatterDims.resultIdx?
  split
  · next h =>
    have h0 := h 0
    rw [hs, hw] at h0
    constructor
    · intro hf
      have hv := congrArg (fun f : (⟨1, ![N]⟩ : Shape).Idx => (f 0).val) (Option.some.inj hf)
      change (d.start (ix1 e) idx 0 + ((d.window (ix1 e) 0 : ℕ) : ℤ)).toNat = i.val at hv
      rw [hs, hw] at hv
      omega
    · intro hh
      refine congrArg some ?_
      funext a
      match a with
      | ⟨0, _⟩ =>
        apply Fin.ext
        show (d.start (ix1 e) idx 0 + ((d.window (ix1 e) 0 : ℕ) : ℤ)).toNat = i.val
        rw [hs, hw]
        omega
  · next h =>
    constructor
    · intro hf
      cases hf
    · intro hh
      exfalso
      apply h
      intro a
      match a with
      | ⟨0, _⟩ =>
        show 0 ≤ d.start (ix1 e) idx 0 + ((d.window (ix1 e) 0 : ℕ) : ℤ)
          ∧ d.start (ix1 e) idx 0 + ((d.window (ix1 e) 0 : ℕ) : ℤ) < ((N : ℕ) : ℤ)
        rw [hs, hw]
        have := i.isLt
        omega

/-- Scalar updates into a rank-1 table. With no window axes, the table's one axis inserted and aimed by the one-word index
    vector, entry i of the result is entry i of the operand plus the sum of the updates e whose index word, read
    signed, equals i. -/
theorem scatterAdd_rows1 {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (x : (⟨1, ![N]⟩ : Shape).Idx → EReal) (idx : IVec ⟨2, ![M, 1]⟩ 32) (upd : (⟨1, ![M]⟩ : Shape).Idx → EReal)
    (i : Fin N) :
    Ideal.hostScatterAdd d x idx upd (ix1 i)
      = x (ix1 i) + ∑ e : Fin M, if (idx (ix2 e 0)).toInt = (i.val : ℤ) then upd (ix1 e) else 0 := by
  unfold Ideal.hostScatterAdd
  congr 1
  rw [Finset.sum_filter, sum_idx1]
  exact Finset.sum_congr rfl fun e _ => if_congr (resultIdx_rows1 d hupd hins hsd hiv idx e i) rfl rfl

/-- Row updates into a rank-2 table: update (e, q)'s window starts on the row axis at e's index word read signed and on
    the feature axis at zero; its window coordinate is zero on the row axis and q on the feature axis. -/
theorem scatter2_start_window {N D M : ℕ} (d : ScatterDims ⟨2, ![N, D]⟩ ⟨2, ![M, 1]⟩ ⟨2, ![M, D]⟩)
    (hupd : d.updateWindowDims = [1]) (hins : d.insertedWindowDims = [0])
    (hsd : d.scatterDimsToOperandDims = [0]) (hiv : d.indexVectorDim = 1)
    (idx : IVec ⟨2, ![M, 1]⟩ 32) (e : Fin M) (q : Fin D) :
    d.start (ix2 e q) idx 0 = (idx (ix2 e 0)).toInt ∧ d.start (ix2 e q) idx 1 = 0
      ∧ d.window (ix2 e q) 0 = 0 ∧ d.window (ix2 e q) 1 = q.val := by
  obtain ⟨uw, iw, sd, iv, wf⟩ := d
  dsimp only at hupd hins hsd hiv
  subst hupd hins hsd hiv
  refine ⟨?_, ?_, ?_, ?_⟩
  · unfold ScatterDims.start
    rw [dif_pos (List.mem_singleton.mpr rfl)]
    refine congrArg (fun z => (idx z).toInt) ?_
    funext b
    apply Fin.ext
    match b with
    | ⟨0, _⟩ => rfl
    | ⟨1, _⟩ => rfl
  · unfold ScatterDims.start
    rw [dif_neg (show ¬ (1 : Fin 2) ∈ ([0] : List (Fin 2)) by decide)]
  · unfold ScatterDims.window
    rw [dif_neg (by simp [ScatterDims.sKept, Shape.kept])]
  · unfold ScatterDims.window
    rw [dif_pos (by simp [ScatterDims.sKept, Shape.kept])]
    rfl

/-- Row updates into a rank-2 table: update (e, q) lands on entry (i, k) exactly when e's index word, read signed, is i
    and q is k. -/
theorem resultIdx_rows2 {N D M : ℕ} (d : ScatterDims ⟨2, ![N, D]⟩ ⟨2, ![M, 1]⟩ ⟨2, ![M, D]⟩)
    (hupd : d.updateWindowDims = [1]) (hins : d.insertedWindowDims = [0])
    (hsd : d.scatterDimsToOperandDims = [0]) (hiv : d.indexVectorDim = 1)
    (idx : IVec ⟨2, ![M, 1]⟩ 32) (e : Fin M) (q : Fin D) (i : Fin N) (k : Fin D) :
    d.resultIdx? (ix2 e q) idx = some (ix2 i k) ↔ (idx (ix2 e 0)).toInt = (i.val : ℤ) ∧ q = k := by
  obtain ⟨hs0, hs1, hw0, hw1⟩ := scatter2_start_window d hupd hins hsd hiv idx e q
  unfold ScatterDims.resultIdx?
  split
  · next h =>
    have h0 := h 0
    rw [hs0, hw0] at h0
    constructor
    · intro hf
      have hv0 := congrArg (fun f : (⟨2, ![N, D]⟩ : Shape).Idx => (f 0).val) (Option.some.inj hf)
      have hv1 := congrArg (fun f : (⟨2, ![N, D]⟩ : Shape).Idx => (f 1).val) (Option.some.inj hf)
      change (d.start (ix2 e q) idx 0 + ((d.window (ix2 e q) 0 : ℕ) : ℤ)).toNat = i.val at hv0
      change (d.start (ix2 e q) idx 1 + ((d.window (ix2 e q) 1 : ℕ) : ℤ)).toNat = k.val at hv1
      rw [hs0, hw0] at hv0
      rw [hs1, hw1] at hv1
      exact ⟨by omega, Fin.ext (by omega)⟩
    · rintro ⟨hh, rfl⟩
      refine congrArg some ?_
      funext a
      match a with
      | ⟨0, _⟩ =>
        apply Fin.ext
        show (d.start (ix2 e q) idx 0 + ((d.window (ix2 e q) 0 : ℕ) : ℤ)).toNat = i.val
        rw [hs0, hw0]
        omega
      | ⟨1, _⟩ =>
        apply Fin.ext
        show (d.start (ix2 e q) idx 1 + ((d.window (ix2 e q) 1 : ℕ) : ℤ)).toNat = q.val
        rw [hs1, hw1]
        omega
  · next h =>
    constructor
    · intro hf
      cases hf
    · rintro ⟨hh, rfl⟩
      exfalso
      apply h
      intro a
      match a with
      | ⟨0, _⟩ =>
        show 0 ≤ d.start (ix2 e q) idx 0 + ((d.window (ix2 e q) 0 : ℕ) : ℤ)
          ∧ d.start (ix2 e q) idx 0 + ((d.window (ix2 e q) 0 : ℕ) : ℤ) < ((N : ℕ) : ℤ)
        rw [hs0, hw0]
        have := i.isLt
        omega
      | ⟨1, _⟩ =>
        show 0 ≤ d.start (ix2 e q) idx 1 + ((d.window (ix2 e q) 1 : ℕ) : ℤ)
          ∧ d.start (ix2 e q) idx 1 + ((d.window (ix2 e q) 1 : ℕ) : ℤ) < ((D : ℕ) : ℤ)
        rw [hs1, hw1]
        have := q.isLt
        omega

/-- Row updates into a rank-2 table. With the updates' second axis the window, the table's first axis inserted and aimed
    by the one-word index vector, entry (i, k) of the result is entry (i, k) of the operand plus the sum, over the
    updates e whose index word, read signed, equals i, of their entry k. -/
theorem scatterAdd_rows2 {N D M : ℕ} (d : ScatterDims ⟨2, ![N, D]⟩ ⟨2, ![M, 1]⟩ ⟨2, ![M, D]⟩)
    (hupd : d.updateWindowDims = [1]) (hins : d.insertedWindowDims = [0])
    (hsd : d.scatterDimsToOperandDims = [0]) (hiv : d.indexVectorDim = 1)
    (x : (⟨2, ![N, D]⟩ : Shape).Idx → EReal) (idx : IVec ⟨2, ![M, 1]⟩ 32) (upd : (⟨2, ![M, D]⟩ : Shape).Idx → EReal)
    (i : Fin N) (k : Fin D) :
    Ideal.hostScatterAdd d x idx upd (ix2 i k)
      = x (ix2 i k) + ∑ e : Fin M, if (idx (ix2 e 0)).toInt = (i.val : ℤ) then upd (ix2 e k) else 0 := by
  unfold Ideal.hostScatterAdd
  congr 1
  rw [Finset.sum_filter, sum_idx2]
  refine Finset.sum_congr rfl fun e _ => ?_
  rw [Finset.sum_congr rfl fun q _ => if_congr (resultIdx_rows2 d hupd hins hsd hiv idx e q i k) rfl rfl]
  by_cases hh : (idx (ix2 e 0)).toInt = (i.val : ℤ)
  · -- the word aims at row i: of the row's entries only entry k is kept
    simp only [hh, true_and, if_true]
    exact (Finset.sum_ite_eq' Finset.univ k _).trans (if_pos (Finset.mem_univ k))
  · -- the word aims elsewhere: nothing is kept
    simp only [hh, false_and, if_false]
    exact Finset.sum_const_zero

/-! ## A signed 32-bit word names a small number exactly when it is that number's word -/

/-- For a number g below 2^31, a 32-bit word read signed equals g exactly when the word is the 32-bit word of g. -/
theorem toInt_eq_iff_eq_ofNat (w : BitVec 32) (g : ℕ) (hg : g < 2147483648) :
    w.toInt = (g : ℤ) ↔ w = BitVec.ofNat 32 g := by
  have hb : (BitVec.ofNat 32 g).toInt = (g : ℤ) := by
    rw [BitVec.toInt_ofNat']
    rw [Int.bmod_eq_of_le] <;> omega
  constructor
  · intro h
    apply BitVec.eq_of_toInt_eq
    rw [h, hb]
  · rintro rfl
    exact hb

end Cert.Lib.ScatterSum

end
-- ==== Proof.RefRead.lean ====
/-
  The reference's stages as functions of whole arrays over the extended reals: each of its two products is
  the array product, each of its two bias-and-cut-off stages is the row sum cut off at zero, and its pooled
  result is read at an entry.
-/
import proofs.«427735_j54941221650950_1_alg».proof.Proof.Gen.ReferenceIdeal.Read
import proofs.«427735_j54941221650950_1_alg».proof.Proof.Spec
import proofs.«427735_j54941221650950_1_alg».proof.Proof.LibScatterSum
import Idealize.ShloMosaic.Lib.ValueIdx
import Idealize.ShloMosaic.Lib.Pipeline.Value
import Idealize.ShloMosaic.Lib.IdealHost
import Idealize.ShloMosaic.PureOps.Ideal.Laws

noncomputable section

namespace Cert.RefRead

open Idealize.ShloMosaic Idealize.ShloMosaic.ValueIdx
open scoped BigOperators

/-- The bias vector laid out as the one row of a 1 × 128 array. -/
def rowOf (b : (⟨1, ![128]⟩ : Shape).Idx → EReal) : Cert.Spec.S1xD.Idx → EReal := fun i => b (ix1 (i 1))

/-! ## The products -/

/-- The first product is the array product of the features and the first weight: at (r, j) the sum over k of
    x0 (r, k) · x3 (k, j). -/
theorem v27_eq (x0 : (⟨Cert.ReferenceIdeal.S50000x128, .f32⟩ : BufTy).Contents (Elt Ideal)) (x3 : (⟨Cert.ReferenceIdeal.S128x128, .f32⟩ : BufTy).Contents (Elt Ideal)) :
    Cert.ReferenceIdeal.Read.val_main_v27 (F := Ideal) x0 x3 = Cert.Spec.mm x0 x3 := by
  funext i
  obtain ⟨r, j, rfl⟩ : ∃ (r : Fin 50000) (j : Fin 128), i = ix2 r j := ⟨i 0, i 1, eq_ix2 i⟩
  rw [Cert.ReferenceIdeal.Read.val_main_v27_apply]
  have hl : ∀ k : Fin 128, Cert.ReferenceIdeal.Read.lidx_main_v27 (ix2 r j) k = ix2 r k := fun k =>
    funext fun a => Fin.ext (by match a with | ⟨0, _⟩ => rfl | ⟨1, _⟩ => rfl)
  have hr : ∀ k : Fin 128, Cert.ReferenceIdeal.Read.ridx_main_v27 (ix2 r j) k = ix2 k j := fun k =>
    funext fun a => Fin.ext (by match a with | ⟨0, _⟩ => rfl | ⟨1, _⟩ => rfl)
  simp only [hl, hr]
  exact (Cert.Spec.mm_apply x0 x3 r j).symm

/-- The second product is the array product of the first layer's output and the second weight. -/
theorem v72_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) :
    Cert.ReferenceIdeal.Read.val_main_v72 (F := Ideal) x0 x1 x3 x4 x5
      = Cert.Spec.mm (Cert.ReferenceIdeal.Read.val_main_v44 (F := Ideal) x0 x1 x3 x4) x5 := by
  funext i
  obtain ⟨r, j, rfl⟩ : ∃ (r : Fin 50000) (j : Fin 128), i = ix2 r j := ⟨i 0, i 1, eq_ix2 i⟩
  rw [Cert.ReferenceIdeal.Read.val_main_v72_apply]
  generalize Cert.ReferenceIdeal.Read.val_main_v44 (F := Ideal) x0 x1 x3 x4 = A
  have hl : ∀ k : Fin 128, Cert.ReferenceIdeal.Read.lidx_main_v72 (ix2 r j) k = ix2 r k := fun k =>
    funext fun a => Fin.ext (by match a with | ⟨0, _⟩ => rfl | ⟨1, _⟩ => rfl)
  have hr : ∀ k : Fin 128, Cert.ReferenceIdeal.Read.ridx_main_v72 (ix2 r j) k = ix2 k j := fun k =>
    funext fun a => Fin.ext (by match a with | ⟨0, _⟩ => rfl | ⟨1, _⟩ => rfl)
  simp only [hl, hr]
  exact (Cert.Spec.mm_apply A x5 r j).symm

/-! ## The bias rows and the cut-off at zero -/

/-- The first layer's closing stage: at (r, j) the larger of the aggregated value plus the bias at j and zero. -/
theorem v44_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    Cert.ReferenceIdeal.Read.val_main_v44 (F := Ideal) x0 x1 x3 x4
      = Cert.Spec.br (Cert.ReferenceIdeal.Read.val_main_v40 (F := Ideal) x0 x1 x3) (rowOf x4) := by
  funext i
  obtain ⟨r, j, rfl⟩ : ∃ (r : Fin 50000) (j : Fin 128), i = ix2 r j := ⟨i 0, i 1, eq_ix2 i⟩
  rw [Cert.ReferenceIdeal.Read.val_main_v44_apply, Cert.ReferenceIdeal.Read.val_main_v43_apply, Cert.ReferenceIdeal.Read.val_main_v42_apply, Cert.ReferenceIdeal.Read.val_main_v41_apply,
    Cert.ReferenceIdeal.Read.val_main_call0_v0_apply, Cert.ReferenceIdeal.Read.val_main_call0_cst_apply]
  generalize Cert.ReferenceIdeal.Read.val_main_v40 (F := Ideal) x0 x1 x3 = A
  have hb : Cert.ReferenceIdeal.Read.idx_main_v41 (Cert.ReferenceIdeal.Read.idx_main_v42 (ix2 r j)) = ix1 j :=
    funext fun a => Fin.ext (by match a with | ⟨0, _⟩ => rfl)
  simp only [hb, Ideal.maximumf_def, Ideal.addf_def, Ideal.ofBits_def, Ideal.ofBits_zero_f32]
  exact (Cert.Spec.br_apply A (rowOf x4) r j).symm

/-- The second layer's closing stage: at (r, j) the larger of the aggregated value plus the bias at j and zero. -/
theorem v89_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) :
    Cert.ReferenceIdeal.Read.val_main_v89 (F := Ideal) x0 x1 x3 x4 x5 x6
      = Cert.Spec.br (Cert.ReferenceIdeal.Read.val_main_v85 (F := Ideal) x0 x1 x3 x4 x5) (rowOf x6) := by
  funext i
  obtain ⟨r, j, rfl⟩ : ∃ (r : Fin 50000) (j : Fin 128), i = ix2 r j := ⟨i 0, i 1, eq_ix2 i⟩
  rw [Cert.ReferenceIdeal.Read.val_main_v89_apply, Cert.ReferenceIdeal.Read.val_main_v88_apply, Cert.ReferenceIdeal.Read.val_main_v87_apply, Cert.ReferenceIdeal.Read.val_main_v86_apply,
    Cert.ReferenceIdeal.Read.val_main_call1_v0_apply, Cert.ReferenceIdeal.Read.val_main_call1_cst_apply]
  generalize Cert.ReferenceIdeal.Read.val_main_v85 (F := Ideal) x0 x1 x3 x4 x5 = A
  have hb : Cert.ReferenceIdeal.Read.idx_main_v86 (Cert.ReferenceIdeal.Read.idx_main_v87 (ix2 r j)) = ix1 j :=
    funext fun a => Fin.ext (by match a with | ⟨0, _⟩ => rfl)
  simp only [hb, Ideal.maximumf_def, Ideal.addf_def, Ideal.ofBits_def, Ideal.ofBits_zero_f32]
  exact (Cert.Spec.br_apply A (rowOf x6) r j).symm

/-! ## The pooled result -/

/-- The rows of graph g: the rows whose graph word, read as a signed integer, is g. -/
abbrev rowsOf (x2 : (⟨Cert.ReferenceIdeal.S50000, .i32⟩ : BufTy).Contents (Elt Ideal)) (g : Fin 64) : Finset (Fin 50000) :=
  Finset.univ.filter (fun e : Fin 50000 => (x2 (ix1 e)).toInt = (g.val : ℤ))

/-- Entry (g, k) of the per-graph sums: onto zero, feature k of the second layer's output summed over the rows of
    graph g. -/
theorem v92_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (g : Fin 64) (k : Fin 128) :
    Cert.ReferenceIdeal.Read.val_main_v92 (F := Ideal) x0 x1 x2 x3 x4 x5 x6 (ix2 g k)
      = 0 + ∑ e ∈ rowsOf x2 g, (Cert.ReferenceIdeal.Read.val_main_v89 (F := Ideal) x0 x1 x3 x4 x5 x6 (ix2 e k) : EReal) := by
  unfold Cert.ReferenceIdeal.Read.val_main_v92
  generalize Cert.ReferenceIdeal.Read.val_main_v89 (F := Ideal) x0 x1 x3 x4 x5 x6 = U
  refine (Cert.Lib.ScatterSum.scatterAdd_rows2 (N := 64) (D := 128) (M := 50000) Cert.ReferenceIdeal.scatter_S64x128_S50000x1_S50000x128_1_0_0_1 rfl rfl rfl rfl
    (Cert.ReferenceIdeal.Read.val_main_v90 (F := Ideal)) (Cert.ReferenceIdeal.Read.val_main_v91 (F := Ideal) x2) U g k).trans ?_
  rw [Cert.ReferenceIdeal.Read.val_main_v90_apply, Cert.ReferenceIdeal.Read.val_main_cst_16_apply, Ideal.ofBits_def, Ideal.ofBits_zero_f32]
  refine congrArg (fun z : EReal => 0 + z) ?_
  rw [Finset.sum_filter]
  refine Finset.sum_congr rfl fun e _ => ?_
  rw [Cert.ReferenceIdeal.Read.val_main_v91_apply]
  have he : Cert.ReferenceIdeal.Read.idx_main_v91 (ix2 e (0 : Fin 1)) = ix1 e :=
    funext fun a => Fin.ext (by match a with | ⟨0, _⟩ => rfl)
  rw [he]

/-- Entry g of the counts: onto zero, a one for every row of graph g. -/
theorem v96_apply (x2 : (⟨Cert.ReferenceIdeal.S50000, .i32⟩ : BufTy).Contents (Elt Ideal)) (g : Fin 64) :
    Cert.ReferenceIdeal.Read.val_main_v96 (F := Ideal) x2 (ix1 g) = 0 + ∑ e ∈ rowsOf x2 g, (1 : EReal) := by
  unfold Cert.ReferenceIdeal.Read.val_main_v96
  refine (Cert.Lib.ScatterSum.scatterAdd_rows1 (N := 64) (M := 50000) Cert.ReferenceIdeal.scatter_S64_S50000x1_S50000_n_0_0_1 rfl rfl rfl rfl
    (Cert.ReferenceIdeal.Read.val_main_v94 (F := Ideal)) (Cert.ReferenceIdeal.Read.val_main_v95 (F := Ideal) x2) (Cert.ReferenceIdeal.Read.val_main_v93 (F := Ideal)) g).trans ?_
  rw [Cert.ReferenceIdeal.Read.val_main_v94_apply, Cert.ReferenceIdeal.Read.val_main_cst_18_apply, Ideal.ofBits_def, Ideal.ofBits_zero_f32]
  refine congrArg (fun z : EReal => 0 + z) ?_
  rw [Finset.sum_filter]
  refine Finset.sum_congr rfl fun e _ => ?_
  rw [Cert.ReferenceIdeal.Read.val_main_v95_apply, Cert.ReferenceIdeal.Read.val_main_v93_apply, Cert.ReferenceIdeal.Read.val_main_cst_17_apply, Ideal.ofBits_def, Ideal.ofBits_one_f32]
  have he : Cert.ReferenceIdeal.Read.idx_main_v95 (ix2 e (0 : Fin 1)) = ix1 e :=
    funext fun a => Fin.ext (by match a with | ⟨0, _⟩ => rfl)
  rw [he]

/-- Entry (g, k) of the divisor: the count of graph g, but at least one, whatever the feature k. -/
theorem v100_apply (x2 : (⟨Cert.ReferenceIdeal.S50000, .i32⟩ : BufTy).Contents (Elt Ideal)) (g : Fin 64) (k : Fin 128) :
    Cert.ReferenceIdeal.Read.val_main_v100 (F := Ideal) x2 (ix2 g k) = max (0 + ∑ e ∈ rowsOf x2 g, (1 : EReal)) 1 := by
  rw [Cert.ReferenceIdeal.Read.val_main_v100_apply, Cert.ReferenceIdeal.Read.val_main_v99_apply, Cert.ReferenceIdeal.Read.val_main_v98_apply, Cert.ReferenceIdeal.Read.val_main_v97_apply,
    Cert.ReferenceIdeal.Read.val_main_cst_19_apply]
  have hg : Cert.ReferenceIdeal.Read.idx_main_v99 (Cert.ReferenceIdeal.Read.idx_main_v100 (ix2 g k)) = ix1 g :=
    funext fun a => Fin.ext (by match a with | ⟨0, _⟩ => rfl)
  rw [hg, v96_apply]
  simp only [Ideal.maximumf_def, Ideal.ofBits_def, Ideal.ofBits_one_f32]

/-- The reference's result at (g, j): per graph g the rows of the second layer's output summed onto zero, divided by
    the larger of the count and one, times the classifier weight, plus the classifier bias. -/
theorem v105_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S50000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x10, .f32⟩ : BufTy).Contents (Elt Ideal)) (x8 : (⟨Cert.ReferenceIdeal.S10, .f32⟩ : BufTy).Contents (Elt Ideal)) (g : Fin 64) (j : Fin 10) :
    Cert.ReferenceIdeal.Read.val_main_v105 (F := Ideal) x0 x1 x2 x3 x4 x5 x6 x7 x8 (ix2 g j)
      = (∑ k : Fin 128, Ideal.div (0 + ∑ e ∈ Finset.univ.filter (fun e : Fin 50000 => (x2 (ix1 e)).toInt = (g.val : ℤ)), (Cert.ReferenceIdeal.Read.val_main_v89 (F := Ideal) x0 x1 x3 x4 x5 x6 (ix2 e k) : EReal))
                                   (max (0 + ∑ e ∈ Finset.univ.filter (fun e : Fin 50000 => (x2 (ix1 e)).toInt = (g.val : ℤ)), (1 : EReal)) 1)
                             * (x7 (ix2 k j) : EReal)) + (x8 (ix1 j) : EReal) := by
  rw [Cert.ReferenceIdeal.Read.val_main_v105_apply, Cert.ReferenceIdeal.Read.val_main_v102_apply, Cert.ReferenceIdeal.Read.val_main_v104_apply, Cert.ReferenceIdeal.Read.val_main_v103_apply]
  have hb : Cert.ReferenceIdeal.Read.idx_main_v103 (Cert.ReferenceIdeal.Read.idx_main_v104 (ix2 g j)) = ix1 j :=
    funext fun a => Fin.ext (by match a with | ⟨0, _⟩ => rfl)
  have hl : ∀ k : Fin 128, Cert.ReferenceIdeal.Read.lidx_main_v102 (ix2 g j) k = ix2 g k := fun k =>
    funext fun a => Fin.ext (by match a with | ⟨0, _⟩ => rfl | ⟨1, _⟩ => rfl)
  have hr : ∀ k : Fin 128, Cert.ReferenceIdeal.Read.ridx_main_v102 (ix2 g j) k = ix2 k j := fun k =>
    funext fun a => Fin.ext (by match a with | ⟨0, _⟩ => rfl | ⟨1, _⟩ => rfl)
  simp only [hb, hl, hr, Ideal.addf_def]
  refine congrArg (fun z : EReal => z + x8 (ix1 j)) ?_
  refine Finset.sum_congr rfl fun k _ => ?_
  refine congrArg (fun z : EReal => z * x7 (ix2 k j)) ?_
  rw [Cert.ReferenceIdeal.Read.val_main_v101_apply, Ideal.hostDivf_def, v92_apply, v100_apply]

end Cert.RefRead

end
-- ==== Proof.PoolFinal.lean ====
/-
  The two programs' pooling, joined at one entry.

  One program multiplies a 64 × 51200 averaging matrix — entry (g, n) is [row n belongs to graph g] divided by
  the size of graph g (at least one), and zero from column 50000 on — into the features, zero-padded to 51200
  rows. The other adds up the feature rows that belong to graph g and divides once by the same size. A row
  belongs to graph g, for the first, when its 32-bit batch word is the word of g; for the second, when the word
  read as a signed integer is g: for g below 64 (indeed below 2^31) these say the same. The padding contributes
  zeros (0 * x = 0 for every extended real), and the rest is the averaging law, for ARBITRARY feature values.
-/
import Mathlib.Data.EReal.Operations
import Mathlib.Algebra.BigOperators.Fin
import Mathlib.Algebra.BigOperators.Group.Finset.Basic
import Idealize.ShloMosaic.PureOps.Ideal
import proofs.«427735_j54941221650950_1_alg».proof.Proof.PoolMath
import proofs.«427735_j54941221650950_1_alg».proof.Proof.LibExtReal
import proofs.«427735_j54941221650950_1_alg».proof.Proof.LibBlockSum
import proofs.«427735_j54941221650950_1_alg».proof.Proof.LibScatterSum

noncomputable section

namespace Cert.PoolMath

open Idealize.ShloMosaic
open scoped BigOperators

/-- the kernel's averaging matrix, zero-padded from 50000 to 51200 columns -/
def padP (batch : Fin 50000 → BitVec 32) (g : Fin 64) (n : Fin 51200) : EReal :=
  if hn : n.val < 50000 then
    Ideal.div (if batch ⟨n.val, hn⟩ = BitVec.ofNat 32 g.val then 1 else 0)
      (max (0 + ∑ e : Fin 50000, (if batch e = BitVec.ofNat 32 g.val then (1 : EReal) else 0)) 1)
  else 0

/-- the features, zero-padded from 50000 to 51200 rows -/
def padX (h : Fin 50000 → Fin 128 → EReal) (n : Fin 51200) (k : Fin 128) : EReal :=
  if hn : n.val < 50000 then h ⟨n.val, hn⟩ k else 0

/-- For a graph number below 64, "the batch word read signed is g" selects the same rows as "the batch word is
    the word of g". -/
theorem filter_toInt_eq (batch : Fin 50000 → BitVec 32) (g : Fin 64) :
    (Finset.univ.filter fun e : Fin 50000 => (batch e).toInt = (g.val : ℤ))
      = Finset.univ.filter fun e : Fin 50000 => batch e = BitVec.ofNat 32 g.val :=
  Finset.filter_congr fun e _ =>
    Cert.Lib.ScatterSum.toInt_eq_iff_eq_ofNat (batch e) g.val (by have := g.isLt; omega)

/-- one entry of the pooled features: the kernel's padded product is the reference's sum of the selected rows
    divided once -/
theorem pooled_entry (batch : Fin 50000 → BitVec 32) (h : Fin 50000 → Fin 128 → EReal) (g : Fin 64) (k : Fin 128) :
    ∑ n : Fin 51200, padP batch g n * padX h n k
      = Ideal.div (0 + ∑ e ∈ Finset.univ.filter (fun e : Fin 50000 => (batch e).toInt = (g.val : ℤ)), h e k)
          (max (0 + ∑ e ∈ Finset.univ.filter (fun e : Fin 50000 => (batch e).toInt = (g.val : ℤ)), (1 : EReal)) 1) := by
  rw [filter_toInt_eq, count_filter (fun e : Fin 50000 => batch e = BitVec.ofNat 32 g.val)]
  refine Eq.trans ?_ (avg_law (fun e : Fin 50000 => batch e = BitVec.ofNat 32 g.val) (fun e => h e k))
  rw [LibExtReal.sum_fin_split 50000 1200 51200 rfl (fun n => padP batch g n * padX h n k)]
  have hz : ∑ r : Fin 1200, padP batch g ⟨50000 + r.val, by omega⟩ * padX h ⟨50000 + r.val, by omega⟩ k = 0 :=
    Finset.sum_eq_zero fun r _ => by
      rw [padP, dif_neg (Nat.not_lt.mpr (Nat.le_add_right 50000 r.val)), zero_mul]
  rw [hz, add_zero]
  refine Finset.sum_congr rfl fun e _ => ?_
  rw [padP, padX, dif_pos e.isLt, dif_pos e.isLt]
  rfl

/-- the classifier on top: the two programs' results agree entry by entry -/
theorem logits_entry (batch : Fin 50000 → BitVec 32) (h : Fin 50000 → Fin 128 → EReal) (W : Fin 128 → Fin 10 → EReal)
    (b : Fin 10 → EReal) (g : Fin 64) (j : Fin 10) :
    (∑ k : Fin 128, (∑ n : Fin 51200, padP batch g n * padX h n k) * W k j) + b j
      = (∑ k : Fin 128,
          Ideal.div (0 + ∑ e ∈ Finset.univ.filter (fun e : Fin 50000 => (batch e).toInt = (g.val : ℤ)), h e k)
            (max (0 + ∑ e ∈ Finset.univ.filter (fun e : Fin 50000 => (batch e).toInt = (g.val : ℤ)), (1 : EReal)) 1)
          * W k j) + b j := by
  refine congrArg (· + b j) (Finset.sum_congr rfl fun k _ => ?_)
  rw [pooled_entry]

end Cert.PoolMath

end
-- ==== Proof.Bridge.lean ====
/-
  The kernel program's five result arrays, each equal to the stage of the reference it corresponds to, for the same
  nine arguments, over the extended reals.

  Nothing new is computed here: each array is what its step's closed form says of the contents that step finds; those
  contents are the launched arguments and the earlier steps' arrays; and the closed forms are the reference's stages —
  the two products, the two bias-and-cut-off stages, and the mean pooling with the classifier on top, where the
  padded averaging product meets the sum of the selected rows divided once.
-/
import proofs.«427735_j54941221650950_1_alg».proof.Proof.SegsDefs
import proofs.«427735_j54941221650950_1_alg».proof.Proof.Val0
import proofs.«427735_j54941221650950_1_alg».proof.Proof.Val1
import proofs.«427735_j54941221650950_1_alg».proof.Proof.Val2
import proofs.«427735_j54941221650950_1_alg».proof.Proof.Val3
import proofs.«427735_j54941221650950_1_alg».proof.Proof.Val4
import proofs.«427735_j54941221650950_1_alg».proof.Proof.HostK
import proofs.«427735_j54941221650950_1_alg».proof.Proof.HostK2
import proofs.«427735_j54941221650950_1_alg».proof.Proof.RefRead
import proofs.«427735_j54941221650950_1_alg».proof.Proof.PoolFinal

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Reg
open scoped BigOperators

/-! ## The nine arguments as launched on a core -/

variable (m : (ℓ : Loc nD τ sig) → Buf (Elt Ideal) ℓ) (c : Dev nD)

/-- node features -/
abbrev a0 : (⟨Cert.ReferenceIdeal.S50000x128, .f32⟩ : BufTy).Contents (Elt Ideal) := m ((c : Thread nD τ).loc main_arg0)
/-- the edge list -/
abbrev a1 : (⟨Cert.ReferenceIdeal.S2x800000, .i32⟩ : BufTy).Contents (Elt Ideal) := m ((c : Thread nD τ).loc main_arg1)
/-- each node's graph number -/
abbrev a2 : (⟨Cert.ReferenceIdeal.S50000, .i32⟩ : BufTy).Contents (Elt Ideal) := m ((c : Thread nD τ).loc main_arg2)
/-- the first layer's weights -/
abbrev a3 : (⟨Cert.ReferenceIdeal.S128x128, .f32⟩ : BufTy).Contents (Elt Ideal) := m ((c : Thread nD τ).loc main_arg3)
/-- the first layer's bias -/
abbrev a4 : (⟨Cert.ReferenceIdeal.S128, .f32⟩ : BufTy).Contents (Elt Ideal) := m ((c : Thread nD τ).loc main_arg4)
/-- the second layer's weights -/
abbrev a5 : (⟨Cert.ReferenceIdeal.S128x128, .f32⟩ : BufTy).Contents (Elt Ideal) := m ((c : Thread nD τ).loc main_arg5)
/-- the second layer's bias -/
abbrev a6 : (⟨Cert.ReferenceIdeal.S128, .f32⟩ : BufTy).Contents (Elt Ideal) := m ((c : Thread nD τ).loc main_arg6)
/-- the classifier's weights -/
abbrev a7 : (⟨Cert.ReferenceIdeal.S128x10, .f32⟩ : BufTy).Contents (Elt Ideal) := m ((c : Thread nD τ).loc main_arg7)
/-- the classifier's bias -/
abbrev a8 : (⟨Cert.ReferenceIdeal.S10, .f32⟩ : BufTy).Contents (Elt Ideal) := m ((c : Thread nD τ).loc main_arg8)

/-! ## What each later step finds where an earlier call wrote -/

theorem outs2 : Run.outs m 2 main_v27 c = Run.o27 m c := (Run.outs_2 m main_v27 c).trans (Run.W2_v27 m c)
theorem outs5 : Run.outs m 5 main_v43 c = Run.o43 m c := (Run.outs_5 m main_v43 c).trans (Run.W5_v43 m c)
theorem outs7 : Run.outs m 7 main_v58 c = Run.o58 m c := (Run.outs_7 m main_v58 c).trans (Run.W7_v58 m c)

/-! ## The first layer -/

/-- The first product. -/
theorem o27_eq : Run.o27 m c = Cert.ReferenceIdeal.Read.val_main_v27 (F := Ideal) (a0 m c) (a3 m c) := by
  rw [Cert.RefRead.v27_eq]
  unfold Run.o27
  rw [Val.arr0]
  show Cert.Spec.mm (V1 m c main_arg0) (V1 m c main_arg3) = _
  rw [(HostK.k_in0 m c).1, (HostK.k_in0 m c).2]

/-- The aggregated messages the second call reads are the reference's. -/
theorem w3_v40 : Run.W3 m c main_v40
    = Cert.ReferenceIdeal.Read.val_main_v40 (F := Ideal) (a0 m c) (a1 m c) (a3 m c) := by
  rw [HostK.ref_v40, ← o27_eq, ← outs2]
  exact (congrFun (Run.V3_eq m c) _).symm.trans (HostK.k_v40 m (Run.outs m) c)

/-- The bias row the second call reads is the first bias laid out as one row. -/
theorem w3_v41 : (Run.W3 m c main_v41 : Cert.Spec.S1xD.Idx → EReal) = Cert.RefRead.rowOf (a4 m c) := by
  funext i
  obtain ⟨u, j, rfl⟩ : ∃ (u : Fin 1) (j : Fin 128), i = ix2 u j := ⟨i 0, i 1, eq_ix2 i⟩
  obtain rfl : u = 0 := Subsingleton.elim _ _
  exact (congrFun (congrFun (Run.V3_eq m c) main_v41).symm _).trans (HostK.k_v41_apply m (Run.outs m) c j)

/-- The first layer's output. -/
theorem o42_eq : Run.o42 m c
    = Cert.ReferenceIdeal.Read.val_main_v44 (F := Ideal) (a0 m c) (a1 m c) (a3 m c) (a4 m c) := by
  rw [Cert.RefRead.v44_eq]
  unfold Run.o42
  rw [Val.arr1]
  show Cert.Spec.br (Run.W3 m c main_v40) (Run.W3 m c main_v41) = _
  rw [w3_v40, w3_v41]

/-! ## The second layer -/

/-- The second product. -/
theorem o43_eq : Run.o43 m c
    = Cert.ReferenceIdeal.Read.val_main_v72 (F := Ideal) (a0 m c) (a1 m c) (a3 m c) (a4 m c) (a5 m c) := by
  rw [Cert.RefRead.v72_eq, ← o42_eq]
  unfold Run.o43
  rw [Val.arr2]
  show Cert.Spec.mm (Run.W4 m c main_v42) (Run.W4 m c main_arg5) = _
  rw [Run.W4_v42]
  refine congrArg (Cert.Spec.mm (Run.o42 m c)) ?_
  exact (congrFun (Run.V4_eq m c) _).symm.trans (HostK.k_in2 m (Run.outs m) c).2

/-- The aggregated messages the fourth call reads are the reference's. -/
theorem w6_v56 : Run.W6 m c main_v56
    = Cert.ReferenceIdeal.Read.val_main_v85 (F := Ideal) (a0 m c) (a1 m c) (a3 m c) (a4 m c) (a5 m c) := by
  rw [HostK.ref_v85, ← o43_eq, ← outs5]
  exact (congrFun (Run.V6_eq m c) _).symm.trans (HostK.k_v56 m (Run.outs m) c)

/-- The bias row the fourth call reads is the second bias laid out as one row. -/
theorem w6_v57 : (Run.W6 m c main_v57 : Cert.Spec.S1xD.Idx → EReal) = Cert.RefRead.rowOf (a6 m c) := by
  funext i
  obtain ⟨u, j, rfl⟩ : ∃ (u : Fin 1) (j : Fin 128), i = ix2 u j := ⟨i 0, i 1, eq_ix2 i⟩
  obtain rfl : u = 0 := Subsingleton.elim _ _
  exact (congrFun (congrFun (Run.V6_eq m c) main_v57).symm _).trans (HostK.k_v57_apply m (Run.outs m) c j)

/-- The second layer's output. -/
theorem o58_eq : Run.o58 m c
    = Cert.ReferenceIdeal.Read.val_main_v89 (F := Ideal) (a0 m c) (a1 m c) (a3 m c) (a4 m c) (a5 m c) (a6 m c) := by
  rw [Cert.RefRead.v89_eq]
  unfold Run.o58
  rw [Val.arr3]
  show Cert.Spec.br (Run.W6 m c main_v56) (Run.W6 m c main_v57) = _
  rw [w6_v56, w6_v57]

/-! ## The pooled classifier -/

/-- The averaging matrix the last call reads is the padded one of the batch words. -/
theorem p4_eq (g : Fin 64) (n : Fin 51200) :
    Val.P4 (Run.asV (Run.W11 m)) c g n = Cert.PoolMath.padP (fun e => a2 m c (ix1 e)) g n := by
  rw [Cert.PoolMath.padP]
  exact (congrFun (congrFun (Run.V11_eq m c) main_v72).symm _).trans (HostK.k_v72_apply m (Run.outs m) c g n)

/-- The features the last call reads are the second layer's output, zero-padded. -/
theorem x4_eq (n : Fin 51200) (k : Fin 128) :
    Val.X4 (Run.asV (Run.W11 m)) c n k
      = Cert.PoolMath.padX (fun e k => (Cert.ReferenceIdeal.Read.val_main_v89 (F := Ideal) (a0 m c) (a1 m c) (a3 m c)
          (a4 m c) (a5 m c) (a6 m c) (ix2 e k) : EReal)) n k := by
  rw [Cert.PoolMath.padX, ← o58_eq, ← outs7]
  exact (congrFun (congrFun (Run.V11_eq m c) main_v73).symm _).trans (HostK.k_v73_apply m (Run.outs m) c n k)

/-- The classifier's weights are read as launched. -/
theorem w4_eq (k : Fin 128) (j : Fin 10) : Val.W4 (Run.asV (Run.W11 m)) c k j = (a7 m c (ix2 k j) : EReal) :=
  congrFun ((congrFun (Run.V11_eq m c) main_arg7).symm.trans (HostK.k_in4 m (Run.outs m) c).1) _

/-- The classifier's bias is read as launched. -/
theorem b4_eq (j : Fin 10) : Val.B4 (Run.asV (Run.W11 m)) c j = (a8 m c (ix1 j) : EReal) :=
  congrFun ((congrFun (Run.V11_eq m c) main_arg8).symm.trans (HostK.k_in4 m (Run.outs m) c).2) _

/-- The program's result. -/
theorem o74_eq : Run.o74 m c
    = Cert.ReferenceIdeal.Read.val_main_v105 (F := Ideal) (a0 m c) (a1 m c) (a2 m c) (a3 m c) (a4 m c) (a5 m c) (a6 m c)
        (a7 m c) (a8 m c) := by
  funext i
  obtain ⟨g, j, rfl⟩ : ∃ (g : Fin 64) (j : Fin 10), i = ix2 g j := ⟨i 0, i 1, eq_ix2 i⟩
  rw [Cert.RefRead.v105_apply]
  unfold Run.o74
  rw [Val.arr4, Val.out4_apply]
  refine Eq.trans ?_ (Cert.PoolMath.logits_entry (fun e => a2 m c (ix1 e))
    (fun e k => (Cert.ReferenceIdeal.Read.val_main_v89 (F := Ideal) (a0 m c) (a1 m c) (a3 m c) (a4 m c) (a5 m c) (a6 m c)
      (ix2 e k) : EReal)) (fun k j => (a7 m c (ix2 k j) : EReal)) (fun j => (a8 m c (ix1 j) : EReal)) g j)
  rw [b4_eq]
  refine congrArg (· + (a8 m c (ix1 j) : EReal)) (Finset.sum_congr rfl fun k _ => ?_)
  rw [w4_eq]
  refine congrArg (· * (a7 m c (ix2 k j) : EReal)) (Finset.sum_congr rfl fun n _ => ?_)
  rw [p4_eq, x4_eq]

end Cert.KernelIdeal.Bridge

end
-- ==== Proof.Claims.lean ====
/-
  The five parts of the claim, each taken from where it is proved. The three programs run to the end from any
  memory with their argument arrays unchanged; the idealized kernel is the kernel's own text, so nothing is owed for
  the passage between them; and at the extended reals the kernel's result array and the reference's hold one and
  the same function of the nine argument arrays, so from memories that agree on the arguments the two results are
  equal entry by entry.
-/
import proofs.«427735_j54941221650950_1_alg».proof.Defs
import proofs.«427735_j54941221650950_1_alg».proof.Proof.Gen.Kernel
import proofs.«427735_j54941221650950_1_alg».proof.Proof.Gen.KernelIdeal
import proofs.«427735_j54941221650950_1_alg».proof.Proof.Gen.ReferenceIdeal
import proofs.«427735_j54941221650950_1_alg».proof.Proof.Gen.Pre_finite_inputs
import proofs.«427735_j54941221650950_1_alg».proof.Proof.Gen.ReferenceIdeal.Run
import proofs.«427735_j54941221650950_1_alg».proof.Proof.Gen.ReferenceIdeal.Read
import proofs.«427735_j54941221650950_1_alg».proof.Proof.RunMain
import proofs.«427735_j54941221650950_1_alg».proof.Proof.BRunMain
import proofs.«427735_j54941221650950_1_alg».proof.Proof.Bridge
import Idealize.ShloMosaic.Adequacy
import Idealize.ShloMosaic.Init

noncomputable section

namespace Cert.Proof.Claims

open Idealize.ShloMosaic Idealize.ShloMosaic.TcCoe Idealize.SL.Sem

/-! ## The three programs run, their arguments unchanged -/

/-- The kernel program on machine words. -/
theorem frame_k : Cert.frame_Kernel := fun m ρ _ => Cert.Kernel.Run.frame (F := Bits) m ρ

/-- The kernel program on extended reals. -/
theorem frame_ki : Cert.frame_KernelIdeal := fun m ρ _ => Cert.KernelIdeal.Run.frame (F := Ideal) m ρ

/-- The reference on extended reals: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## From words to extended reals -/

/-- No operation was rewritten on the way to the extended reals, so there is nothing to show. -/
theorem preserves : Cert.preserves_Kernel_KernelIdeal := trivial

/-! ## Kernel and reference agree on the extended reals -/

/-- Both result arrays are the reference's last stage read as a function of the nine argument arrays: the kernel's
    because its fifth call leaves exactly that function of what the run found in the arguments, the reference's
    by its own run, the two memories agreeing on every argument. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run _ _ _).mono (fun r h c => ⟨(h c).1.trans (Cert.KernelIdeal.Bridge.o74_eq m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v105_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

end
-- ==== Proof.lean ====
/-
  The claim of this certificate: a Pallas forward pass of a two-layer graph convolutional network with mean pooling and
  a linear classifier, against its plain jnp reference, equal over the extended reals.

  Both programs normalise the edge list in the same way (self-loops appended, degrees by a scatter-add of ones, the
  reciprocal square root, the two gathers multiplied) and aggregate each layer in the same way (gather the rows of
  X·W along the edges, scale by the edge norm, scatter-add at the targets): the same host operations on both sides,
  carried as one function. The kernel moves three things into pallas_calls. The product X·W is taken in ten bands of
  5000 rows: every row lies in exactly one band, so the bands are the product. The bias and the cut-off at zero are
  taken in the same ten bands, entry by entry the larger of a + b and zero. The pooling is a matrix product with the
  averaging matrix (the one-hot of the graph ids divided by max(count, 1)), accumulated over twenty blocks of 2560
  columns of an axis zero-padded from 50000 to 51200, followed by the classifier: a nonnegative finite scalar
  distributes over a finite sum of arbitrary extended reals, 0·x = 0 and 1·x = x for every x, and a word equals the
  word of g exactly when its signed reading is g (for g < 64), so the padded product is the sum of the selected rows
  divided once, which is what the reference computes; no finiteness of the activations is used.

  The three frames: each program runs to the end from any memory, faults nowhere and leaves its argument arrays as
  launched — the kernel programs (at the word level and at the extended reals) over their @main as a list of host
  stretches and pallas_calls, the reference by its run with the result dropped. The idealization rewrote nothing, so
  the word-level kernel and its idealization are one text.
-/
import proofs.«427735_j54941221650950_1_alg».proof.Proof.Claims

theorem Cert.Proof.claim : Cert.Claim := Cert.Proof.Claims.claim
